-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2x262144 : S_.BroadcastsInDim S2x262144 (![] : Fin 0 → Fin S2x262144.rank)
  reducesTo_S2x262144_S_d0_1 : S2x262144.ReducesTo [0, 1] S_

variable [Facts]

def fn_part1 {F : FTy → Type} [FloatOps F] (main_arg1 : IVec S2x262144 32) (main_v13 : IVec S_ 1) (main_v15 : IVec S2x262144 1) (main_c_5 : IVec S_ 32) : IVec S_ 1 :=
  let main_v16 : IVec S2x262144 32 := broadcastInDim S2x262144 ![] bcast_S_S2x262144 main_c_5
  let main_v17 : IVec S2x262144 1 := cmpi .slt main_arg1 main_v16
  let main_v18 : IVec S2x262144 1 := andi main_v15 main_v17
  let main_c_6 : IVec S_ 1 := constantI S_ 1 1#1
  let main_v19 : IVec S_ 1 := (fun x v => Host.reduce IntOp.andi x v reducesTo_S2x262144_S_d0_1 h_S_) main_v18 main_c_6
  let main_v20 : IVec S_ 1 := andi main_v13 main_v19
  main_v20

def fn {F : FTy → Type} [FloatOps F] (main_arg0 : FVec F S8192x512 .f32) (main_arg1 : IVec S2x262144 32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S2x262144 32 := broadcastInDim S2x262144 ![] bcast_S_S2x262144 main_c_4
  let main_v15 : IVec S2x262144 1 := cmpi .sge main_arg1 main_v14
  let main_c_5 : IVec S_ 32 := constantI S_ 32 8192#32
  fn_part1 (F := F) main_arg1 main_v13 main_v15 main_c_5
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S1 : Shape := ⟨1, ![1]⟩
abbrev S262143 : Shape := ⟨1, ![262143]⟩
abbrev S8192 : Shape := ⟨1, ![8192]⟩
abbrev S8192x1 : Shape := ⟨2, ![8192, 1]⟩
abbrev S2048x512 : Shape := ⟨2, ![2048, 512]⟩
abbrev S2048x1 : Shape := ⟨2, ![2048, 1]⟩
abbrev S1x512 : Shape := ⟨2, ![1, 512]⟩

abbrev nBuf : Space → Nat
  | .hbm => 86
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .bf16⟩
  | .hbm, ⟨9, _⟩ => ⟨S8192x8192, .bf16⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .bf16⟩
  | .hbm, ⟨28, _⟩ => ⟨S262144, .bf16⟩
  | .hbm, ⟨29, _⟩ => ⟨S8192x8192, .bf16⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S_, .i1⟩
  | .hbm, ⟨36, _⟩ => ⟨S1, .i1⟩
  | .hbm, ⟨37, _⟩ => ⟨S262143, .i32⟩
  | .hbm, ⟨38, _⟩ => ⟨S262143, .i32⟩
  | .hbm, ⟨39, _⟩ => ⟨S262143, .i1⟩
  | .hbm, ⟨40, _⟩ => ⟨S262144, .i1⟩
  | .hbm, ⟨41, _⟩ => ⟨S_, .i32⟩
  | .hbm, ⟨42, _⟩ => ⟨S262144, .i32⟩
  | .hbm, ⟨43, _⟩ => ⟨S262144, .i32⟩
  | .hbm, ⟨44, _⟩ => ⟨S262144, .i32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S262144, .i32⟩
  | .hbm, ⟨49, _⟩ => ⟨S262144, .i32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S_, .f32⟩
  | .hbm, ⟨59, _⟩ => ⟨S8192, .f32⟩
  | .hbm, ⟨60, _⟩ => ⟨S262144, .f32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S_, .i32⟩
  | .hbm, ⟨65, _⟩ => ⟨S262144, .i32⟩
  | .hbm, ⟨66, _⟩ => ⟨S262144, .i32⟩
  | .hbm, ⟨67, _⟩ => ⟨S262144, .i32⟩
  | .hbm, ⟨68, _⟩ => ⟨S262144x1, .i32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .i1⟩
  | .hbm, ⟨77, _⟩ => ⟨S8192x1, .f32⟩
  | .hbm, ⟨78, _⟩ => ⟨S_, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x512, .f32⟩
  | .hbm, ⟨83, _⟩ => ⟨S8192x512, .bf16⟩
  | .hbm, ⟨84, _⟩ => ⟨S1x512, .f32⟩
  | .hbm, ⟨85, _⟩ => ⟨S8192x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x1, .f32⟩
  | .local _ .vmem, ⟨4, _⟩ => ⟨S2048x1, .f32⟩
  | .local _ .vmem, ⟨5, _⟩ => ⟨S2048x512, .f32⟩
  | .local _ .vmem, ⟨6, _⟩ => ⟨S2048x512, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x512, .bf16⟩
  | .local _ .vmem, ⟨12, _⟩ => ⟨S512x512, .bf16⟩
  | .local _ .vmem, ⟨13, _⟩ => ⟨S2048x512, .f32⟩
  | .local _ .vmem, ⟨14, _⟩ => ⟨S2048x512, .f32⟩
  | .local _ .vmem, ⟨15, _⟩ => ⟨S2048x1, .f32⟩
  | .local _ .vmem, ⟨16, _⟩ => ⟨S2048x1, .f32⟩
  | .local _ .vmem, ⟨17, _⟩ => ⟨S1x512, .f32⟩
  | .local _ .vmem, ⟨18, _⟩ => ⟨S2048x512, .f32⟩
  | .local _ .vmem, ⟨19, _⟩ => ⟨S2048x512, .f32⟩
  | .local _ .vmem, ⟨20, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_c : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_0 : Ref sig .tc := ⟨.hbm, 54, rfl⟩
abbrev main_call1_v11 : Ref sig .tc := ⟨.hbm, 55, rfl⟩
abbrev main_call1_v12 : Ref sig .tc := ⟨.hbm, 56, rfl⟩
abbrev main_v29 : Ref sig .tc := ⟨.hbm, 57, rfl⟩
abbrev main_cst_7 : Ref sig .tc := ⟨.hbm, 58, rfl⟩
abbrev main_v30 : Ref sig .tc := ⟨.hbm, 59, rfl⟩
abbrev main_v31 : Ref sig .tc := ⟨.hbm, 60, rfl⟩
abbrev main_c_8 : Ref sig .tc := ⟨.hbm, 61, rfl⟩
abbrev main_v32 : Ref sig .tc := ⟨.hbm, 62, rfl⟩
abbrev main_v33 : Ref sig .tc := ⟨.hbm, 63, rfl⟩
abbrev main_c_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_10 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_12 : Ref sig .tc := ⟨.hbm, 78, rfl⟩
abbrev main_call2_v0 : Ref sig .tc := ⟨.hbm, 79, rfl⟩
abbrev main_call2_v1 : Ref sig .tc := ⟨.hbm, 80, rfl⟩
abbrev main_v45 : Ref sig .tc := ⟨.hbm, 81, rfl⟩
abbrev main_v46_0 : Ref sig .tc := ⟨.hbm, 82, rfl⟩
abbrev main_v46_1 : Ref sig .tc := ⟨.hbm, 83, rfl⟩
abbrev main_v47 : Ref sig .tc := ⟨.hbm, 84, rfl⟩
abbrev main_v48 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S1 : S_.BroadcastsInDim S1 (![] : Fin 0 → Fin S1.rank)
  slices_S262144_S262143_1 : S262144.Slices ![1] S262143
  slices_S262144_S262143_0 : S262144.Slices ![0] S262143
  concatenates_S1_S262143_S262144_d0 : Shape.Concatenates [S1, S262143] S262144 0
  bcast_S_S8192 : S_.BroadcastsInDim S8192 (![] : Fin 0 → Fin S8192.rank)
  shapeCasts_S8192_S8192x1 : S8192.ShapeCasts S8192x1
  bcast_S_S8192x1 : S_.BroadcastsInDim S8192x1 (![] : Fin 0 → Fin S8192x1.rank)
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  packedbf16_S2048x512_S2048x512_0_0 : (Rect.unit (s := S2048x512) ![0, 0] S2048x512.size inb_S2048x512_S2048x512_0_0).PackedRows (EltTy.packing .bf16)
  shapeCasts_S512_S1x512 : S512.ShapeCasts S1x512
  shapeCasts_S2048x512_S2048x512 : S2048x512.ShapeCasts S2048x512
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  scatter_S8192x8192_S262144x2_S262144_n_01_01_1_wf : ScatterDims.WF S8192x8192 S262144x2 S262144 [] [0, 1] [0, 1] 1
  scatter_S8192_S262144x1_S262144_n_0_0_1_wf : ScatterDims.WF S8192 S262144x1 S262144 [] [0] [0] 1
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .f32 = 32 ∨ (Rect.block (s := S8192x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x512.size a
  hwx0_4 : ∀ i : grid0.Coords, EltTy.bits .bf16 = 32 ∨ (Rect.block (s := S8192x512) S2048x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x8192.size a
  hwx1_0 : ∀ i : grid1.Coords, EltTy.bits .bf16 = 32 ∨ (Rect.block (s := S8192x8192) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S8192x512.size a
  hwx1_2 : ∀ i : grid1.Coords, EltTy.bits .f32 = 32 ∨ (Rect.block (s := S8192x512) S2048x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S8192x512.size a
  hwx1_5 : ∀ i : grid1.Coords, EltTy.bits .f32 = 32 ∨ (Rect.block (s := S8192x512) S2048x512.size (cc1_transform_5 i) (hinb1_5 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def comparator_i32_d0 : BitVec 32 → BitVec 32 → BitVec 1 :=
  fun l r =>
    let v1 := IntOp.cmpi .slt l r
    v1
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46_1) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2048x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩

abbrev nBuf : Space → Nat
  | .hbm => 59
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S_, .f32⟩
  | .hbm, ⟨6, _⟩ => ⟨S8192x8192, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x1, .i32⟩
  | .hbm, ⟨27, _⟩ => ⟨S262144x2, .i32⟩
  | .hbm, ⟨28, _⟩ => ⟨S_, .f32⟩
  | .hbm, ⟨29, _⟩ => ⟨S262144, .f32⟩
  | .hbm, ⟨30, _⟩ => ⟨S8192x8192, .f32⟩
  | .hbm, ⟨31, _⟩ => ⟨S8192x8192, .i32⟩
  | .hbm, ⟨32, _⟩ => ⟨S8192x8192, .i32⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .i1⟩
  | .hbm, ⟨45, _⟩ => ⟨S8192x1, .f32⟩
  | .hbm, ⟨46, _⟩ => ⟨S_, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S1x8192, .f32⟩
  | .hbm, ⟨53, _⟩ => ⟨S8192x8192, .f32⟩
  | .hbm, ⟨54, _⟩ => ⟨S8192x8192, .f32⟩
  | .hbm, ⟨55, _⟩ => ⟨S8192x512, .f32⟩
  | .hbm, ⟨56, _⟩ => ⟨S1x512, .f32⟩
  | .hbm, ⟨57, _⟩ => ⟨S8192x512, .f32⟩
  | .hbm, ⟨58, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  transposes_S8192x1_S1x8192_1_0 : S8192x1.Transposes [1, 0] S1x8192
  bcast_S1x8192_S8192x8192_0_1 : S1x8192.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_0_0_1_n_n_wf : DotDims.WF S8192x512 S512x512 S8192x512 [1] [0] [0] [1] [] []
  scatter_S8192x8192_S262144x2_S262144_n_01_01_1_wf : ScatterDims.WF S8192x8192 S262144x2 S262144 [] [0, 1] [0, 1] 1
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.KReg0.lean ====
import proofs.«429857_j22385369547440_3_alg».proof.Proof.Gen.Kernel.Launch
import proofs.«429857_j22385369547440_3_alg».proof.Proof.Gen.Kernel.Skeleton
import proofs.«429857_j22385369547440_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The first region of the program (the matrix product of a row block of x with the weight, and its row-scaled
    narrow copy), at arbitrary entry contents V of the core's buffers: each window's block at a grid point, what
    the body leaves in its two output windows as a function of the three input blocks, the body's triple, and the
    body obligation of the region's pipeline. Generic in the float instance. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of x) holds its block at every point, for any proof data whose array is the entry
    contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight: one block for the whole grid, brought in at the first point only) holds its block at
    every point: where it is not brought in, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the row block of the scaling column) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x512 := Rect.unit (s := S2048x512) ![0, 0] S2048x512.size inb_S2048x512_S2048x512_0_0
abbrev r0_1 : Rect S512x512 := Rect.unit (s := S512x512) ![0, 0] S512x512.size inb_S512x512_S512x512_0_0
abbrev r0_2 : Rect S2048x1 := Rect.unit (s := S2048x1) ![0, 0] S2048x1.size inb_S2048x1_S2048x1_0_0

/-! ## What the body leaves in each output window's buffer -/

/-- Window 3 after the body: the product of the x block and the weight, stored over the whole buffer. -/
def out0_3 (x0 : Vec F S2048x512 .f32) (x1 : Vec F S512x512 .f32) : Vec F S2048x512 .f32 :=
  View.canon [⟨r0_0, k0_pay1 (View.ld x0 r0_0) (View.ld x1 r0_1)⟩]

/-- Window 4 after the body: that product scaled row by row by the column and rounded to the narrow format, stored
    over the whole buffer. -/
def out0_4 (x0 : Vec F S2048x512 .f32) (x1 : Vec F S512x512 .f32) (x2 : Vec F S2048x1 .f32) : Vec F S2048x512 .bf16 :=
  View.canon [⟨r0_0, k0_pay2 (View.ld x0 r0_0) (View.ld x1 r0_1) (View.ld x2 r0_2)⟩]

/-- The one store of window 3 tiles its buffer, so it covers it. -/
theorem cover0_3 (p0 : Vec F S2048x512 .f32) (y : S2048x512.Idx) :
    ∃ pc ∈ ([⟨r0_0, p0⟩] : List (View.Piece (Elt F) S2048x512 .f32)), y ∈ pc.1.set :=
  View.cover_of_tiled [⟨r0_0, p0⟩] S2048x512.size (by rfl) y

/-- The one store of window 4 tiles its buffer, so it covers it. -/
theorem cover0_4 (p0 : Vec F S2048x512 .bf16) (y : S2048x512.Idx) :
    ∃ pc ∈ ([⟨r0_0, p0⟩] : List (View.Piece (Elt F) S2048x512 .bf16)), y ∈ pc.1.set :=
  View.cover_of_tiled [⟨r0_0, p0⟩] S2048x512.size (by rfl) y

/-! ## The body's triple -/

set_option maxHeartbeats 1000000 in
/-- The body on whole staging memrefs, the inputs' at read contents x0, x1, x2 and the outputs' at anything, runs to
    the continuation holding the inputs' as they were and each output's at what its one store leaves. -/
theorem sound_kernel0 (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S2048x1 .f32) (harg3 : arg3.IsWhole) (arg4 : Memref sig .tc .vmem S2048x512 .f32) (harg4 : arg4.IsWhole)
    (arg5 : Memref sig .tc .vmem S2048x512 .bf16) (harg5 : arg5.IsWhole)
    (x0 : Vec F S2048x512 .f32) (x1 : Vec F S512x512 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__matmul1_kernel i arg1 harg1 arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the region's pipeline on core c: the arrays as the region finds them; after the body at point
    t each input's buffer at its block and each output's at what the body's store leaves, of the input blocks;
    the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KReg1.lean ====
import proofs.«429857_j22385369547440_3_alg».proof.Proof.Gen.Kernel.Launch
import proofs.«429857_j22385369547440_3_alg».proof.Proof.Gen.Kernel.Skeleton
import proofs.«429857_j22385369547440_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The first conditional of the body: the reduction coordinate is 0. -/
abbrev cond1_0 (i : grid1.Coords) : Prop := (Scalar.cmpi .ne (Scalar.extui (Scalar.cmpi .eq (BitVec.ofNat 32 (i 1).val) 0#32)) 0#32) = 1#1
/-- It holds exactly at the points whose reduction coordinate is 0. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional of the body: the reduction coordinate is the last one. -/
abbrev cond1_1 (i : grid1.Coords) : Prop := k1_cond2 i = 1#1
/-- It holds exactly at the points whose reduction coordinate is 15. -/
theorem hcond1_1 : ∀ t : Fin cfg1.N, cond1_1 (grid1.coords t) ↔ t.val % 16 = 15 :=
  (by decide +kernel : ∀ t : Fin grid1.N, cond1_1 (grid1.coords t) ↔ t.val % 16 = 15)

set_option maxHeartbeats 1000000 in
/-- The body at a point of step 0 but not the last step, on whole buffers: the five inputs at their contents, the result
    buffer at contents `xi5` it does not touch, the accumulator at anything. It runs to the continuation holding the inputs
    and the result buffer as they were and the accumulator with the pieces `LS0` written (last first): the reset to zero,
    then the step's sum. The pieces are found by running the body. -/
noncomputable def kernelRun1_A (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : cond1_0 i) (hc1 : ¬cond1_1 i)
    (x0 : Vec F S2048x512 .bf16) (x1 : Vec F S512x512 .bf16) (x2 : Vec F S2048x512 .f32) (x3 : Vec F S2048x1 .f32) (x4 : Vec F S1x512 .f32) :
    Σ' (L5 : List (View.Piece (Elt F) S2048x512 .f32)), { LS0 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)) -∗ K ⟨⟩))
          ⊢ wp frame (wpE (defs₀ (F := F)) Variants.none c none) E (cc1__final_kernel i arg2 harg2 arg3 harg3 arg4 harg4 arg5 harg5 arg6 harg6 arg7 harg7 arg8 harg8) K } := by
  refine ⟨[], ?_, fun xi5 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The body at a point of a middle step (neither 0 nor the last), on whole buffers: the five inputs at their contents, the
    result buffer at contents `xi5` it does not touch, the accumulator at what the point before left (`xs0`). It runs to
    the continuation holding the inputs and the result buffer as they were and the accumulator with the piece `LS0`
    written: the step's sum. -/
noncomputable def kernelRun1_B (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : ¬cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) :
    Σ' (L5 : List (View.Piece (Elt F) S2048x512 .f32)), { LS0 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)) -∗ K ⟨⟩))
          ⊢ wp frame (wpE (defs₀ (F := F)) Variants.none c none) E (cc1__final_kernel i arg2 harg2 arg3 harg3 arg4 harg4 arg5 harg5 arg6 harg6 arg7 harg7 arg8 harg8) K } := by
  refine ⟨[], ?_, fun xi5 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The body at a point of the last step (not step 0), on whole buffers: the five inputs at their contents, the result
    buffer at anything, the accumulator at what the point before left (`xs0`). It runs to the continuation holding the
    inputs as they were, the accumulator with the piece `LS0` written (the step's sum) and the result buffer with the
    piece `L5` written (the result block formed from the accumulator just stored). -/
noncomputable def kernelRun1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) :
    Σ' (L5 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc1__final_kernel i arg2 harg2 arg3 harg3 arg4 harg4 arg5 harg5 arg6 harg6 arg7 harg7 arg8 harg8) K } := by
  refine ⟨?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

/-! ## What the pieces the runs found hold -/

theorem hz1 : (![0, 0] : Fin 2 → Nat) = fun _ => 0 := funext fun a => by fin_cases a <;> rfl

/-- The accumulator's pieces at step 0 tile it, so they cover it. -/
theorem scover1_A (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : cond1_0 i) (hc1 : ¬cond1_1 i)
    (x0 : Vec F S2048x512 .bf16) (x1 : Vec F S512x512 .bf16) (x2 : Vec F S2048x512 .f32) (x3 : Vec F S2048x1 .f32) (x4 : Vec F S1x512 .f32) (y : S2048x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x512.size (by sl_kernel_rfl) y

/-- Read back over any prior contents they are the step's product added to zero: the later piece covers the buffer, and
    the accumulator it reloads is the zero block just stored. -/
theorem sread1_A (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : cond1_0 i) (hc1 : ¬cond1_1 i)
    (x0 : Vec F S2048x512 .bf16) (x1 : Vec F S512x512 .bf16) (x2 : Vec F S2048x512 .f32) (x3 : Vec F S2048x1 .f32) (x4 : Vec F S1x512 .f32) (f : arg8.view.ty.Contents (Elt F)) :
    arg8.view.read (Elt F) (arg8.view.writes (Elt F) f (kernelRun1_A c i arg2 harg2 arg3 harg3 arg4 harg4 arg5 harg5 arg6 harg6 arg7 harg7 arg8 harg8 hc0 hc1 x0 x1 x2 x3 x4).2.1) = k1_pay2 (k1_pay1 (F := F)) x0 x1 := by
  rw [View.read_writes_eq_canon _ _ _ (scover1_A c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S2048x512) hz1, View.readCov_unit_zero (S := S2048x512) _ hz1]
  simp only [View.readAt_eq_ld, harg2.read_unread, harg3.read_unread, View.ld_unit_zero (S := S2048x512) hz1, View.ld_unit_zero (S := S512x512) hz1]

/-- The accumulator's piece at a middle step tiles it, so it covers it. -/
theorem scover1_B (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : ¬cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (y : S2048x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x512.size (by sl_kernel_rfl) y

/-- Read back over any prior contents it is the step's product added to what the accumulator held. -/
theorem sread1_B (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : ¬cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (f : arg8.view.ty.Contents (Elt F)) :
    arg8.view.read (Elt F) (arg8.view.writes (Elt F) f (kernelRun1_B c i arg2 harg2 arg3 harg3 arg4 harg4 arg5 harg5 arg6 harg6 arg7 harg7 arg8 harg8 hc0 hc1 x0 x1 x2 x3 x4 xs0).2.1) = k1_pay2 xs0 x0 x1 := by
  rw [View.read_writes_eq_canon _ _ _ (scover1_B c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_cons_unit_zero (S := S2048x512) hz1]
  simp only [View.readAt_eq_ld, harg2.read_unread, harg3.read_unread, harg8.read_unread, View.ld_unit_zero (S := S2048x512) hz1, View.ld_unit_zero (S := S512x512) hz1]

/-- The accumulator's piece at the last step tiles it, so it covers it. -/
theorem scover1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x512.size (by sl_kernel_rfl) y

/-- Read back over any prior contents it is the step's product added to what the accumulator held. -/
theorem sread1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (f : arg8.view.ty.Contents (Elt F)) :
    arg8.view.read (Elt F) (arg8.view.writes (Elt F) f (kernelRun1_C c i arg2 harg2 arg3 harg3 arg4 harg4 arg5 harg5 arg6 harg6 arg7 harg7 arg8 harg8 hc0 hc1 x0 x1 x2 x3 x4 xs0).2.1) = k1_pay2 xs0 x0 x1 := by
  rw [View.read_writes_eq_canon _ _ _ (scover1_C c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_cons_unit_zero (S := S2048x512) hz1]
  simp only [View.readAt_eq_ld, harg2.read_unread, harg3.read_unread, harg8.read_unread, View.ld_unit_zero (S := S2048x512) hz1, View.ld_unit_zero (S := S512x512) hz1]

/-- The result buffer's piece at the last step tiles it, so it covers it. -/
theorem cover1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x512.size (by sl_kernel_rfl) y

/-- Read back over any prior contents it is the result block formed from the column, the accumulator as the step leaves it,
    the support block and the bias row: the accumulator it reloads is the sum just stored. -/
theorem read1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (f : arg7.view.ty.Contents (Elt F)) :
    arg7.view.read (Elt F) (arg7.view.writes (Elt F) f (kernelRun1_C c i arg2 harg2 arg3 harg3 arg4 harg4 arg5 harg5 arg6 harg6 arg7 harg7 arg8 harg8 hc0 hc1 x0 x1 x2 x3 x4 xs0).1) = k1_pay3 x3 (k1_pay2 xs0 x0 x1) x2 x4 := by
  rw [View.read_writes_eq_canon _ _ _ (cover1_C c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_cons_unit_zero (S := S2048x512) hz1]
  simp only [View.readAt_eq_ld, harg2.read_unread, harg3.read_unread, harg4.read_unread, harg5.read_unread, harg6.read_unread, harg8.read_unread,
    View.readCov_unit_zero (S := S2048x512) _ hz1,
    View.ld_unit_zero (S := S2048x512) hz1, View.ld_unit_zero (S := S512x512) hz1, View.ld_unit_zero (S := S2048x1) hz1, View.ld_unit_zero (S := S1x512) hz1]

/-! ## The windows' blocks -/

/-- Window `w`'s block at point `t`, read off its array as the region finds it (`V`). -/
def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the accumulator and the result block hold after each point

The grid is 4 row blocks by 16 reduction steps; point `n` is row block `n / 16`, step `n % 16`. The accumulator is set to
zero at step 0 and at every step receives the product of the adjacency block and the scaled-support block of the step; at
step 15 the result block is formed from the accumulator, the column `d`, the support block and the bias row. -/

/-- The accumulator after point `n`: at step 0 the step's product added to zero, at a later step added to what the point
    before left. -/
def scAt1 (V : (c : Dev nD) → (b : Ref sig .tc) → Buf (Elt F) ((c : Thread nD τ).loc b)) (c : Dev nD) : (n : ℕ) → n < cfg1.N → Vec F S2048x512 .f32
  | 0, hn => k1_pay2 (k1_pay1 (F := F)) (iblk1 V c 0 ⟨0, hn⟩) (iblk1 V c 1 ⟨0, hn⟩)
  | n + 1, hn =>
    if (n + 1) % 16 = 0 then k1_pay2 (k1_pay1 (F := F)) (iblk1 V c 0 ⟨n + 1, hn⟩) (iblk1 V c 1 ⟨n + 1, hn⟩)
    else k1_pay2 (scAt1 V c n (Nat.lt_of_succ_lt hn)) (iblk1 V c 0 ⟨n + 1, hn⟩) (iblk1 V c 1 ⟨n + 1, hn⟩)

/-- After point `n`: what the result window's buffer holds (at step 15 the result block formed from the accumulator; at
    the other steps the body stores nothing there and the component is a placeholder nothing reads), and the accumulator. -/
def outsAt1 (V : (c : Dev nD) → (b : Ref sig .tc) → Buf (Elt F) ((c : Thread nD τ).loc b)) (c : Dev nD) : (n : ℕ) → n < cfg1.N → Vec F S2048x512 .f32 × Vec F S2048x512 .f32 :=
  fun n hn =>
    (if n % 16 = 15 then k1_pay3 (iblk1 V c 3 ⟨n, hn⟩) (scAt1 V c n hn) (iblk1 V c 2 ⟨n, hn⟩) (iblk1 V c 4 ⟨n, hn⟩)
      else k1_pay1 (F := F),
     scAt1 V c n hn)

/-- At step 0 the accumulator is the step's product added to zero. -/
theorem scAt1_A (V : (c : Dev nD) → (b : Ref sig .tc) → Buf (Elt F) ((c : Thread nD τ).loc b)) (c : Dev nD) (t : Fin cfg1.N) (h : t.val % 16 = 0) :
    (outsAt1 V c t.val t.isLt).2 = k1_pay2 (k1_pay1 (F := F)) (iblk1 V c 0 t) (iblk1 V c 1 t) := by
  obtain ⟨n, hn⟩ := t
  cases n with
  | zero => rfl
  | succ n => exact if_pos h

/-- At a later step the accumulator is the step's product added to what the point before left. -/
theorem scAt1_BC (V : (c : Dev nD) → (b : Ref sig .tc) → Buf (Elt F) ((c : Thread nD τ).loc b)) (c : Dev nD) (t : Fin cfg1.N) (h : t.val % 16 ≠ 0) :
    (outsAt1 V c t.val t.isLt).2 = k1_pay2 (outsAt1 V c (t.val - 1) (by omega)).2 (iblk1 V c 0 t) (iblk1 V c 1 t) := by
  obtain ⟨n, hn⟩ := t
  cases n with
  | zero => exact absurd (Nat.zero_mod _) h
  | succ n => exact if_neg h

/-- At step 15 the result block is formed from the column `d`, the accumulator, the support block and the bias row. -/
theorem outAt1_C (V : (c : Dev nD) → (b : Ref sig .tc) → Buf (Elt F) ((c : Thread nD τ).loc b)) (c : Dev nD) (t : Fin cfg1.N) (h : t.val % 16 = 15) :
    (outsAt1 V c t.val t.isLt).1 = k1_pay3 (iblk1 V c 3 t) (outsAt1 V c t.val t.isLt).2 (iblk1 V c 2 t) (iblk1 V c 4 t) :=
  if_pos h

/-! ## The region invariant -/

/-- The accumulator buffer, a scoped buffer of the kernel's own that the body is handed whole beside the windows. -/
abbrev scM1_0 : Memref sig .tc .vmem S2048x512 .f32 := Memref.whole cc1_scratch0

/-- A scoped buffer of the core whole at some contents. -/
abbrev held1 (c : Dev nD) (b : Ref sig .tc) : sProp 𝕄 :=
  iprop(∃ f : Buf (Elt F) ((c : Thread nD τ).loc b), ((c : Thread nD τ).loc b) ↦{fullShare} f)

/-- The scoped buffers of the core that are no staging buffer of this region: the other region's nine staging buffers,
    each at some contents, and the accumulator as `S` describes it. -/
def rest1 (c : Dev nD) (S : sProp 𝕄) : sProp 𝕄 :=
  iprop(held1 c cc0_stg0_0 ∗ held1 c cc0_stg0_1 ∗ held1 c cc0_stg1_0 ∗ held1 c cc0_stg2_0 ∗ held1 c cc0_stg2_1
    ∗ held1 c cc0_stg3_0 ∗ held1 c cc0_stg3_1 ∗ held1 c cc0_stg4_0 ∗ held1 c cc0_stg4_1 ∗ S)

/-- The invariant before position `n`: before the first point the class's (every scoped buffer that is no staging buffer
    at anything, the generator register at some state); afterwards the same with the accumulator at what the point before
    left in it. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

/-! ## The pipeline's proof data -/

/-- The proof data of the pipeline on core `c`: the arrays as the region finds them (`V`); after the body at point `t`
    each input's buffer at its block and the result window's at `outsAt1`'s first component; the invariant `PhiS1`;
    nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (V : (c : Dev nD) → (b : Ref sig .tc) → Buf (Elt F) ((c : Thread nD τ).loc b)) (c : Dev nD) (w : Fin cfg1.W) : (dat1 V c).A w = V c (Pipeline.arrRef spec1 w) := by
  dsimp only [dat1]

/-- What the body leaves, window by window. -/
theorem after1_0 (V : (c : Dev nD) → (b : Ref sig .tc) → Buf (Elt F) ((c : Thread nD τ).loc b)) (c : Dev nD) (t : Fin cfg1.N) : (dat1 V c).after 0 t = iblk1 V c 0 t := by dsimp only [dat1]
theorem after1_1 (V : (c : Dev nD) → (b : Ref sig .tc) → Buf (Elt F) ((c : Thread nD τ).loc b)) (c : Dev nD) (t : Fin cfg1.N) : (dat1 V c).after 1 t = iblk1 V c 1 t := by dsimp only [dat1]
theorem after1_2 (V : (c : Dev nD) → (b : Ref sig .tc) → Buf (Elt F) ((c : Thread nD τ).loc b)) (c : Dev nD) (t : Fin cfg1.N) : (dat1 V c).after 2 t = iblk1 V c 2 t := by dsimp only [dat1]
theorem after1_3 (V : (c : Dev nD) → (b : Ref sig .tc) → Buf (Elt F) ((c : Thread nD τ).loc b)) (c : Dev nD) (t : Fin cfg1.N) : (dat1 V c).after 3 t = iblk1 V c 3 t := by dsimp only [dat1]
theorem after1_4 (V : (c : Dev nD) → (b : Ref sig .tc) → Buf (Elt F) ((c : Thread nD τ).loc b)) (c : Dev nD) (t : Fin cfg1.N) : (dat1 V c).after 4 t = iblk1 V c 4 t := by dsimp only [dat1]
theorem after1_5 (V : (c : Dev nD) → (b : Ref sig .tc) → Buf (Elt F) ((c : Thread nD τ).loc b)) (c : Dev nD) (t : Fin cfg1.N) : (dat1 V c).after 5 t = (outsAt1 V c t.val t.isLt).1 := by dsimp only [dat1]

/-! ## Where the result window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- At a point that is not of the last step the configuration calls the result window idle, -/
theorem idleAt1_5 : ∀ t : Fin cfg1.N, ¬cond1_1 (grid1.coords t) → cfg1.idle 5 (grid1.coords t) = true := by decide +kernel
/-- and the pipeline does not write its block back there. -/
theorem noFlush1_5 : ∀ t : Fin cfg1.N, ¬cond1_1 (grid1.coords t) → (cfg1.win 5).flush t = false := by decide +kernel
/-- At a point of the last step the window is live. -/
theorem liveAt1_5 : ∀ t : Fin cfg1.N, cond1_1 (grid1.coords t) → cfg1.idle 5 (grid1.coords t) = false := by decide +kernel

/-! ## The staging memrefs at a point, and the invariant's forms -/

abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x512 .f32 := win1_5.stage (cfg1.slots t 5)
abbrev hs1_5 (t : Fin cfg1.N) : (ms1_5 t).IsWhole := hstage1_5 ((cfg1.slots t 5).cast nbuf1_5)

/-- The class's invariant with the accumulator as a memref owned at some contents. -/
theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; try rfl

theorem PhiS1_zero (V : (c : Dev nD) → (b : Ref sig .tc) → Buf (Elt F) ((c : Thread nD τ).loc b)) (c : Dev nD) (n : ℕ) (h : n ≤ cfg1.N) (hz : n = 0) : PhiS1 V c n h = Pipeline.ΦA spec1 c := by
  subst hz; rfl

/-- After point `n`: the accumulator at that point's contents. -/
theorem PhiS1_succ (V : (c : Dev nD) → (b : Ref sig .tc) → Buf (Elt F) ((c : Thread nD τ).loc b)) (c : Dev nD) (n : ℕ) (hn : n < cfg1.N) :
    PhiS1 V c (n + 1) hn = iprop(rest1 c (owns (c : Thread nD τ) scM1_0 fullShare ((outsAt1 V c n hn).2)) ∗ (∃ r, prngReg c r)) := rfl

/-- Before a point that is not the first: the accumulator at what the point before left. -/
theorem PhiS1_pos (V : (c : Dev nD) → (b : Ref sig .tc) → Buf (Elt F) ((c : Thread nD τ).loc b)) (c : Dev nD) (n : ℕ) (h : n ≤ cfg1.N) (hz : n ≠ 0) :
    PhiS1 V c n h = iprop(rest1 c (owns (c : Thread nD τ) scM1_0 fullShare ((outsAt1 V c (n - 1) (by omega)).2)) ∗ (∃ r, prngReg c r)) := by
  cases n with
  | zero => exact absurd rfl hz
  | succ n => rfl

/-- The invariant at a point's start, restated at the point's position. -/
theorem PhiS1_castSucc (V : (c : Dev nD) → (b : Ref sig .tc) → Buf (Elt F) ((c : Thread nD τ).loc b)) (c : Dev nD) (t : Fin cfg1.N) :
    (dat1 V c).Φ t.castSucc = PhiS1 V c t.val (Nat.le_of_lt t.isLt) := by
  dsimp only [dat1]; simp only [Fin.coe_castSucc]

/-! ## Each input's buffer holds its block at every point, fetched there or not -/

theorem before1_0 (V : (c : Dev nD) → (b : Ref sig .tc) → Buf (Elt F) ((c : Thread nD τ).loc b)) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (V : (c : Dev nD) → (b : Ref sig .tc) → Buf (Elt F) ((c : Thread nD τ).loc b)) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (V : (c : Dev nD) → (b : Ref sig .tc) → Buf (Elt F) ((c : Thread nD τ).loc b)) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (V : (c : Dev nD) → (b : Ref sig .tc) → Buf (Elt F) ((c : Thread nD τ).loc b)) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (V : (c : Dev nD) → (b : Ref sig .tc) → Buf (Elt F) ((c : Thread nD τ).loc b)) (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the step decides the case. At step 0 the accumulator is
    handed over at anything (what the point before left, or at the first point whatever the launch found) and taken back
    at the step's product added to zero; at a later step it is handed over at what the point before left and taken back
    with the step's product added. The result buffer is handed back untouched except at the last step, where it is taken
    back at the result block. The other scoped buffers, the generator register and what the core owes pass through. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [scAt1_A V c t h0]
    by_cases hz : t.val = 0
    · rw [PhiS1_castSucc V c t, PhiS1_zero V c _ _ hz, PhiA1_eq]; unfold rest1
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact sread1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) es0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]; unfold rest1
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact sread1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) es0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outAt1_C V c t h1, scAt1_BC V c t h0]
      rw [PhiS1_castSucc V c t, PhiS1_pos V c _ _ hz]; unfold rest1
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (by omega)).2).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact sread1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (by omega)).2 es0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact read1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (by omega)).2 e5
    · rw [Dat.leavesExact_idle (dat1 V c) 5 t (idleAt1_5 t (fun h => h1 ((hcond1_1 t).mp h))) (noFlush1_5 t (fun h => h1 ((hcond1_1 t).mp h)))]
      rw [scAt1_BC V c t h0]
      rw [PhiS1_castSucc V c t, PhiS1_pos V c _ _ hz]; unfold rest1
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (by omega)).2).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact sread1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (by omega)).2 es0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (V : (c : Dev nD) → (b : Ref sig .tc) → Buf (Elt F) ((c : Thread nD τ).loc b)) (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's contents are forgotten. -/
theorem Phi_out1 (V : (c : Dev nD) → (b : Ref sig .tc) → Buf (Elt F) ((c : Thread nD τ).loc b)) (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold rest1
  iintro ⟨⟨R1, R2, R3, R4, R5, R6, R7, R8, R9, HS0⟩, Hg⟩
  isplitl [R1 R2 R3 R4 R5 R6 R7 R8 R9 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

/-- The same after the last point. -/
theorem hout1 (V : (c : Dev nD) → (b : Ref sig .tc) → Buf (Elt F) ((c : Thread nD τ).loc b)) (c : Dev nD) : (dat1 V c).Φ (Fin.last cfg1.N) ⊢ Pipeline.ΦA spec1 c :=
  Phi_out1 V c _ (by rw [Fin.val_last]; have : cfg1.N = 64 := N_1; omega)

end Cert.Kernel.Gen

end
-- ==== Proof.KRun.lean ====
/-
  The run of the whole program: the buffer contents at each boundary between two items of the entry function (six
  stretches of host operations, the first kernel region, one more host operation, the second kernel region), the proof
  data of the two pipelines at their regions' entry contents, each region as a segment over the thread state "every
  unscoped buffer at the boundary's contents, the generator register at some state, nothing owed", and the launch: every
  weakly fair execution terminates and the final memory holds, at every unscoped buffer, the last boundary's contents.
  From it: the argument arrays end as launched (no host operation and no region writes one), and the result array
  ends at what the second region's write-backs leave.
-/
import proofs.«429857_j22385369547440_3_alg».proof.Proof.Gen.Kernel.Regions
import proofs.«429857_j22385369547440_3_alg».proof.Proof.KReg0
import proofs.«429857_j22385369547440_3_alg».proof.Proof.KReg1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The first region's entry contents (after the six host stretches), read at the TensorCore's references. -/
abbrev E6 : (c : Dev nD) → (b : Ref sig .tc) → Buf (Elt F) ((c : Thread nD τ).loc b) := fun c b => V6 m c b

/-- At the first region's exit: its arrays at what the pipeline leaves (inputs as entered, each output's write-backs
    folded), every other buffer as entered. -/
def W7 (c : Dev nD) : Valuation τ sig (Elt F) :=
  Pipeline.withArrays spec0 c (V6 m c) fun w => (dat0 (E6 m) c).arrAt w cfg0.N
theorem W7_arr (c : Dev nD) (w : Fin cfg0.W) :
    W7 m c (Proc.devRef .tc (Pipeline.arrRef spec0 w)) = (dat0 (E6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb
abbrev E7 : (c : Dev nD) → (b : Ref sig .tc) → Buf (Elt F) ((c : Thread nD τ).loc b) := fun c b => W7 m c b
theorem hF0 (c : Dev nD) (w : Fin cfg0.W) : (dat0 (E6 m) c).arrAt w cfg0.N = E7 m c (Pipeline.arrRef spec0 w) :=
  (W7_arr m c w).symm
theorem hrest0 (c : Dev nD) : ∀ b, b ∉ Finset.univ.image (Pipeline.arrRef spec0) → E7 m c b = E6 m c b :=
  fun b hb => W7_of_ne m c b fun w e => hb (Finset.mem_image.mpr ⟨w, Finset.mem_univ _, e⟩)

/-- After the one host operation between the regions (the second region's entry). -/
abbrev W8 : Dev nD → Valuation τ sig (Elt F) := fun c => StableHlo.after hostOps1 (W7 m c)
abbrev E8 : (c : Dev nD) → (b : Ref sig .tc) → Buf (Elt F) ((c : Thread nD τ).loc b) := fun c b => W8 m c b

/-- At the second region's exit. -/
def W9 (c : Dev nD) : Valuation τ sig (Elt F) :=
  Pipeline.withArrays spec1 c (W8 m c) fun w => (dat1 (E8 m) c).arrAt w cfg1.N
theorem W9_arr (c : Dev nD) (w : Fin cfg1.W) :
    W9 m c (Proc.devRef .tc (Pipeline.arrRef spec1 w)) = (dat1 (E8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
abbrev E9 : (c : Dev nD) → (b : Ref sig .tc) → Buf (Elt F) ((c : Thread nD τ).loc b) := fun c b => W9 m c b
theorem hF1 (c : Dev nD) (w : Fin cfg1.W) : (dat1 (E8 m) c).arrAt w cfg1.N = E9 m c (Pipeline.arrRef spec1 w) :=
  (W9_arr m c w).symm
theorem hrest1 (c : Dev nD) : ∀ b, b ∉ Finset.univ.image (Pipeline.arrRef spec1) → E9 m c b = E8 m c b :=
  fun b hb => W9_of_ne m c b fun w e => hb (Finset.mem_image.mpr ⟨w, Finset.mem_univ _, e⟩)

/-! ## What the boundaries hold at the buffers the value of the result depends on -/

/-- No host stretch before the first region writes an argument. -/
theorem V6_main_arg0 (c : Dev nD) : V6 m c main_arg0 = m ((c : Thread nD τ).loc main_arg0) :=
  (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem V6_main_arg1 (c : Dev nD) : V6 m c main_arg1 = m ((c : Thread nD τ).loc main_arg1) :=
  (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem V6_main_arg2 (c : Dev nD) : V6 m c main_arg2 = m ((c : Thread nD τ).loc main_arg2) :=
  (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem V6_main_arg3 (c : Dev nD) : V6 m c main_arg3 = m ((c : Thread nD τ).loc main_arg3) :=
  (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-- The first region reads its input arrays and leaves them as entered. -/
theorem W7_in (c : Dev nD) (w : Fin cfg0.W) (hw : (cfg0.win w).isOut = false) :
    W7 m c (Proc.devRef .tc (Pipeline.arrRef spec0 w)) = V6 m c (Proc.devRef .tc (Pipeline.arrRef spec0 w)) :=
  (W7_arr m c w).trans (((dat0 (E6 m) c).arrAt_in w hw _).trans (A_eq0 (E6 m) c w))
/-- The host operation between the regions writes only the reshaped bias. -/
theorem W8_of (c : Dev nD) (r : Ref sig .tc) (h : r ∉ hostOps1_W) : W8 m c r = W7 m c r :=
  StableHlo.after_of_writes_sub hostOps1 _ hostOps1_writes h
/-- The second region reads its input arrays and leaves them as entered. -/
theorem W9_in (c : Dev nD) (w : Fin cfg1.W) (hw : (cfg1.win w).isOut = false) :
    W9 m c (Proc.devRef .tc (Pipeline.arrRef spec1 w)) = W8 m c (Proc.devRef .tc (Pipeline.arrRef spec1 w)) :=
  (W9_arr m c w).trans (((dat1 (E8 m) c).arrAt_in w hw _).trans (A_eq1 (E8 m) c w))

theorem W9_main_arg0 (c : Dev nD) : W9 m c main_arg0 = m ((c : Thread nD τ).loc main_arg0) :=
  (W9_of_ne m c main_arg0 (by decide)).trans <| (W8_of m c main_arg0 (by decide)).trans <| (W7_in m c 0 rfl).trans (V6_main_arg0 m c)
theorem W9_main_arg1 (c : Dev nD) : W9 m c main_arg1 = m ((c : Thread nD τ).loc main_arg1) :=
  (W9_of_ne m c main_arg1 (by decide)).trans <| (W8_of m c main_arg1 (by decide)).trans <| (W7_of_ne m c main_arg1 (by decide)).trans (V6_main_arg1 m c)
theorem W9_main_arg2 (c : Dev nD) : W9 m c main_arg2 = m ((c : Thread nD τ).loc main_arg2) :=
  (W9_of_ne m c main_arg2 (by decide)).trans <| (W8_of m c main_arg2 (by decide)).trans <| (W7_in m c 1 rfl).trans (V6_main_arg2 m c)
theorem W9_main_arg3 (c : Dev nD) : W9 m c main_arg3 = m ((c : Thread nD τ).loc main_arg3) :=
  (W9_of_ne m c main_arg3 (by decide)).trans <| (W8_of m c main_arg3 (by decide)).trans <| (W7_of_ne m c main_arg3 (by decide)).trans (V6_main_arg3 m c)

/-- The result array ends at what the second region's write-backs leave. -/
theorem W9_main_v48 (c : Dev nD) : W9 m c main_v48 = (dat1 (E8 m) c).arrAt 5 cfg1.N := W9_arr m c 5

/-- What the second region finds in each of its input arrays. -/
theorem E8_main_v19 (c : Dev nD) : E8 m c main_v19 = V6 m c main_v19 :=
  (W8_of m c main_v19 (by decide)).trans (W7_of_ne m c main_v19 (by decide))
theorem E8_main_v45 (c : Dev nD) : E8 m c main_v45 = V6 m c main_v45 :=
  (W8_of m c main_v45 (by decide)).trans (W7_in m c 2 rfl)
theorem E8_main_v46_0 (c : Dev nD) : E8 m c main_v46_0 = (dat0 (E6 m) c).arrAt 3 cfg0.N :=
  (W8_of m c main_v46_0 (by decide)).trans (W7_arr m c 3)
theorem E8_main_v46_1 (c : Dev nD) : E8 m c main_v46_1 = (dat0 (E6 m) c).arrAt 4 cfg0.N :=
  (W8_of m c main_v46_1 (by decide)).trans (W7_arr m c 4)
theorem W7_main_arg3 (c : Dev nD) : W7 m c main_arg3 = m ((c : Thread nD τ).loc main_arg3) :=
  (W7_of_ne m c main_arg3 (by decide)).trans (V6_main_arg3 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E6 m) c
  | ⟨1, _⟩ => fun c => dat1 (E8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- The first region: entered from every unscoped buffer at the sixth boundary's contents, left at `W7`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E6 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (E6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E6 m c) (E7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W8`, left at `W9`. Its invariant carries the kernel's scratch
    accumulator from point to point; before the first point and after the last it is the scoped rest at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E8 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E8 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E8 m c) (E9 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The nine items in order: a host segment per stretch from its boundary's contents, a region per kernel call. -/
abbrev segsR : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .region (reg0 m),
    .host (hseg hostOps1 hostOps1_sub hostOps1_fresh (W7 m)),
    .region (reg1 m) ]

set_option backward.isDefEq.respectTransparency.types false in
/-- THE RUN: from any memory with zero counters, every weakly fair execution of the entry function on the TensorCores
    terminates, nothing faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segsR m)
    (fun c Q => by
      rewrite [main_chain c, Pipeline.Seg.run_eq_chain,
        show (segsR m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()) ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- THE FRAME at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c)⟩) (run_main m ρ)

/-- The run read at the result array and the arguments. -/
theorem run_value : θ_run defs (onTc (τ := τ) (main (F := F))) ⟨m, fun _ => 0, ρ⟩ (fun r => ∀ c : Dev nD,
      r.2.mem ((c.tc : Thread nD τ).loc main_v48) = (dat1 (E8 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v48 (by decide))).trans (W9_main_v48 m c),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c)⟩) (run_main m ρ)

end Cert.Kernel.Gen

end
-- ==== Proof.Reg0.lean ====
import proofs.«429857_j22385369547440_3_alg».proof.Proof.Gen.KernelIdeal.Launch
import proofs.«429857_j22385369547440_3_alg».proof.Proof.Gen.KernelIdeal.Skeleton
import proofs.«429857_j22385369547440_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The first region of the program (the matrix product of a row block of x with the weight, and its row-scaled
    narrow copy), at arbitrary entry contents V of the core's buffers: each window's block at a grid point, what
    the body leaves in its two output windows as a function of the three input blocks, the body's triple, and the
    body obligation of the region's pipeline. Generic in the float instance. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of x) holds its block at every point, for any proof data whose array is the entry
    contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight: one block for the whole grid, brought in at the first point only) holds its block at
    every point: where it is not brought in, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the row block of the scaling column) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x512 := Rect.unit (s := S2048x512) ![0, 0] S2048x512.size inb_S2048x512_S2048x512_0_0
abbrev r0_1 : Rect S512x512 := Rect.unit (s := S512x512) ![0, 0] S512x512.size inb_S512x512_S512x512_0_0
abbrev r0_2 : Rect S2048x1 := Rect.unit (s := S2048x1) ![0, 0] S2048x1.size inb_S2048x1_S2048x1_0_0

/-! ## What the body leaves in each output window's buffer -/

/-- Window 3 after the body: the product of the x block and the weight, stored over the whole buffer. -/
def out0_3 (x0 : Vec F S2048x512 .f32) (x1 : Vec F S512x512 .f32) : Vec F S2048x512 .f32 :=
  View.canon [⟨r0_0, k0_pay1 (View.ld x0 r0_0) (View.ld x1 r0_1)⟩]

/-- Window 4 after the body: that product scaled row by row by the column and rounded to the narrow format, stored
    over the whole buffer. -/
def out0_4 (x0 : Vec F S2048x512 .f32) (x1 : Vec F S512x512 .f32) (x2 : Vec F S2048x1 .f32) : Vec F S2048x512 .bf16 :=
  View.canon [⟨r0_0, k0_pay2 (View.ld x0 r0_0) (View.ld x1 r0_1) (View.ld x2 r0_2)⟩]

/-- The one store of window 3 tiles its buffer, so it covers it. -/
theorem cover0_3 (p0 : Vec F S2048x512 .f32) (y : S2048x512.Idx) :
    ∃ pc ∈ ([⟨r0_0, p0⟩] : List (View.Piece (Elt F) S2048x512 .f32)), y ∈ pc.1.set :=
  View.cover_of_tiled [⟨r0_0, p0⟩] S2048x512.size (by rfl) y

/-- The one store of window 4 tiles its buffer, so it covers it. -/
theorem cover0_4 (p0 : Vec F S2048x512 .bf16) (y : S2048x512.Idx) :
    ∃ pc ∈ ([⟨r0_0, p0⟩] : List (View.Piece (Elt F) S2048x512 .bf16)), y ∈ pc.1.set :=
  View.cover_of_tiled [⟨r0_0, p0⟩] S2048x512.size (by rfl) y

/-! ## The body's triple -/

set_option maxHeartbeats 1000000 in
/-- The body on whole staging memrefs, the inputs' at read contents x0, x1, x2 and the outputs' at anything, runs to
    the continuation holding the inputs' as they were and each output's at what its one store leaves. -/
theorem sound_kernel0 (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S2048x1 .f32) (harg3 : arg3.IsWhole) (arg4 : Memref sig .tc .vmem S2048x512 .f32) (harg4 : arg4.IsWhole)
    (arg5 : Memref sig .tc .vmem S2048x512 .bf16) (harg5 : arg5.IsWhole)
    (x0 : Vec F S2048x512 .f32) (x1 : Vec F S512x512 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__matmul1_kernel i arg1 harg1 arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the region's pipeline on core c: the arrays as the region finds them; after the body at point
    t each input's buffer at its block and each output's at what the body's store leaves, of the input blocks;
    the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.Reg1.lean ====
import proofs.«429857_j22385369547440_3_alg».proof.Proof.Gen.KernelIdeal.Launch
import proofs.«429857_j22385369547440_3_alg».proof.Proof.Gen.KernelIdeal.Skeleton
import proofs.«429857_j22385369547440_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The first conditional of the body: the reduction coordinate is 0. -/
abbrev cond1_0 (i : grid1.Coords) : Prop := (Scalar.cmpi .ne (Scalar.extui (Scalar.cmpi .eq (BitVec.ofNat 32 (i 1).val) 0#32)) 0#32) = 1#1
/-- It holds exactly at the points whose reduction coordinate is 0. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional of the body: the reduction coordinate is the last one. -/
abbrev cond1_1 (i : grid1.Coords) : Prop := k1_cond2 i = 1#1
/-- It holds exactly at the points whose reduction coordinate is 15. -/
theorem hcond1_1 : ∀ t : Fin cfg1.N, cond1_1 (grid1.coords t) ↔ t.val % 16 = 15 :=
  (by decide +kernel : ∀ t : Fin grid1.N, cond1_1 (grid1.coords t) ↔ t.val % 16 = 15)

set_option maxHeartbeats 1000000 in
/-- The body at a point of step 0 but not the last step, on whole buffers: the five inputs at their contents, the result
    buffer at contents `xi5` it does not touch, the accumulator at anything. It runs to the continuation holding the inputs
    and the result buffer as they were and the accumulator with the pieces `LS0` written (last first): the reset to zero,
    then the step's sum. The pieces are found by running the body. -/
noncomputable def kernelRun1_A (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : cond1_0 i) (hc1 : ¬cond1_1 i)
    (x0 : Vec F S2048x512 .bf16) (x1 : Vec F S512x512 .bf16) (x2 : Vec F S2048x512 .f32) (x3 : Vec F S2048x1 .f32) (x4 : Vec F S1x512 .f32) :
    Σ' (L5 : List (View.Piece (Elt F) S2048x512 .f32)), { LS0 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)) -∗ K ⟨⟩))
          ⊢ wp frame (wpE (defs₀ (F := F)) Variants.none c none) E (cc1__final_kernel i arg2 harg2 arg3 harg3 arg4 harg4 arg5 harg5 arg6 harg6 arg7 harg7 arg8 harg8) K } := by
  refine ⟨[], ?_, fun xi5 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The body at a point of a middle step (neither 0 nor the last), on whole buffers: the five inputs at their contents, the
    result buffer at contents `xi5` it does not touch, the accumulator at what the point before left (`xs0`). It runs to
    the continuation holding the inputs and the result buffer as they were and the accumulator with the piece `LS0`
    written: the step's sum. -/
noncomputable def kernelRun1_B (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : ¬cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) :
    Σ' (L5 : List (View.Piece (Elt F) S2048x512 .f32)), { LS0 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)) -∗ K ⟨⟩))
          ⊢ wp frame (wpE (defs₀ (F := F)) Variants.none c none) E (cc1__final_kernel i arg2 harg2 arg3 harg3 arg4 harg4 arg5 harg5 arg6 harg6 arg7 harg7 arg8 harg8) K } := by
  refine ⟨[], ?_, fun xi5 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The body at a point of the last step (not step 0), on whole buffers: the five inputs at their contents, the result
    buffer at anything, the accumulator at what the point before left (`xs0`). It runs to the continuation holding the
    inputs as they were, the accumulator with the piece `LS0` written (the step's sum) and the result buffer with the
    piece `L5` written (the result block formed from the accumulator just stored). -/
noncomputable def kernelRun1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) :
    Σ' (L5 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc1__final_kernel i arg2 harg2 arg3 harg3 arg4 harg4 arg5 harg5 arg6 harg6 arg7 harg7 arg8 harg8) K } := by
  refine ⟨?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

/-! ## What the pieces the runs found hold -/

theorem hz1 : (![0, 0] : Fin 2 → Nat) = fun _ => 0 := funext fun a => by fin_cases a <;> rfl

/-- The accumulator's pieces at step 0 tile it, so they cover it. -/
theorem scover1_A (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : cond1_0 i) (hc1 : ¬cond1_1 i)
    (x0 : Vec F S2048x512 .bf16) (x1 : Vec F S512x512 .bf16) (x2 : Vec F S2048x512 .f32) (x3 : Vec F S2048x1 .f32) (x4 : Vec F S1x512 .f32) (y : S2048x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x512.size (by sl_kernel_rfl) y

/-- Read back over any prior contents they are the step's product added to zero: the later piece covers the buffer, and
    the accumulator it reloads is the zero block just stored. -/
theorem sread1_A (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : cond1_0 i) (hc1 : ¬cond1_1 i)
    (x0 : Vec F S2048x512 .bf16) (x1 : Vec F S512x512 .bf16) (x2 : Vec F S2048x512 .f32) (x3 : Vec F S2048x1 .f32) (x4 : Vec F S1x512 .f32) (f : arg8.view.ty.Contents (Elt F)) :
    arg8.view.read (Elt F) (arg8.view.writes (Elt F) f (kernelRun1_A c i arg2 harg2 arg3 harg3 arg4 harg4 arg5 harg5 arg6 harg6 arg7 harg7 arg8 harg8 hc0 hc1 x0 x1 x2 x3 x4).2.1) = k1_pay2 (k1_pay1 (F := F)) x0 x1 := by
  rw [View.read_writes_eq_canon _ _ _ (scover1_A c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S2048x512) hz1, View.readCov_unit_zero (S := S2048x512) _ hz1]
  simp only [View.readAt_eq_ld, harg2.read_unread, harg3.read_unread, View.ld_unit_zero (S := S2048x512) hz1, View.ld_unit_zero (S := S512x512) hz1]

/-- The accumulator's piece at a middle step tiles it, so it covers it. -/
theorem scover1_B (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : ¬cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (y : S2048x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x512.size (by sl_kernel_rfl) y

/-- Read back over any prior contents it is the step's product added to what the accumulator held. -/
theorem sread1_B (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : ¬cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (f : arg8.view.ty.Contents (Elt F)) :
    arg8.view.read (Elt F) (arg8.view.writes (Elt F) f (kernelRun1_B c i arg2 harg2 arg3 harg3 arg4 harg4 arg5 harg5 arg6 harg6 arg7 harg7 arg8 harg8 hc0 hc1 x0 x1 x2 x3 x4 xs0).2.1) = k1_pay2 xs0 x0 x1 := by
  rw [View.read_writes_eq_canon _ _ _ (scover1_B c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_cons_unit_zero (S := S2048x512) hz1]
  simp only [View.readAt_eq_ld, harg2.read_unread, harg3.read_unread, harg8.read_unread, View.ld_unit_zero (S := S2048x512) hz1, View.ld_unit_zero (S := S512x512) hz1]

/-- The accumulator's piece at the last step tiles it, so it covers it. -/
theorem scover1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x512.size (by sl_kernel_rfl) y

/-- Read back over any prior contents it is the step's product added to what the accumulator held. -/
theorem sread1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (f : arg8.view.ty.Contents (Elt F)) :
    arg8.view.read (Elt F) (arg8.view.writes (Elt F) f (kernelRun1_C c i arg2 harg2 arg3 harg3 arg4 harg4 arg5 harg5 arg6 harg6 arg7 harg7 arg8 harg8 hc0 hc1 x0 x1 x2 x3 x4 xs0).2.1) = k1_pay2 xs0 x0 x1 := by
  rw [View.read_writes_eq_canon _ _ _ (scover1_C c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_cons_unit_zero (S := S2048x512) hz1]
  simp only [View.readAt_eq_ld, harg2.read_unread, harg3.read_unread, harg8.read_unread, View.ld_unit_zero (S := S2048x512) hz1, View.ld_unit_zero (S := S512x512) hz1]

/-- The result buffer's piece at the last step tiles it, so it covers it. -/
theorem cover1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x512.size (by sl_kernel_rfl) y

/-- Read back over any prior contents it is the result block formed from the column, the accumulator as the step leaves it,
    the support block and the bias row: the accumulator it reloads is the sum just stored. -/
theorem read1_C (c : Dev nD) (i : grid1.Coords)
    (arg2 : Memref sig .tc .vmem S2048x512 .bf16) (harg2 : arg2.IsWhole) (arg3 : Memref sig .tc .vmem S512x512 .bf16) (harg3 : arg3.IsWhole)
    (arg4 : Memref sig .tc .vmem S2048x512 .f32) (harg4 : arg4.IsWhole) (arg5 : Memref sig .tc .vmem S2048x1 .f32) (harg5 : arg5.IsWhole)
    (arg6 : Memref sig .tc .vmem S1x512 .f32) (harg6 : arg6.IsWhole) (arg7 : Memref sig .tc .vmem S2048x512 .f32) (harg7 : arg7.IsWhole)
    (arg8 : Memref sig .tc .vmem S2048x512 .f32) (harg8 : arg8.IsWhole) (hc0 : ¬cond1_0 i) (hc1 : cond1_1 i)
    (x0 : Vec F S2048x512 .bf16) (x1 : Vec F S512x512 .bf16) (x2 : Vec F S2048x512 .f32) (x3 : Vec F S2048x1 .f32) (x4 : Vec F S1x512 .f32) (xs0 : Vec F S2048x512 .f32) (f : arg7.view.ty.Contents (Elt F)) :
    arg7.view.read (Elt F) (arg7.view.writes (Elt F) f (kernelRun1_C c i arg2 harg2 arg3 harg3 arg4 harg4 arg5 harg5 arg6 harg6 arg7 harg7 arg8 harg8 hc0 hc1 x0 x1 x2 x3 x4 xs0).1) = k1_pay3 x3 (k1_pay2 xs0 x0 x1) x2 x4 := by
  rw [View.read_writes_eq_canon _ _ _ (cover1_C c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_cons_unit_zero (S := S2048x512) hz1]
  simp only [View.readAt_eq_ld, harg2.read_unread, harg3.read_unread, harg4.read_unread, harg5.read_unread, harg6.read_unread, harg8.read_unread,
    View.readCov_unit_zero (S := S2048x512) _ hz1,
    View.ld_unit_zero (S := S2048x512) hz1, View.ld_unit_zero (S := S512x512) hz1, View.ld_unit_zero (S := S2048x1) hz1, View.ld_unit_zero (S := S1x512) hz1]

/-! ## The windows' blocks -/

/-- Window `w`'s block at point `t`, read off its array as the region finds it (`V`). -/
def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the accumulator and the result block hold after each point

The grid is 4 row blocks by 16 reduction steps; point `n` is row block `n / 16`, step `n % 16`. The accumulator is set to
zero at step 0 and at every step receives the product of the adjacency block and the scaled-support block of the step; at
step 15 the result block is formed from the accumulator, the column `d`, the support block and the bias row. -/

/-- The accumulator after point `n`: at step 0 the step's product added to zero, at a later step added to what the point
    before left. -/
def scAt1 (V : (c : Dev nD) → (b : Ref sig .tc) → Buf (Elt F) ((c : Thread nD τ).loc b)) (c : Dev nD) : (n : ℕ) → n < cfg1.N → Vec F S2048x512 .f32
  | 0, hn => k1_pay2 (k1_pay1 (F := F)) (iblk1 V c 0 ⟨0, hn⟩) (iblk1 V c 1 ⟨0, hn⟩)
  | n + 1, hn =>
    if (n + 1) % 16 = 0 then k1_pay2 (k1_pay1 (F := F)) (iblk1 V c 0 ⟨n + 1, hn⟩) (iblk1 V c 1 ⟨n + 1, hn⟩)
    else k1_pay2 (scAt1 V c n (Nat.lt_of_succ_lt hn)) (iblk1 V c 0 ⟨n + 1, hn⟩) (iblk1 V c 1 ⟨n + 1, hn⟩)

/-- After point `n`: what the result window's buffer holds (at step 15 the result block formed from the accumulator; at
    the other steps the body stores nothing there and the component is a placeholder nothing reads), and the accumulator. -/
def outsAt1 (V : (c : Dev nD) → (b : Ref sig .tc) → Buf (Elt F) ((c : Thread nD τ).loc b)) (c : Dev nD) : (n : ℕ) → n < cfg1.N → Vec F S2048x512 .f32 × Vec F S2048x512 .f32 :=
  fun n hn =>
    (if n % 16 = 15 then k1_pay3 (iblk1 V c 3 ⟨n, hn⟩) (scAt1 V c n hn) (iblk1 V c 2 ⟨n, hn⟩) (iblk1 V c 4 ⟨n, hn⟩)
      else k1_pay1 (F := F),
     scAt1 V c n hn)

/-- At step 0 the accumulator is the step's product added to zero. -/
theorem scAt1_A (V : (c : Dev nD) → (b : Ref sig .tc) → Buf (Elt F) ((c : Thread nD τ).loc b)) (c : Dev nD) (t : Fin cfg1.N) (h : t.val % 16 = 0) :
    (outsAt1 V c t.val t.isLt).2 = k1_pay2 (k1_pay1 (F := F)) (iblk1 V c 0 t) (iblk1 V c 1 t) := by
  obtain ⟨n, hn⟩ := t
  cases n with
  | zero => rfl
  | succ n => exact if_pos h

/-- At a later step the accumulator is the step's product added to what the point before left. -/
theorem scAt1_BC (V : (c : Dev nD) → (b : Ref sig .tc) → Buf (Elt F) ((c : Thread nD τ).loc b)) (c : Dev nD) (t : Fin cfg1.N) (h : t.val % 16 ≠ 0) :
    (outsAt1 V c t.val t.isLt).2 = k1_pay2 (outsAt1 V c (t.val - 1) (by omega)).2 (iblk1 V c 0 t) (iblk1 V c 1 t) := by
  obtain ⟨n, hn⟩ := t
  cases n with
  | zero => exact absurd (Nat.zero_mod _) h
  | succ n => exact if_neg h

/-- At step 15 the result block is formed from the column `d`, the accumulator, the support block and the bias row. -/
theorem outAt1_C (V : (c : Dev nD) → (b : Ref sig .tc) → Buf (Elt F) ((c : Thread nD τ).loc b)) (c : Dev nD) (t : Fin cfg1.N) (h : t.val % 16 = 15) :
    (outsAt1 V c t.val t.isLt).1 = k1_pay3 (iblk1 V c 3 t) (outsAt1 V c t.val t.isLt).2 (iblk1 V c 2 t) (iblk1 V c 4 t) :=
  if_pos h

/-! ## The region invariant -/

/-- The accumulator buffer, a scoped buffer of the kernel's own that the body is handed whole beside the windows. -/
abbrev scM1_0 : Memref sig .tc .vmem S2048x512 .f32 := Memref.whole cc1_scratch0

/-- A scoped buffer of the core whole at some contents. -/
abbrev held1 (c : Dev nD) (b : Ref sig .tc) : sProp 𝕄 :=
  iprop(∃ f : Buf (Elt F) ((c : Thread nD τ).loc b), ((c : Thread nD τ).loc b) ↦{fullShare} f)

/-- The scoped buffers of the core that are no staging buffer of this region: the other region's nine staging buffers,
    each at some contents, and the accumulator as `S` describes it. -/
def rest1 (c : Dev nD) (S : sProp 𝕄) : sProp 𝕄 :=
  iprop(held1 c cc0_stg0_0 ∗ held1 c cc0_stg0_1 ∗ held1 c cc0_stg1_0 ∗ held1 c cc0_stg2_0 ∗ held1 c cc0_stg2_1
    ∗ held1 c cc0_stg3_0 ∗ held1 c cc0_stg3_1 ∗ held1 c cc0_stg4_0 ∗ held1 c cc0_stg4_1 ∗ S)

/-- The invariant before position `n`: before the first point the class's (every scoped buffer that is no staging buffer
    at anything, the generator register at some state); afterwards the same with the accumulator at what the point before
    left in it. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

/-! ## The pipeline's proof data -/

/-- The proof data of the pipeline on core `c`: the arrays as the region finds them (`V`); after the body at point `t`
    each input's buffer at its block and the result window's at `outsAt1`'s first component; the invariant `PhiS1`;
    nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (V : (c : Dev nD) → (b : Ref sig .tc) → Buf (Elt F) ((c : Thread nD τ).loc b)) (c : Dev nD) (w : Fin cfg1.W) : (dat1 V c).A w = V c (Pipeline.arrRef spec1 w) := by
  dsimp only [dat1]

/-- What the body leaves, window by window. -/
theorem after1_0 (V : (c : Dev nD) → (b : Ref sig .tc) → Buf (Elt F) ((c : Thread nD τ).loc b)) (c : Dev nD) (t : Fin cfg1.N) : (dat1 V c).after 0 t = iblk1 V c 0 t := by dsimp only [dat1]
theorem after1_1 (V : (c : Dev nD) → (b : Ref sig .tc) → Buf (Elt F) ((c : Thread nD τ).loc b)) (c : Dev nD) (t : Fin cfg1.N) : (dat1 V c).after 1 t = iblk1 V c 1 t := by dsimp only [dat1]
theorem after1_2 (V : (c : Dev nD) → (b : Ref sig .tc) → Buf (Elt F) ((c : Thread nD τ).loc b)) (c : Dev nD) (t : Fin cfg1.N) : (dat1 V c).after 2 t = iblk1 V c 2 t := by dsimp only [dat1]
theorem after1_3 (V : (c : Dev nD) → (b : Ref sig .tc) → Buf (Elt F) ((c : Thread nD τ).loc b)) (c : Dev nD) (t : Fin cfg1.N) : (dat1 V c).after 3 t = iblk1 V c 3 t := by dsimp only [dat1]
theorem after1_4 (V : (c : Dev nD) → (b : Ref sig .tc) → Buf (Elt F) ((c : Thread nD τ).loc b)) (c : Dev nD) (t : Fin cfg1.N) : (dat1 V c).after 4 t = iblk1 V c 4 t := by dsimp only [dat1]
theorem after1_5 (V : (c : Dev nD) → (b : Ref sig .tc) → Buf (Elt F) ((c : Thread nD τ).loc b)) (c : Dev nD) (t : Fin cfg1.N) : (dat1 V c).after 5 t = (outsAt1 V c t.val t.isLt).1 := by dsimp only [dat1]

/-! ## Where the result window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- At a point that is not of the last step the configuration calls the result window idle, -/
theorem idleAt1_5 : ∀ t : Fin cfg1.N, ¬cond1_1 (grid1.coords t) → cfg1.idle 5 (grid1.coords t) = true := by decide +kernel
/-- and the pipeline does not write its block back there. -/
theorem noFlush1_5 : ∀ t : Fin cfg1.N, ¬cond1_1 (grid1.coords t) → (cfg1.win 5).flush t = false := by decide +kernel
/-- At a point of the last step the window is live. -/
theorem liveAt1_5 : ∀ t : Fin cfg1.N, cond1_1 (grid1.coords t) → cfg1.idle 5 (grid1.coords t) = false := by decide +kernel

/-! ## The staging memrefs at a point, and the invariant's forms -/

abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x512 .f32 := win1_5.stage (cfg1.slots t 5)
abbrev hs1_5 (t : Fin cfg1.N) : (ms1_5 t).IsWhole := hstage1_5 ((cfg1.slots t 5).cast nbuf1_5)

/-- The class's invariant with the accumulator as a memref owned at some contents. -/
theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; try rfl

theorem PhiS1_zero (V : (c : Dev nD) → (b : Ref sig .tc) → Buf (Elt F) ((c : Thread nD τ).loc b)) (c : Dev nD) (n : ℕ) (h : n ≤ cfg1.N) (hz : n = 0) : PhiS1 V c n h = Pipeline.ΦA spec1 c := by
  subst hz; rfl

/-- After point `n`: the accumulator at that point's contents. -/
theorem PhiS1_succ (V : (c : Dev nD) → (b : Ref sig .tc) → Buf (Elt F) ((c : Thread nD τ).loc b)) (c : Dev nD) (n : ℕ) (hn : n < cfg1.N) :
    PhiS1 V c (n + 1) hn = iprop(rest1 c (owns (c : Thread nD τ) scM1_0 fullShare ((outsAt1 V c n hn).2)) ∗ (∃ r, prngReg c r)) := rfl

/-- Before a point that is not the first: the accumulator at what the point before left. -/
theorem PhiS1_pos (V : (c : Dev nD) → (b : Ref sig .tc) → Buf (Elt F) ((c : Thread nD τ).loc b)) (c : Dev nD) (n : ℕ) (h : n ≤ cfg1.N) (hz : n ≠ 0) :
    PhiS1 V c n h = iprop(rest1 c (owns (c : Thread nD τ) scM1_0 fullShare ((outsAt1 V c (n - 1) (by omega)).2)) ∗ (∃ r, prngReg c r)) := by
  cases n with
  | zero => exact absurd rfl hz
  | succ n => rfl

/-- The invariant at a point's start, restated at the point's position. -/
theorem PhiS1_castSucc (V : (c : Dev nD) → (b : Ref sig .tc) → Buf (Elt F) ((c : Thread nD τ).loc b)) (c : Dev nD) (t : Fin cfg1.N) :
    (dat1 V c).Φ t.castSucc = PhiS1 V c t.val (Nat.le_of_lt t.isLt) := by
  dsimp only [dat1]; simp only [Fin.coe_castSucc]

/-! ## Each input's buffer holds its block at every point, fetched there or not -/

theorem before1_0 (V : (c : Dev nD) → (b : Ref sig .tc) → Buf (Elt F) ((c : Thread nD τ).loc b)) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (V : (c : Dev nD) → (b : Ref sig .tc) → Buf (Elt F) ((c : Thread nD τ).loc b)) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (V : (c : Dev nD) → (b : Ref sig .tc) → Buf (Elt F) ((c : Thread nD τ).loc b)) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (V : (c : Dev nD) → (b : Ref sig .tc) → Buf (Elt F) ((c : Thread nD τ).loc b)) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (V : (c : Dev nD) → (b : Ref sig .tc) → Buf (Elt F) ((c : Thread nD τ).loc b)) (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the step decides the case. At step 0 the accumulator is
    handed over at anything (what the point before left, or at the first point whatever the launch found) and taken back
    at the step's product added to zero; at a later step it is handed over at what the point before left and taken back
    with the step's product added. The result buffer is handed back untouched except at the last step, where it is taken
    back at the result block. The other scoped buffers, the generator register and what the core owes pass through. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [scAt1_A V c t h0]
    by_cases hz : t.val = 0
    · rw [PhiS1_castSucc V c t, PhiS1_zero V c _ _ hz, PhiA1_eq]; unfold rest1
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact sread1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) es0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]; unfold rest1
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact sread1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) es0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outAt1_C V c t h1, scAt1_BC V c t h0]
      rw [PhiS1_castSucc V c t, PhiS1_pos V c _ _ hz]; unfold rest1
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (by omega)).2).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact sread1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (by omega)).2 es0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact read1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (by omega)).2 e5
    · rw [Dat.leavesExact_idle (dat1 V c) 5 t (idleAt1_5 t (fun h => h1 ((hcond1_1 t).mp h))) (noFlush1_5 t (fun h => h1 ((hcond1_1 t).mp h)))]
      rw [scAt1_BC V c t h0]
      rw [PhiS1_castSucc V c t, PhiS1_pos V c _ _ hz]; unfold rest1
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (by omega)).2).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact sread1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (by omega)).2 es0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (V : (c : Dev nD) → (b : Ref sig .tc) → Buf (Elt F) ((c : Thread nD τ).loc b)) (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's contents are forgotten. -/
theorem Phi_out1 (V : (c : Dev nD) → (b : Ref sig .tc) → Buf (Elt F) ((c : Thread nD τ).loc b)) (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold rest1
  iintro ⟨⟨R1, R2, R3, R4, R5, R6, R7, R8, R9, HS0⟩, Hg⟩
  isplitl [R1 R2 R3 R4 R5 R6 R7 R8 R9 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

/-- The same after the last point. -/
theorem hout1 (V : (c : Dev nD) → (b : Ref sig .tc) → Buf (Elt F) ((c : Thread nD τ).loc b)) (c : Dev nD) : (dat1 V c).Φ (Fin.last cfg1.N) ⊢ Pipeline.ΦA spec1 c :=
  Phi_out1 V c _ (by rw [Fin.val_last]; have : cfg1.N = 64 := N_1; omega)

end Cert.KernelIdeal.Gen

end
-- ==== Proof.Run.lean ====
/-
  The run of the whole program: the buffer contents at each boundary between two items of the entry function (six
  stretches of host operations, the first kernel region, one more host operation, the second kernel region), the proof
  data of the two pipelines at their regions' entry contents, each region as a segment over the thread state "every
  unscoped buffer at the boundary's contents, the generator register at some state, nothing owed", and the launch: every
  weakly fair execution terminates and the final memory holds, at every unscoped buffer, the last boundary's contents.
  From it: the argument arrays end as launched (no host operation and no region writes one), and the result array
  ends at what the second region's write-backs leave.
-/
import proofs.«429857_j22385369547440_3_alg».proof.Proof.Gen.KernelIdeal.Regions
import proofs.«429857_j22385369547440_3_alg».proof.Proof.Reg0
import proofs.«429857_j22385369547440_3_alg».proof.Proof.Reg1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The first region's entry contents (after the six host stretches), read at the TensorCore's references. -/
abbrev E6 : (c : Dev nD) → (b : Ref sig .tc) → Buf (Elt F) ((c : Thread nD τ).loc b) := fun c b => V6 m c b

/-- At the first region's exit: its arrays at what the pipeline leaves (inputs as entered, each output's write-backs
    folded), every other buffer as entered. -/
def W7 (c : Dev nD) : Valuation τ sig (Elt F) :=
  Pipeline.withArrays spec0 c (V6 m c) fun w => (dat0 (E6 m) c).arrAt w cfg0.N
theorem W7_arr (c : Dev nD) (w : Fin cfg0.W) :
    W7 m c (Proc.devRef .tc (Pipeline.arrRef spec0 w)) = (dat0 (E6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb
abbrev E7 : (c : Dev nD) → (b : Ref sig .tc) → Buf (Elt F) ((c : Thread nD τ).loc b) := fun c b => W7 m c b
theorem hF0 (c : Dev nD) (w : Fin cfg0.W) : (dat0 (E6 m) c).arrAt w cfg0.N = E7 m c (Pipeline.arrRef spec0 w) :=
  (W7_arr m c w).symm
theorem hrest0 (c : Dev nD) : ∀ b, b ∉ Finset.univ.image (Pipeline.arrRef spec0) → E7 m c b = E6 m c b :=
  fun b hb => W7_of_ne m c b fun w e => hb (Finset.mem_image.mpr ⟨w, Finset.mem_univ _, e⟩)

/-- After the one host operation between the regions (the second region's entry). -/
abbrev W8 : Dev nD → Valuation τ sig (Elt F) := fun c => StableHlo.after hostOps1 (W7 m c)
abbrev E8 : (c : Dev nD) → (b : Ref sig .tc) → Buf (Elt F) ((c : Thread nD τ).loc b) := fun c b => W8 m c b

/-- At the second region's exit. -/
def W9 (c : Dev nD) : Valuation τ sig (Elt F) :=
  Pipeline.withArrays spec1 c (W8 m c) fun w => (dat1 (E8 m) c).arrAt w cfg1.N
theorem W9_arr (c : Dev nD) (w : Fin cfg1.W) :
    W9 m c (Proc.devRef .tc (Pipeline.arrRef spec1 w)) = (dat1 (E8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
abbrev E9 : (c : Dev nD) → (b : Ref sig .tc) → Buf (Elt F) ((c : Thread nD τ).loc b) := fun c b => W9 m c b
theorem hF1 (c : Dev nD) (w : Fin cfg1.W) : (dat1 (E8 m) c).arrAt w cfg1.N = E9 m c (Pipeline.arrRef spec1 w) :=
  (W9_arr m c w).symm
theorem hrest1 (c : Dev nD) : ∀ b, b ∉ Finset.univ.image (Pipeline.arrRef spec1) → E9 m c b = E8 m c b :=
  fun b hb => W9_of_ne m c b fun w e => hb (Finset.mem_image.mpr ⟨w, Finset.mem_univ _, e⟩)

/-! ## What the boundaries hold at the buffers the value of the result depends on -/

/-- No host stretch before the first region writes an argument. -/
theorem V6_main_arg0 (c : Dev nD) : V6 m c main_arg0 = m ((c : Thread nD τ).loc main_arg0) :=
  (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem V6_main_arg1 (c : Dev nD) : V6 m c main_arg1 = m ((c : Thread nD τ).loc main_arg1) :=
  (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem V6_main_arg2 (c : Dev nD) : V6 m c main_arg2 = m ((c : Thread nD τ).loc main_arg2) :=
  (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem V6_main_arg3 (c : Dev nD) : V6 m c main_arg3 = m ((c : Thread nD τ).loc main_arg3) :=
  (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-- The first region reads its input arrays and leaves them as entered. -/
theorem W7_in (c : Dev nD) (w : Fin cfg0.W) (hw : (cfg0.win w).isOut = false) :
    W7 m c (Proc.devRef .tc (Pipeline.arrRef spec0 w)) = V6 m c (Proc.devRef .tc (Pipeline.arrRef spec0 w)) :=
  (W7_arr m c w).trans (((dat0 (E6 m) c).arrAt_in w hw _).trans (A_eq0 (E6 m) c w))
/-- The host operation between the regions writes only the reshaped bias. -/
theorem W8_of (c : Dev nD) (r : Ref sig .tc) (h : r ∉ hostOps1_W) : W8 m c r = W7 m c r :=
  StableHlo.after_of_writes_sub hostOps1 _ hostOps1_writes h
/-- The second region reads its input arrays and leaves them as entered. -/
theorem W9_in (c : Dev nD) (w : Fin cfg1.W) (hw : (cfg1.win w).isOut = false) :
    W9 m c (Proc.devRef .tc (Pipeline.arrRef spec1 w)) = W8 m c (Proc.devRef .tc (Pipeline.arrRef spec1 w)) :=
  (W9_arr m c w).trans (((dat1 (E8 m) c).arrAt_in w hw _).trans (A_eq1 (E8 m) c w))

theorem W9_main_arg0 (c : Dev nD) : W9 m c main_arg0 = m ((c : Thread nD τ).loc main_arg0) :=
  (W9_of_ne m c main_arg0 (by decide)).trans <| (W8_of m c main_arg0 (by decide)).trans <| (W7_in m c 0 rfl).trans (V6_main_arg0 m c)
theorem W9_main_arg1 (c : Dev nD) : W9 m c main_arg1 = m ((c : Thread nD τ).loc main_arg1) :=
  (W9_of_ne m c main_arg1 (by decide)).trans <| (W8_of m c main_arg1 (by decide)).trans <| (W7_of_ne m c main_arg1 (by decide)).trans (V6_main_arg1 m c)
theorem W9_main_arg2 (c : Dev nD) : W9 m c main_arg2 = m ((c : Thread nD τ).loc main_arg2) :=
  (W9_of_ne m c main_arg2 (by decide)).trans <| (W8_of m c main_arg2 (by decide)).trans <| (W7_in m c 1 rfl).trans (V6_main_arg2 m c)
theorem W9_main_arg3 (c : Dev nD) : W9 m c main_arg3 = m ((c : Thread nD τ).loc main_arg3) :=
  (W9_of_ne m c main_arg3 (by decide)).trans <| (W8_of m c main_arg3 (by decide)).trans <| (W7_of_ne m c main_arg3 (by decide)).trans (V6_main_arg3 m c)

/-- The result array ends at what the second region's write-backs leave. -/
theorem W9_main_v48 (c : Dev nD) : W9 m c main_v48 = (dat1 (E8 m) c).arrAt 5 cfg1.N := W9_arr m c 5

/-- What the second region finds in each of its input arrays. -/
theorem E8_main_v19 (c : Dev nD) : E8 m c main_v19 = V6 m c main_v19 :=
  (W8_of m c main_v19 (by decide)).trans (W7_of_ne m c main_v19 (by decide))
theorem E8_main_v45 (c : Dev nD) : E8 m c main_v45 = V6 m c main_v45 :=
  (W8_of m c main_v45 (by decide)).trans (W7_in m c 2 rfl)
theorem E8_main_v46_0 (c : Dev nD) : E8 m c main_v46_0 = (dat0 (E6 m) c).arrAt 3 cfg0.N :=
  (W8_of m c main_v46_0 (by decide)).trans (W7_arr m c 3)
theorem E8_main_v46_1 (c : Dev nD) : E8 m c main_v46_1 = (dat0 (E6 m) c).arrAt 4 cfg0.N :=
  (W8_of m c main_v46_1 (by decide)).trans (W7_arr m c 4)
theorem W7_main_arg3 (c : Dev nD) : W7 m c main_arg3 = m ((c : Thread nD τ).loc main_arg3) :=
  (W7_of_ne m c main_arg3 (by decide)).trans (V6_main_arg3 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E6 m) c
  | ⟨1, _⟩ => fun c => dat1 (E8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- The first region: entered from every unscoped buffer at the sixth boundary's contents, left at `W7`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E6 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (E6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E6 m c) (E7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W8`, left at `W9`. Its invariant carries the kernel's scratch
    accumulator from point to point; before the first point and after the last it is the scoped rest at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E8 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E8 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E8 m c) (E9 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The nine items in order: a host segment per stretch from its boundary's contents, a region per kernel call. -/
abbrev segsR : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .region (reg0 m),
    .host (hseg hostOps1 hostOps1_sub hostOps1_fresh (W7 m)),
    .region (reg1 m) ]

set_option backward.isDefEq.respectTransparency.types false in
/-- THE RUN: from any memory with zero counters, every weakly fair execution of the entry function on the TensorCores
    terminates, nothing faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segsR m)
    (fun c Q => by
      rewrite [main_chain c, Pipeline.Seg.run_eq_chain,
        show (segsR m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()) ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- THE FRAME at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c)⟩) (run_main m ρ)

/-- The run read at the result array and the arguments. -/
theorem run_value : θ_run defs (onTc (τ := τ) (main (F := F))) ⟨m, fun _ => 0, ρ⟩ (fun r => ∀ c : Dev nD,
      r.2.mem ((c.tc : Thread nD τ).loc main_v48) = (dat1 (E8 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v48 (by decide))).trans (W9_main_v48 m c),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c)⟩) (run_main m ρ)

end Cert.KernelIdeal.Gen

end
-- ==== Proof.Spec.lean ====
/-
  The mathematical objects the two programs share, over an edge list of 262144 (row, column) pairs into an
  8192 × 8192 adjacency: which pairs are edges, the 0/1 adjacency entry, the number of distinct neighbours of a row, and
  the normalising factor 1/√(neighbours + 1) (the self-loop adds one to every degree, so the degree is never zero).
-/
import Idealize.ShloMosaic.PureOps.Ideal
import Idealize.ShloMosaic.Lib.ValueIdx

noncomputable section

namespace Cert.Spec

open Idealize.ShloMosaic Idealize.ShloMosaic.ValueIdx
open Classical

/-- The edge list: row numbers on row 0, column numbers on row 1, as signed 32-bit words. -/
abbrev Edges : Type := IVec (⟨2, ![2, 262144]⟩ : Shape) 32

/-- Every row and column number is a number of a row or column of the adjacency. -/
def InRange (e : Edges) : Prop :=
  ∀ (a : Fin 2) (k : Fin 262144), 0 ≤ (e (ix2 a k)).toInt ∧ (e (ix2 a k)).toInt < 8192

/-- Some listed pair is (i, r). -/
def IsEdge (e : Edges) (i r : Fin 8192) : Prop :=
  ∃ k : Fin 262144, (e (ix2 0 k)).toInt = (i.val : ℤ) ∧ (e (ix2 1 k)).toInt = (r.val : ℤ)

/-- The adjacency entry: one at an edge, zero elsewhere (listing a pair twice changes nothing). -/
def adj (e : Edges) (i r : Fin 8192) : EReal := if IsEdge e i r then 1 else 0

theorem adj_zero_or_one (e : Edges) (i r : Fin 8192) : adj e i r = 0 ∨ adj e i r = 1 := by
  unfold adj; split
  · exact Or.inr rfl
  · exact Or.inl rfl

/-- How many distinct neighbours row i has. -/
def cnt (e : Edges) (i : Fin 8192) : ℕ := (Finset.univ.filter (fun r : Fin 8192 => IsEdge e i r)).card

/-- The degree with the self-loop counted: neighbours plus one. -/
def deg (e : Edges) (i : Fin 8192) : EReal := ((cnt e i + 1 : ℕ) : EReal)

/-- The normalising factor of row i. -/
def dinv (e : Edges) (i : Fin 8192) : EReal := Ideal.rsqrt (deg e i)

theorem deg_eq_coe (e : Edges) (i : Fin 8192) : deg e i = (((cnt e i + 1 : ℕ) : ℝ) : EReal) := by
  unfold deg; rfl

theorem deg_pos (e : Edges) (i : Fin 8192) : (0 : EReal) < deg e i := by
  rw [deg_eq_coe]; exact_mod_cast Nat.succ_pos _

/-- The factor is a real number: the degree is a positive real. -/
theorem dinv_real (e : Edges) (i : Fin 8192) : ∃ t : ℝ, dinv e i = (t : EReal) := by
  unfold dinv; rw [deg_eq_coe, Ideal.rsqrt_coe]
  have hpos : (0 : ℝ) < ((cnt e i + 1 : ℕ) : ℝ) := by exact_mod_cast Nat.succ_pos _
  rw [if_neg (not_lt.mpr hpos.le), if_neg hpos.ne']
  exact ⟨_, rfl⟩

end Cert.Spec

end
-- ==== Proof.Scatter.lean ====
import Idealize.ShloMosaic.PureOps.Ideal
import Idealize.ShloMosaic.PureOps.Ideal.Laws
import Idealize.ShloMosaic.Lib.ValueIdx

open scoped BigOperators
open Idealize.ShloMosaic Idealize.ShloMosaic.ValueIdx

namespace Cert.Scatter

/-- the fold of the writing step over any list of update positions, read at i -/
theorem foldl_set_const {α : Type} {s si u : Shape} {w : ℕ} (d : ScatterDims s si u) (idx : IVec si w) (o : α)
    (i : s.Idx) (l : List (Fin u.numel)) (x : s.Idx → α) :
    l.foldl (fun r n =>
        match d.resultIdx? (u.rowMajor.symm n) idx with
        | some i => fun i' => if i' = i then (fun _ b => b) (r i) ((fun _ => o) (u.rowMajor.symm n)) else r i'
        | none => r) x i
      = if ∃ n ∈ l, d.resultIdx? (u.rowMajor.symm n) idx = some i then o else x i := by
  induction l generalizing x with
  | nil => simp
  | cons n l ih =>
    rw [List.foldl_cons, ih]
    by_cases hl : ∃ m ∈ l, d.resultIdx? (u.rowMajor.symm m) idx = some i
    · have hl' : ∃ m ∈ n :: l, d.resultIdx? (u.rowMajor.symm m) idx = some i := by
        obtain ⟨m, hm, h⟩ := hl
        exact ⟨m, List.mem_cons_of_mem _ hm, h⟩
      rw [if_pos hl, if_pos hl']
    · rw [if_neg hl]
      cases hn : d.resultIdx? (u.rowMajor.symm n) idx with
      | none =>
        have hl' : ¬ ∃ m ∈ n :: l, d.resultIdx? (u.rowMajor.symm m) idx = some i := by
          rintro ⟨m, hm, h⟩
          rcases List.mem_cons.1 hm with rfl | hm
          · rw [hn] at h; cases h
          · exact hl ⟨m, hm, h⟩
        rw [if_neg hl']
      | some k =>
        by_cases hk : i = k
        · have hl' : ∃ m ∈ n :: l, d.resultIdx? (u.rowMajor.symm m) idx = some i :=
            ⟨n, List.mem_cons_self, by rw [hn, hk]⟩
          rw [if_pos hl']
          simp [hk]
        · have hl' : ¬ ∃ m ∈ n :: l, d.resultIdx? (u.rowMajor.symm m) idx = some i := by
            rintro ⟨m, hm, h⟩
            rcases List.mem_cons.1 hm with rfl | hm
            · rw [hn] at h; exact hk (Option.some.inj h).symm
            · exact hl ⟨m, hm, h⟩
          rw [if_neg hl']
          simp [hk]

/-- a scatter that WRITES a constant o: the result at i is o where some update lands on i, and the
    operand's entry elsewhere -/
theorem scatter_set_const {α : Type} {s si u : Shape} {w : ℕ} (d : ScatterDims s si u) (x : s.Idx → α)
    (idx : IVec si w) (o : α) (i : s.Idx) :
    Host.scatter d (fun _ b => b) x idx (fun _ => o) i
      = if ∃ j : u.Idx, d.resultIdx? j idx = some i then o else x i := by
  refine (foldl_set_const d idx o i (List.finRange u.numel) x).trans ?_
  have : (∃ n ∈ List.finRange u.numel, d.resultIdx? (u.rowMajor.symm n) idx = some i)
      ↔ ∃ j : u.Idx, d.resultIdx? j idx = some i := by
    constructor
    · rintro ⟨n, _, h⟩; exact ⟨_, h⟩
    · rintro ⟨j, h⟩
      exact ⟨u.rowMajor j, List.mem_finRange _, by rw [Equiv.symm_apply_apply]; exact h⟩
  rw [if_congr this rfl rfl]

/-- an update lands on i exactly when start plus window coordinate is i's coordinate on every axis -/
theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have := congrFun (Option.some.inj h) a
      have hv := congrArg Fin.val this
      simp only at hv
      have := (hb a).1
      omega
    · cases h
  · intro h
    have hb : ∀ a, 0 ≤ d.start j idx a + (d.window j a : ℤ) ∧ d.start j idx a + (d.window j a : ℤ) < s.size a := by
      intro a
      have := (i a).isLt
      rw [h a]
      omega
    rw [dif_pos hb]
    congr 1
    funext a
    apply Fin.ext
    simp only
    rw [h a]
    simp

section Pair

/-- a rank-1 index built from a coordinate has that coordinate on its one axis -/
theorem ix1_val {n : ℕ} (e : Fin n) (k : Fin (⟨1, ![n]⟩ : Shape).rank) : (ix1 e k).val = e.val := by
  match k with | ⟨0, _⟩ => rfl

private theorem not_mem_kept2 :
    ∀ a : Fin 2, a ∉ (List.finRange 2).filter (fun b => b ∉ ([0, 1] : List (Fin 2))) := by decide
private theorem mem_sd2 : ∀ a : Fin 2, a ∈ ([0, 1] : List (Fin 2)) := by decide
private theorem idxOf_sd2 : ∀ a : Fin 2, List.idxOf a ([0, 1] : List (Fin 2)) = a.val := by decide

/-- both operand axes of the matrix are inserted axes: the window coordinate is 0 on each -/
theorem window_pair {N M n : ℕ} (d : ScatterDims ⟨2, ![N, M]⟩ ⟨2, ![n, 2]⟩ ⟨1, ![n]⟩)
    (hiw : d.insertedWindowDims = [0, 1]) (j : (⟨1, ![n]⟩ : Shape).Idx) (a : Fin 2) :
    d.window j a = 0 := by
  obtain ⟨uw, iw, sd, ivd, wf⟩ := d
  simp only at hiw
  subst hiw
  unfold ScatterDims.window
  rw [dif_neg]
  exact not_mem_kept2 a

/-- the start on operand axis a of update e is index word (e, a), read signed -/
theorem start_pair {N M n w : ℕ} (d : ScatterDims ⟨2, ![N, M]⟩ ⟨2, ![n, 2]⟩ ⟨1, ![n]⟩)
    (huw : d.updateWindowDims = []) (hsd : d.scatterDimsToOperandDims = [0, 1]) (hivd : d.indexVectorDim = 1)
    (idx : IVec ⟨2, ![n, 2]⟩ w) (e : Fin n) (a : Fin 2) :
    d.start (ix1 e) idx a = (idx (ix2 e a)).toInt := by
  obtain ⟨uw, iw, sd, ivd, wf⟩ := d
  simp only at huw hsd hivd
  subst huw hsd hivd
  unfold ScatterDims.start
  rw [dif_pos (mem_sd2 a)]
  congr 2
  funext b
  match b with
  | ⟨0, _⟩ =>
    unfold ScatterDims.siIdx
    rw [dif_neg (by simp)]
    apply Fin.ext
    unfold ScatterDims.siCoord
    simp only [Fin.coe_cast]
    rw [ix1_val]
  | ⟨1, _⟩ =>
    unfold ScatterDims.siIdx
    rw [dif_pos (by rfl)]
    apply Fin.ext
    exact idxOf_sd2 a

/-- where update e of a point scatter into a matrix lands: a pair of index words (row, column), read
    SIGNED, not clamped, dropped outside -/
theorem resultIdx_pair {N M n w : ℕ} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (idx : IVec ⟨2, ![n, 2]⟩ w) (e : Fin n) (i : Fin N) (r : Fin M) :
    d.resultIdx? (ix1 e) idx = some (ix2 i r)
      ↔ (idx (ix2 e 0)).toInt = (i.val : ℤ) ∧ (idx (ix2 e 1)).toInt = (r.val : ℤ) := by
  rw [resultIdx?_eq_some_iff]
  constructor
  · intro h
    have h0 := h (0 : Fin 2)
    have h1 := h (1 : Fin 2)
    rw [start_pair d huw hsd hivd, window_pair d hiw] at h0 h1
    simp only [Nat.cast_zero, add_zero] at h0 h1
    exact ⟨h0, h1⟩
  · rintro ⟨h0, h1⟩ a
    rw [start_pair d huw hsd hivd, window_pair d hiw]
    simp only [Nat.cast_zero, add_zero]
    match a with
    | ⟨0, _⟩ => exact h0
    | ⟨1, _⟩ => exact h1

/-- the point scatter of the constant o into a constant-z matrix, read at (i, r) -/
theorem scatter_pair_const {α : Type} {N M n w : ℕ} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (z o : α) (idx : IVec ⟨2, ![n, 2]⟩ w) (i : Fin N) (r : Fin M) :
    Host.scatter d (fun _ b => b) (fun _ => z) idx (fun _ => o) (ix2 i r)
      = if ∃ e : Fin n, (idx (ix2 e 0)).toInt = (i.val : ℤ) ∧ (idx (ix2 e 1)).toInt = (r.val : ℤ) then o else z := by
  rw [scatter_set_const]
  have : (∃ j : (⟨1, ![n]⟩ : Shape).Idx, d.resultIdx? j idx = some (ix2 i r))
      ↔ ∃ e : Fin n, (idx (ix2 e 0)).toInt = (i.val : ℤ) ∧ (idx (ix2 e 1)).toInt = (r.val : ℤ) := by
    constructor
    · rintro ⟨j, h⟩
      rw [eq_ix1 j] at h
      exact ⟨j 0, (resultIdx_pair d huw hiw hsd hivd idx _ i r).1 h⟩
    · rintro ⟨e, h⟩
      exact ⟨ix1 e, (resultIdx_pair d huw hiw hsd hivd idx e i r).2 h⟩
  rw [if_congr this rfl rfl]

end Pair

section Single

private theorem not_mem_kept1 :
    ∀ a : Fin 1, a ∉ (List.finRange 1).filter (fun b => b ∉ ([0] : List (Fin 1))) := by decide
private theorem mem_sd1 : ∀ a : Fin 1, a ∈ ([0] : List (Fin 1)) := by decide
private theorem idxOf_sd1 : ∀ a : Fin 1, List.idxOf a ([0] : List (Fin 1)) = a.val := by decide

/-- the vector's one axis is an inserted axis: the window coordinate is 0 -/
theorem window_single {N n : ℕ} (d : ScatterDims ⟨1, ![N]⟩ ⟨2, ![n, 1]⟩ ⟨1, ![n]⟩)
    (hiw : d.insertedWindowDims = [0]) (j : (⟨1, ![n]⟩ : Shape).Idx) (a : Fin 1) :
    d.window j a = 0 := by
  obtain ⟨uw, iw, sd, ivd, wf⟩ := d
  simp only at hiw
  subst hiw
  unfold ScatterDims.window
  rw [dif_neg]
  exact not_mem_kept1 a

/-- the start on the vector's axis of update e is index word (e, 0), read signed -/
theorem start_single {N n w : ℕ} (d : ScatterDims ⟨1, ![N]⟩ ⟨2, ![n, 1]⟩ ⟨1, ![n]⟩)
    (huw : d.updateWindowDims = []) (hsd : d.scatterDimsToOperandDims = [0]) (hivd : d.indexVectorDim = 1)
    (idx : IVec ⟨2, ![n, 1]⟩ w) (e : Fin n) (a : Fin 1) :
    d.start (ix1 e) idx a = (idx (ix2 e a)).toInt := by
  obtain ⟨uw, iw, sd, ivd, wf⟩ := d
  simp only at huw hsd hivd
  subst huw hsd hivd
  unfold ScatterDims.start
  rw [dif_pos (mem_sd1 a)]
  congr 2
  funext b
  match b with
  | ⟨0, _⟩ =>
    unfold ScatterDims.siIdx
    rw [dif_neg (by simp)]
    apply Fin.ext
    unfold ScatterDims.siCoord
    simp only [Fin.coe_cast]
    rw [ix1_val]
  | ⟨1, _⟩ =>
    unfold ScatterDims.siIdx
    rw [dif_pos (by rfl)]
    apply Fin.ext
    exact idxOf_sd1 a

/-- the same for a point scatter into a vector, one index word per update -/
theorem resultIdx_single {N n w : ℕ} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (i : Fin N) :
    d.resultIdx? (ix1 e) idx = some (ix1 i) ↔ (idx (ix2 e 0)).toInt = (i.val : ℤ) := by
  rw [resultIdx?_eq_some_iff]
  constructor
  · intro h
    have h0 := h (0 : Fin 1)
    rw [start_single d huw hsd hivd, window_single d hiw] at h0
    simp only [Nat.cast_zero, add_zero] at h0
    exact h0
  · intro h0 a
    rw [start_single d huw hsd hivd, window_single d hiw]
    simp only [Nat.cast_zero, add_zero]
    match a with
    | ⟨0, _⟩ => exact h0

/-- a rank-1 index set is its coordinate range -/
def idxEquiv1 {n : ℕ} : (⟨1, ![n]⟩ : Shape).Idx ≃ Fin n where
  toFun j := j 0
  invFun e := ix1 e
  left_inv j := (eq_ix1 j).symm
  right_inv _ := rfl

/-- the accumulating point scatter into a vector at the extended reals, read at i -/
theorem scatterAdd_single {φ : FTy} {N n w : ℕ} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (i : Fin N) :
    Host.scatterAdd d x idx upd (ix1 i)
      = x (ix1 i) + ∑ e ∈ Finset.univ.filter (fun e : Fin n => (idx (ix2 e 0)).toInt = (i.val : ℤ)), upd (ix1 e) := by
  show x (ix1 i) + ∑ j ∈ Finset.univ.filter (fun j => d.resultIdx? j idx = some (ix1 i)), upd j = _
  congr 1
  refine Finset.sum_equiv idxEquiv1 ?_ ?_
  · intro j
    simp only [Finset.mem_filter, Finset.mem_univ, true_and]
    conv_lhs => rw [eq_ix1 j]
    exact resultIdx_single d huw hiw hsd hivd idx (j 0) i
  · intro j _
    conv_lhs => rw [eq_ix1 j]
    rfl

end Single

end Cert.Scatter
-- ==== Proof.Count.lean ====
import Mathlib.Data.EReal.Basic
import Mathlib.Algebra.BigOperators.Ring.Finset
import Mathlib.Algebra.BigOperators.Group.Finset.Basic
import Mathlib.Data.Finset.Card
import Mathlib.Data.Fintype.Card
import Mathlib.Order.Basic

/-!
# Counting first occurrences in a sorted list of keys

Edges `e` carry a row and a column below `N`; the key of an edge is `row e * N + col e`.
For a sorted rearrangement `s` of the keys, a position is a *first occurrence* when it is the
first position or its value differs from the value just before it.  For every row `i`, the first
occurrences whose value has quotient `i` by `N` are in bijection, through the remainder modulo
`N`, with the columns `r` for which some edge has row `i` and column `r`.
-/

open Classical

noncomputable section

namespace Cert.Count

/-- Position `k` is a first occurrence of its value in `s`: it is position `0`, or the value just
before it is different. -/
def isFirst {n : ℕ} (s : Fin n → ℕ) (k : Fin n) : Prop :=
  k.val = 0 ∨ ∃ h : 0 < k.val, s k ≠ s ⟨k.val - 1, by omega⟩

instance instDecidablePredIsFirst {n : ℕ} (s : Fin n → ℕ) : DecidablePred (isFirst s) :=
  fun _ => Classical.propDecidable _

/-- Quotient of a key by `N` is its row. -/
theorem key_div {N a b : ℕ} (hb : b < N) : (a * N + b) / N = a := by
  have hN : 0 < N := by omega
  rw [Nat.add_comm, Nat.add_mul_div_right _ _ hN, Nat.div_eq_of_lt hb, Nat.zero_add]

/-- Remainder of a key modulo `N` is its column. -/
theorem key_mod {N a b : ℕ} (hb : b < N) : (a * N + b) % N = b := by
  rw [Nat.add_comm, Nat.add_mul_mod_self_right, Nat.mod_eq_of_lt hb]

/-- Strict monotonicity hypothesis in its weak form. -/
theorem mono_le {n : ℕ} {s : Fin n → ℕ} (hmono : ∀ i j : Fin n, i < j → s i ≤ s j)
    {i j : Fin n} (h : i ≤ j) : s i ≤ s j := by
  rcases lt_or_eq_of_le h with h | h
  · exact hmono i j h
  · rw [h]

/-- Two first occurrences with the same value, the first strictly before the second, cannot
exist in a sorted list: the value just before the second one is squeezed between equal values. -/
theorem first_lt_absurd {n : ℕ} {s : Fin n → ℕ} (hmono : ∀ i j : Fin n, i < j → s i ≤ s j)
    {k k' : Fin n} (hk' : isFirst s k') (heq : s k = s k') (hlt : k < k') : False := by
  have hv : k.val < k'.val := hlt
  rcases hk' with h0 | ⟨hpos, hne⟩
  · omega
  · apply hne
    have h1 : s k ≤ s ⟨k'.val - 1, by omega⟩ :=
      mono_le hmono (show k ≤ ⟨k'.val - 1, by omega⟩ from by
        show k.val ≤ k'.val - 1
        omega)
    have h2 : s ⟨k'.val - 1, by omega⟩ ≤ s k' :=
      mono_le hmono (show (⟨k'.val - 1, by omega⟩ : Fin n) ≤ k' from by
        show k'.val - 1 ≤ k'.val
        omega)
    omega

/-- In a sorted list, first occurrences are determined by their value. -/
theorem first_inj {n : ℕ} {s : Fin n → ℕ} (hmono : ∀ i j : Fin n, i < j → s i ≤ s j)
    {k k' : Fin n} (hk : isFirst s k) (hk' : isFirst s k') (heq : s k = s k') : k = k' := by
  rcases lt_trichotomy k k' with h | h | h
  · exact (first_lt_absurd hmono hk' heq h).elim
  · exact h
  · exact (first_lt_absurd hmono hk heq.symm h).elim

/-- Every value taken by `s` is taken at a first occurrence: the least position with that value. -/
theorem exists_first {n : ℕ} (s : Fin n → ℕ) (k₀ : Fin n) :
    ∃ k : Fin n, s k = s k₀ ∧ isFirst s k := by
  have hex : ∃ m : ℕ, ∃ h : m < n, s ⟨m, h⟩ = s k₀ := ⟨k₀.val, k₀.isLt, rfl⟩
  obtain ⟨hm, hsm⟩ := Nat.find_spec hex
  refine ⟨⟨Nat.find hex, hm⟩, hsm, ?_⟩
  by_cases h0 : Nat.find hex = 0
  · exact Or.inl h0
  · refine Or.inr ⟨Nat.pos_of_ne_zero h0, ?_⟩
    intro hcontra
    have hlt : Nat.find hex - 1 < Nat.find hex := by omega
    exact Nat.find_min hex hlt ⟨by omega, by rw [← hcontra]; exact hsm⟩

/-- For every row `i`, the first occurrences with quotient `i` are as many as the columns that
occur with row `i`. -/
theorem card_firsts {n N : ℕ} (hN : 0 < N) (row col : Fin n → ℕ) (hr : ∀ e, row e < N)
    (hc : ∀ e, col e < N) (s : Fin n → ℕ) (σ : Fin n → Fin n) (hσ : Function.Bijective σ)
    (hs : ∀ k, s k = row (σ k) * N + col (σ k))
    (hmono : ∀ i j : Fin n, i < j → s i ≤ s j) (i : Fin N) :
    (Finset.univ.filter (fun k : Fin n => s k / N = i.val ∧ isFirst s k)).card =
      (Finset.univ.filter (fun r : Fin N => ∃ e, row e = i.val ∧ col e = r.val)).card := by
  have hdiv : ∀ k, s k / N = row (σ k) := fun k => by rw [hs k]; exact key_div (hc _)
  have hmod : ∀ k, s k % N = col (σ k) := fun k => by rw [hs k]; exact key_mod (hc _)
  refine Finset.card_bij (fun k _ => (⟨s k % N, Nat.mod_lt _ hN⟩ : Fin N)) ?_ ?_ ?_
  · intro k hk
    rw [Finset.mem_filter] at hk
    rw [Finset.mem_filter]
    refine ⟨Finset.mem_univ _, σ k, ?_, ?_⟩
    · rw [← hdiv k]; exact hk.2.1
    · exact (hmod k).symm
  · intro k hk k' hk' heq
    rw [Finset.mem_filter] at hk hk'
    have hm : s k % N = s k' % N := congrArg Fin.val heq
    have hval : s k = s k' := by
      rw [← Nat.div_add_mod (s k) N, ← Nat.div_add_mod (s k') N, hk.2.1, hk'.2.1, hm]
    exact first_inj hmono hk.2.2 hk'.2.2 hval
  · intro r hr'
    rw [Finset.mem_filter] at hr'
    obtain ⟨_, e, hrow, hcol⟩ := hr'
    obtain ⟨k₀, hk₀⟩ := hσ.2 e
    obtain ⟨k, hk, hfirst⟩ := exists_first s k₀
    have hd : s k / N = i.val := by rw [hk, hdiv k₀, hk₀]; exact hrow
    have hmd : s k % N = r.val := by rw [hk, hmod k₀, hk₀]; exact hcol
    refine ⟨k, ?_, ?_⟩
    · rw [Finset.mem_filter]
      exact ⟨Finset.mem_univ _, hd, hfirst⟩
    · exact Fin.ext hmd

/-- The same count, written as a sum of indicator values in the extended reals. -/
theorem sum_firsts {n N : ℕ} (hN : 0 < N) (row col : Fin n → ℕ) (hr : ∀ e, row e < N)
    (hc : ∀ e, col e < N) (s : Fin n → ℕ) (σ : Fin n → Fin n) (hσ : Function.Bijective σ)
    (hs : ∀ k, s k = row (σ k) * N + col (σ k))
    (hmono : ∀ i j : Fin n, i < j → s i ≤ s j) (i : Fin N) :
    (∑ k ∈ Finset.univ.filter (fun k : Fin n => s k / N = i.val),
        (if isFirst s k then (1 : EReal) else 0)) =
      (((Finset.univ.filter (fun r : Fin N => ∃ e, row e = i.val ∧ col e = r.val)).card : ℕ) :
        EReal) := by
  rw [Finset.sum_boole, Finset.filter_filter,
    card_firsts hN row col hr hc s σ hσ hs hmono i]

/-- A row of the adjacency indicator plus the identity sums to the number of occurring columns
plus one. -/
theorem sum_adj_eye {n N : ℕ} (row col : Fin n → ℕ) (i : Fin N) :
    (0 : EReal) + ∑ r : Fin N, ((if ∃ e, row e = i.val ∧ col e = r.val then (1 : EReal) else 0) +
        (if i = r then (1 : EReal) else 0)) =
      ((((Finset.univ.filter (fun r : Fin N => ∃ e, row e = i.val ∧ col e = r.val)).card + 1 :
        ℕ)) : EReal) := by
  rw [zero_add, Finset.sum_add_distrib, Finset.sum_boole, Finset.sum_ite_eq,
    if_pos (Finset.mem_univ i), Nat.cast_add, Nat.cast_one]

/-- The count of first occurrences plus one equals the number of occurring columns plus one. -/
theorem firsts_plus_one {n N : ℕ} (hN : 0 < N) (row col : Fin n → ℕ) (hr : ∀ e, row e < N)
    (hc : ∀ e, col e < N) (s : Fin n → ℕ) (σ : Fin n → Fin n) (hσ : Function.Bijective σ)
    (hs : ∀ k, s k = row (σ k) * N + col (σ k))
    (hmono : ∀ i j : Fin n, i < j → s i ≤ s j) (i : Fin N) :
    ((0 : EReal) + ∑ k ∈ Finset.univ.filter (fun k : Fin n => s k / N = i.val),
        (if isFirst s k then (1 : EReal) else 0)) + 1 =
      ((((Finset.univ.filter (fun r : Fin N => ∃ e, row e = i.val ∧ col e = r.val)).card + 1 :
        ℕ)) : EReal) := by
  rw [zero_add, sum_firsts hN row col hr hc s σ hσ hs hmono i, Nat.cast_add, Nat.cast_one]

end Cert.Count
-- ==== Proof.Algebra.lean ====
import Idealize.ShloMosaic.PureOps.Ideal
import Mathlib.Data.EReal.Basic
import Mathlib.Logic.Equiv.Fin.Basic
import Mathlib.Algebra.BigOperators.Fin
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Tactic.Ring

/-!
  The algebraic law behind a normalised graph convolution.

  With a 0/1 adjacency matrix `A`, a real scaling vector `d` and real features `S`,
  the two arrangements

    out_i = d_i · (A (d ⊙ S))_i + d_i² · S_i + b      and      ((D (A + I) D) S)_i + b

  agree, where `D = diag d`.  The contraction over the 8192 rows may be carried out as
  16 consecutive blocks of 512 rows; an accumulator that starts from zero at the first
  block and adds one block at a time holds the sum of the blocks.

  Multiplication does not distribute over addition at the infinities of the extended
  reals, so the identity is proved over `ℝ` and transported along the coercion
  `ℝ → EReal`, which preserves finite sums and products.
-/

namespace Cert.Algebra

open Finset

/-- Row `l` of block `k` among 8192 rows cut into 16 blocks of 512. -/
def blk (k : Fin 16) (l : Fin 512) : Fin 8192 := ⟨512 * k.val + l.val, by omega⟩

/-- Summing block by block is summing over all rows: `(k, l) ↦ 512 k + l` is a bijection
`Fin 16 × Fin 512 ≃ Fin 8192`. -/
theorem sum_blocks (f : Fin 8192 → EReal) :
    ∑ k : Fin 16, ∑ l : Fin 512, f (blk k l) = ∑ r : Fin 8192, f r := by
  rw [← Fintype.sum_prod_type']
  refine Fintype.sum_equiv (finProdFinEquiv (m := 16) (n := 512)) _ _ ?_
  rintro ⟨k, l⟩
  congr 1
  apply Fin.ext
  simp only [blk, finProdFinEquiv, Equiv.coe_fn_mk]
  omega

/-- The coercion `ℝ → EReal` commutes with finite sums. -/
theorem coe_sum {ι : Type*} (s : Finset ι) (f : ι → ℝ) :
    ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The law over the reals: `d_i · Σ_r a_ir (d_r s_rj) + d_i² s_ij = Σ_r (d_i (a_ir + δ_ir) d_r) s_rj`. -/
theorem conv_real (s : Fin 8192 → Fin 512 → ℝ) (a : Fin 8192 → Fin 8192 → ℝ)
    (d : Fin 8192 → ℝ) (i : Fin 8192) (j : Fin 512) :
    d i * (∑ r : Fin 8192, a i r * (d r * s r j)) + (d i * d i) * s i j
      = ∑ r : Fin 8192, ((d i * (a i r + (if i = r then (1 : ℝ) else 0))) * d r) * s r j := by
  have hterm : ∀ r : Fin 8192,
      ((d i * (a i r + (if i = r then (1 : ℝ) else 0))) * d r) * s r j
        = d i * (a i r * (d r * s r j)) + (if i = r then (d i * d r) * s r j else 0) := by
    intro r
    split_ifs <;> ring
  simp only [hterm, Finset.sum_add_distrib, ← Finset.mul_sum, Finset.sum_ite_eq,
    Finset.mem_univ, if_true]

/-- The two arrangements of the normalised convolution agree on real data with a 0/1
adjacency; the bias `b j` is added to both sides and may be any extended real. -/
theorem conv_eq (S : Fin 8192 → Fin 512 → EReal) (hS : ∀ r j, ∃ t : ℝ, S r j = (t : EReal))
    (A : Fin 8192 → Fin 8192 → EReal) (hA : ∀ i r, A i r = 0 ∨ A i r = 1)
    (d : Fin 8192 → EReal) (hd : ∀ i, ∃ t : ℝ, d i = (t : EReal))
    (b : Fin 512 → EReal) (i : Fin 8192) (j : Fin 512) :
    (d i * (∑ k : Fin 16, ∑ l : Fin 512, A i (blk k l) * (d (blk k l) * S (blk k l) j))
        + (d i * d i) * S i j) + b j
      = (∑ r : Fin 8192, ((d i * (A i r + (if i = r then (1 : EReal) else 0))) * d r) * S r j)
        + b j := by
  have hA' : ∀ i r, ∃ t : ℝ, A i r = (t : EReal) := by
    intro i r
    rcases hA i r with h | h
    · exact ⟨0, by rw [h, EReal.coe_zero]⟩
    · exact ⟨1, by rw [h, EReal.coe_one]⟩
  choose s hs using hS
  choose a ha using hA'
  choose dd hdd using hd
  have hite : ∀ r : Fin 8192,
      (if i = r then (1 : EReal) else 0) = ((if i = r then (1 : ℝ) else 0 : ℝ) : EReal) := by
    intro r
    split_ifs
    · exact EReal.coe_one.symm
    · exact EReal.coe_zero.symm
  congr 1
  rw [sum_blocks (fun r => A i r * (d r * S r j))]
  simp only [hs, ha, hdd, hite, ← EReal.coe_mul, ← EReal.coe_add, ← coe_sum]
  exact congrArg _ (conv_real s a dd i j)

/-- An accumulator set to `0 + mm 0` at the first block and increased by `mm (k + 1)` at each
later block holds, after block `K`, the sum of the blocks `0, …, K`. -/
theorem acc_fold (mm : ℕ → EReal) : ∀ K : ℕ,
    (Nat.rec (motive := fun _ => EReal) ((0 : EReal) + mm 0) (fun k acc => acc + mm (k + 1)) K)
      = ∑ k ∈ Finset.range (K + 1), mm k := by
  intro K
  induction K with
  | zero => simp
  | succ K ih => rw [Finset.sum_range_succ, ← ih]

end Cert.Algebra
-- ==== Proof.RefVal.lean ====
import proofs.«429857_j22385369547440_3_alg».proof.Proof.RefRead
import Idealize.ShloMosaic.Lib.Pipeline.Value
import Idealize.ShloMosaic.Lib.ValueIdx
import Idealize.ShloMosaic.Lib.IdealHost
import Idealize.ShloMosaic.PureOps.Ideal.Laws
import proofs.«429857_j22385369547440_3_alg».proof.Proof.Spec
import proofs.«429857_j22385369547440_3_alg».proof.Proof.Scatter
import proofs.«429857_j22385369547440_3_alg».proof.Proof.Count
import proofs.«429857_j22385369547440_3_alg».proof.Proof.Algebra

/-!
  The reference's result, entry by entry.

  Over an edge list whose row and column numbers lie in [0, 8192):
  * the scattered matrix is the 0/1 adjacency: entry (i, r) is one exactly when (i, r) is a listed pair
    (a pair listed twice writes the same one twice);
  * adding the identity and summing a row gives the number of distinct neighbours plus one, the degree;
  * the degree is positive, so the guarded factor "1/√degree where degree > 0, else 0" is 1/√degree;
  * entry (i, j) of the result is Σ_r (d_i (A_ir + δ_ir) d_r) · (Σ_q X_rq W_qj) + b_j.
-/

noncomputable section

namespace Cert.RefVal

open Cert.ReferenceIdeal Cert.ReferenceIdeal.Gen Cert.ReferenceIdeal.Read
open Idealize.ShloMosaic Idealize.ShloMosaic.ValueIdx Idealize.ShloMosaic.StableHlo
open Cert.Spec

/-! ## The index words: under the range hypothesis the normalisation of negative words is the identity -/

/-- A word that is not negative is not below zero, so "add 8192 where negative" keeps it. -/
theorem norm_word (w : BitVec 32) (h : 0 ≤ w.toInt) :
    Scalar.select (IntOp.cmpi .slt w 0#32) (IntOp.addi w 8192#32) w = w := by
  have hs : w.slt 0#32 = false := by
    rw [Bool.eq_false_iff]
    intro hc
    rw [BitVec.slt_iff_toInt_lt] at hc
    have h0 : (0#32 : BitVec 32).toInt = 0 := by decide
    omega
  have hb : IntOp.cmpi .slt w 0#32 = 0#1 := by
    show BitVec.ofBool (w.slt 0#32) = 0#1
    rw [hs]; rfl
  rw [hb]
  exact select_zero _ _

/-- Entry k of the first row of the edge list, through the slice and the flattening. -/
theorem idx_row (k : Fin 262144) : idx_main_v2 (idx_main_v3 (ix1 k)) = ix2 (0 : Fin 2) k := by
  funext a
  apply Fin.ext
  match a with
  | ⟨0, _⟩ => rfl
  | ⟨1, _⟩ => exact Nat.mod_eq_of_lt k.isLt

/-- Entry k of the second row of the edge list, through the slice and the flattening. -/
theorem idx_col (k : Fin 262144) : idx_main_v4 (idx_main_v5 (ix1 k)) = ix2 (1 : Fin 2) k := by
  funext a
  apply Fin.ext
  match a with
  | ⟨0, _⟩ => rfl
  | ⟨1, _⟩ => exact Nat.mod_eq_of_lt k.isLt

/-- The normalised row numbers are the row numbers. -/
theorem rows_eq (e : Edges) (h : InRange e) (k : Fin 262144) :
    val_main_v10 (F := Ideal) e (ix1 k) = e (ix2 0 k) := by
  rw [val_main_v10_apply, val_main_v7_apply, val_main_v9_apply, val_main_v3_apply, val_main_v2_apply,
    val_main_v6_apply, val_main_c_apply, val_main_v8_apply, val_main_c_0_apply, idx_row]
  exact norm_word _ (h 0 k).1

/-- The normalised column numbers are the column numbers. -/
theorem cols_eq (e : Edges) (h : InRange e) (k : Fin 262144) :
    val_main_v15 (F := Ideal) e (ix1 k) = e (ix2 1 k) := by
  rw [val_main_v15_apply, val_main_v12_apply, val_main_v14_apply, val_main_v5_apply, val_main_v4_apply,
    val_main_v11_apply, val_main_c_1_apply, val_main_v13_apply, val_main_c_2_apply, idx_col]
  exact norm_word _ (h 1 k).1

/-- The pair array's first column holds the row numbers. -/
theorem pair_fst (e : Edges) (h : InRange e) (k : Fin 262144) :
    val_main_v18 (F := Ideal) e (ix2 k (0 : Fin 2)) = e (ix2 0 k) := by
  unfold val_main_v18
  refine (concatenate_pair_apply_left (s₁ := S262144x1) (s₂ := S262144x1) _ _ _ _ (ix2 k (0 : Fin 2)) rfl (ix2 k (0 : Fin 1)) ?_).trans ?_
  · intro b
    match b with
    | ⟨0, _⟩ => rfl
    | ⟨1, _⟩ => rfl
  · rw [val_main_v16_apply]
    exact rows_eq e h k

/-- The pair array's second column holds the column numbers. -/
theorem pair_snd (e : Edges) (h : InRange e) (k : Fin 262144) :
    val_main_v18 (F := Ideal) e (ix2 k (1 : Fin 2)) = e (ix2 1 k) := by
  unfold val_main_v18
  refine (concatenate_pair_apply_right (s₁ := S262144x1) (s₂ := S262144x1) _ _ _ _ (ix2 k (1 : Fin 2)) rfl rfl (ix2 k (0 : Fin 1)) ?_ ?_).trans ?_
  · intro b hb
    match b, hb with
    | ⟨0, _⟩, _ => rfl
    | ⟨1, _⟩, hb => exact absurd rfl hb
  · rfl
  · rw [val_main_v17_apply]
    exact cols_eq e h k

/-! ## Two conditionals, or two filtered counts, over equivalent propositions agree, however each is decided -/

theorem ite_iff {α : Type} {p q : Prop} (dp : Decidable p) (dq : Decidable q) (hpq : p ↔ q) (a b : α) :
    @ite α p dp a b = @ite α q dq a b := by
  by_cases hp : p
  · rw [if_pos hp, if_pos (hpq.mp hp)]
  · rw [if_neg hp, if_neg (fun hq => hp (hpq.mpr hq))]

theorem card_filter_iff {ι : Type} (s : Finset ι) {p q : ι → Prop} (dp : DecidablePred p) (dq : DecidablePred q)
    (hpq : ∀ x, p x ↔ q x) : (@Finset.filter ι p dp s).card = (@Finset.filter ι q dq s).card := by
  have hs : @Finset.filter ι p dp s = @Finset.filter ι q dq s := by
    ext x
    rw [@Finset.mem_filter ι p dp, @Finset.mem_filter ι q dq, hpq x]
  rw [hs]

/-! ## The adjacency: a scatter of ones into zeros at the listed pairs -/

/-- The scatter's operand is zero everywhere. -/
theorem zeros_eq : val_main_v1 (F := Ideal) = fun _ => (0 : EReal) := by
  funext i
  rw [val_main_v1_apply, val_main_cst_apply, Ideal.ofBits_def, Ideal.ofBits_zero_f32]

/-- The scatter's updates are one everywhere. -/
theorem ones_eq : val_main_v19 (F := Ideal) = fun _ => (1 : EReal) := by
  funext i
  rw [val_main_v19_apply, val_main_cst_3_apply, Ideal.ofBits_def, Ideal.ofBits_one_f32]

/-- Entry (i, r) of the scattered matrix is one exactly when (i, r) is a listed pair. -/
theorem ref_adj (e : Edges) (h : InRange e) (i r : Fin 8192) :
    val_main_v20 (F := Ideal) e (ix2 i r) = adj e i r := by
  unfold val_main_v20
  rw [zeros_eq, ones_eq,
    Cert.Scatter.scatter_pair_const scatter_S8192x8192_S262144x2_S262144_n_01_01_1 rfl rfl rfl rfl]
  unfold adj
  refine ite_iff _ _ ?_ _ _
  unfold IsEdge
  refine exists_congr fun k => ?_
  rw [pair_fst e h k, pair_snd e h k]

/-! ## The identity matrix: row number equals column number, as a float -/

theorem bit_one_float : FloatOps.uitofp (F := Ideal) .f32 (1#1 : BitVec 1) = (1 : EReal) := by
  show (((1#1 : BitVec 1).toNat : ℝ) : EReal) = 1
  simp

theorem bit_zero_float : FloatOps.uitofp (F := Ideal) .f32 (0#1 : BitVec 1) = (0 : EReal) := by
  show (((0#1 : BitVec 1).toNat : ℝ) : EReal) = 0
  simp

/-- Two numbers below 8192 are equal when their 32-bit words are. -/
theorem word_inj (i r : Fin 8192) (hw : BitVec.ofNat 32 i.val = BitVec.ofNat 32 r.val) : i = r := by
  have h1 := congrArg BitVec.toNat hw
  simp only [BitVec.toNat_ofNat] at h1
  have hi := i.isLt
  have hr := r.isLt
  apply Fin.ext
  omega

/-- Entry (i, r) of the identity matrix. -/
theorem eye_eq (i r : Fin 8192) :
    val_main_v26 (F := Ideal) (ix2 i r) = if i = r then (1 : EReal) else 0 := by
  rw [val_main_v26_apply, val_main_v25_apply, val_main_v24_apply, val_main_v21_apply, val_main_v22_apply,
    val_main_v23_apply, val_main_c_4_apply]
  have hadd : IntOp.addi (BitVec.ofNat 32 i.val) 0#32 = BitVec.ofNat 32 i.val := BitVec.add_zero _
  show FloatOps.uitofp (F := Ideal) .f32
    (IntOp.cmpi .eq (IntOp.addi (BitVec.ofNat 32 i.val) 0#32) (BitVec.ofNat 32 r.val)) = _
  rw [hadd]
  by_cases hir : i = r
  · rw [if_pos hir, hir]
    have hb : IntOp.cmpi .eq (BitVec.ofNat 32 r.val) (BitVec.ofNat 32 r.val) = 1#1 := by
      show BitVec.ofBool (BitVec.ofNat 32 r.val == BitVec.ofNat 32 r.val) = 1#1
      rw [beq_self_eq_true]; rfl
    rw [hb, bit_one_float]
  · rw [if_neg hir]
    have hb : IntOp.cmpi .eq (BitVec.ofNat 32 i.val) (BitVec.ofNat 32 r.val) = 0#1 := by
      show BitVec.ofBool (BitVec.ofNat 32 i.val == BitVec.ofNat 32 r.val) = 0#1
      have : (BitVec.ofNat 32 i.val == BitVec.ofNat 32 r.val) = false := by
        rw [beq_eq_false_iff_ne]
        exact fun hw => hir (word_inj i r hw)
      rw [this]; rfl
    rw [hb, bit_zero_float]

/-- Entry (i, r) of adjacency plus identity. -/
theorem ref_adj_eye (e : Edges) (h : InRange e) (i r : Fin 8192) :
    val_main_v27 (F := Ideal) e (ix2 i r) = adj e i r + (if i = r then (1 : EReal) else 0) := by
  rw [val_main_v27_apply, ref_adj e h, eye_eq]
  rfl

/-! ## The degree: a row sum of adjacency plus identity -/

theorem idx_rowsum (i k : Fin 8192) : idx_main_v28 (ix1 i) k = ix2 i k := by
  funext a
  match a with
  | ⟨0, _⟩ => rfl
  | ⟨1, _⟩ => rfl

/-- With words in range, a listed pair is a pair of natural numbers. -/
theorem isEdge_iff (e : Edges) (h : InRange e) (i r : Fin 8192) :
    IsEdge e i r ↔ ∃ k : Fin 262144,
      (e (ix2 0 k)).toInt.toNat = i.val ∧ (e (ix2 1 k)).toInt.toNat = r.val := by
  unfold IsEdge
  refine exists_congr fun k => ?_
  have h0 := (h 0 k).1
  have h1 := (h 1 k).1
  constructor
  · rintro ⟨a, b⟩
    exact ⟨by omega, by omega⟩
  · rintro ⟨a, b⟩
    exact ⟨by omega, by omega⟩

/-- Row i of adjacency plus identity sums to the number of distinct neighbours plus one. -/
theorem ref_deg (e : Edges) (h : InRange e) (i : Fin 8192) :
    val_main_v28 (F := Ideal) e (ix1 i) = deg e i := by
  rw [val_main_v28_apply, val_main_cst_5_apply, Ideal.ofBits_def, Ideal.ofBits_zero_f32]
  simp only [idx_rowsum, ref_adj_eye e h]
  refine Eq.trans ?_ ((Cert.Count.sum_adj_eye (N := 8192)
    (fun k : Fin 262144 => (e (ix2 0 k)).toInt.toNat) (fun k : Fin 262144 => (e (ix2 1 k)).toInt.toNat) i).trans ?_)
  · refine congrArg (fun s : EReal => (0 : EReal) + s) (Finset.sum_congr rfl fun r _ => ?_)
    refine congr (congrArg HAdd.hAdd ?_) ?_
    · exact ite_iff _ _ (isEdge_iff e h i r) _ _
    · exact ite_iff _ _ Iff.rfl _ _
  · refine congrArg (fun n : ℕ => ((n + 1 : ℕ) : EReal)) ?_
    unfold cnt
    exact card_filter_iff _ _ _ fun r => (isEdge_iff e h i r).symm

/-! ## The normalising factor -/

/-- The degree is positive, so the guarded reciprocal square root is the reciprocal square root. -/
theorem ref_dinv (e : Edges) (h : InRange e) (i : Fin 8192) :
    val_main_v33 (F := Ideal) e (ix2 i (0 : Fin 1)) = dinv e i := by
  have hidx : idx_main_v29 (ix2 i (0 : Fin 1)) = ix1 i := by
    funext a
    match a with
    | ⟨0, _⟩ => rfl
  have hdeg : val_main_v29 (F := Ideal) e (ix2 i (0 : Fin 1)) = deg e i := by
    rw [val_main_v29_apply, hidx, ref_deg e h]
  rw [val_main_v33_apply, val_main_v31_apply, val_main_v32_apply, hdeg, val_main_v30_apply,
    val_main_cst_6_apply, Ideal.ofBits_def, Ideal.ofBits_zero_f32]
  have hc : FloatOps.cmpf (F := Ideal) (φ := .f32) .ogt (deg e i) (0 : EReal) = 1#1 := by
    show BitVec.ofBool (decide ((0 : EReal) < deg e i)) = 1#1
    rw [decide_eq_true (deg_pos e i)]; rfl
  rw [hc, select_one]
  rfl

/-! ## The result -/

/-- Entry (i, j) of the reference: the normalised adjacency-plus-identity times the projected features, plus the bias. -/
theorem ref_out (x0 : FVec Ideal ⟨2, ![8192, 512]⟩ .f32) (e : Edges) (x2 : FVec Ideal ⟨2, ![512, 512]⟩ .f32)
    (x3 : FVec Ideal ⟨1, ![512]⟩ .f32) (h : InRange e) (i : Fin 8192) (j : Fin 512) :
    val_main_v42 (F := Ideal) x0 e x2 x3 (ix2 i j)
      = (∑ r : Fin 8192, ((dinv e i * (adj e i r + (if i = r then (1 : EReal) else 0))) * dinv e r)
          * (∑ q : Fin 512, x0 (ix2 r q) * x2 (ix2 q j))) + x3 (ix1 j) := by
  have hb : idx_main_v40 (idx_main_v41 (ix2 i j)) = ix1 j := by
    funext a
    match a with
    | ⟨0, _⟩ => rfl
  have hl : ∀ k : Fin 8192, lidx_main_v39 (ix2 i j) k = ix2 i k := fun k => by
    funext a
    match a with
    | ⟨0, _⟩ => rfl
    | ⟨1, _⟩ => rfl
  have hr : ∀ k : Fin 8192, ridx_main_v39 (ix2 i j) k = ix2 k j := fun k => by
    funext a
    match a with
    | ⟨0, _⟩ => rfl
    | ⟨1, _⟩ => rfl
  have hl0 : ∀ (k : Fin 8192) (q : Fin 512), lidx_main_v0 (ix2 k j) q = ix2 k q := fun k q => by
    funext a
    match a with
    | ⟨0, _⟩ => rfl
    | ⟨1, _⟩ => rfl
  have hr0 : ∀ (k : Fin 8192) (q : Fin 512), ridx_main_v0 (ix2 k j) q = ix2 q j := fun k q => by
    funext a
    match a with
    | ⟨0, _⟩ => rfl
    | ⟨1, _⟩ => rfl
  have h34 : ∀ k : Fin 8192, idx_main_v34 (ix2 i k) = ix2 i (0 : Fin 1) := fun k => by
    funext a
    match a with
    | ⟨0, _⟩ => rfl
    | ⟨1, _⟩ => rfl
  have h37 : ∀ k : Fin 8192, idx_main_v36 (idx_main_v37 (ix2 i k)) = ix2 k (0 : Fin 1) := fun k => by
    funext a
    match a with
    | ⟨0, _⟩ => rfl
    | ⟨1, _⟩ => rfl
  rw [val_main_v42_apply, val_main_v39_apply, val_main_v41_apply, val_main_v40_apply, hb]
  simp only [hl, hr, val_main_v38_apply, val_main_v35_apply, val_main_v34_apply, val_main_v37_apply,
    val_main_v36_apply, h34, h37, ref_dinv e h, ref_adj_eye e h, val_main_v0_apply, hl0, hr0,
    Ideal.mulf_def, Ideal.addf_def]

end Cert.RefVal

end
-- ==== Proof.PreDecode.lean ====
/-
  Reading the precondition. The printed predicate is a conjunction of four "for all entries" statements: every entry
  of the feature matrix, of the weight matrix and of the bias vector has absolute value below +∞, and every word of the
  edge list is at least 0 and below 8192, signed. Each "for all" is a reduction by AND from the constant 1, so a result of
  1 says every reduced bit is 1; an absolute value below +∞ on the extended reals says the entry is neither infinity,
  hence a real number; the two signed comparisons say the word, read signed, lies in [0, 8192).
-/
import proofs.«429857_j22385369547440_3_alg».proof.Proof.Gen.Pre_finite_inputs
import proofs.«429857_j22385369547440_3_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

/-- The rank-0 shape has one index. -/
instance : Subsingleton S_.Idx := ⟨fun a b => funext fun d => d.elim0⟩

/-- The predicate taken apart, at any float instance: each float entry's absolute value compares below the
    pattern of +∞, and each edge word passes both signed comparisons. -/
theorem parts {F : FTy → Type} [FloatOps F] [Facts]
    (x0 : FVec F S8192x512 .f32) (e : IVec S2x262144 32) (x2 : FVec F S512x512 .f32) (x3 : FVec F S512 .f32)
    (h : fn (F := F) x0 e x2 x3 = fun _ => 1#1) :
    (∀ i, FloatOps.cmpf .olt (FloatOps.hostAbsf (x0 i)) (FloatOps.ofBits .f32 0x7F800000#32 : F .f32) = 1#1) ∧
    (∀ i, FloatOps.cmpf .olt (FloatOps.hostAbsf (x2 i)) (FloatOps.ofBits .f32 0x7F800000#32 : F .f32) = 1#1) ∧
    (∀ i, FloatOps.cmpf .olt (FloatOps.hostAbsf (x3 i)) (FloatOps.ofBits .f32 0x7F800000#32 : F .f32) = 1#1) ∧
    (∀ j, IntOp.cmpi .sge (e j) 0#32 = 1#1 ∧ IntOp.cmpi .slt (e j) 8192#32 = 1#1) := by
  have h0 := congrFun h ix0
  dsimp only [fn, fn_part1, andi] at h0
  rw [IntOp.andi_eq_one, IntOp.andi_eq_one, IntOp.andi_eq_one] at h0
  obtain ⟨⟨⟨h3, h7⟩, h12⟩, h19⟩ := h0
  refine ⟨fun i => ?_, fun i => ?_, fun i => ?_, fun j => ?_⟩
  · exact Host.reduce_andi_all _ _ _ _ _ h3 i
  · exact Host.reduce_andi_all _ _ _ _ _ h7 i
  · exact Host.reduce_andi_all _ _ _ _ _ h12 i
  · have hj := Host.reduce_andi_all _ _ _ _ _ h19 j
    exact IntOp.andi_eq_one.1 hj

/-- The pattern 0x7F800000 denotes +∞. -/
theorem inf_pattern : (Ideal.ofBits .f32 0x7F800000#32 : EReal) = ⊤ := by
  simp [Ideal.ofBits, Ideal.ieee]

/-- An extended real whose absolute value max x (-x) is below +∞ is a real number. -/
theorem real_of_abs_lt_top (x : EReal) (hx : max x (-x) < ⊤) : ∃ t : ℝ, x = (t : EReal) := by
  have h1 : x ≠ ⊤ := fun he => by rw [he] at hx; simp at hx
  have h2 : x ≠ ⊥ := fun he => by rw [he] at hx; simp at hx
  exact ⟨x.toReal, (EReal.coe_toReal h1 h2).symm⟩

/-- The element fact read on the extended reals. -/
theorem real_of_cmp (x : Ideal .f32)
    (hx : FloatOps.cmpf .olt (FloatOps.hostAbsf x) (FloatOps.ofBits .f32 0x7F800000#32 : Ideal .f32) = 1#1) :
    ∃ t : ℝ, x = (t : EReal) := by
  apply real_of_abs_lt_top
  have hx' : Ideal.cmp .olt (max x (-x)) (Ideal.ofBits .f32 0x7F800000#32) = 1#1 := hx
  rw [inf_pattern] at hx'
  unfold Ideal.cmp at hx'
  rw [StableHlo.Predicate.ofBool_eq_one_iff] at hx'
  exact of_decide_eq_true hx'

/-- A word that passes both signed comparisons lies in [0, 8192) read signed. -/
theorem range_of_cmp (w : BitVec 32) (h : IntOp.cmpi .sge w 0#32 = 1#1 ∧ IntOp.cmpi .slt w 8192#32 = 1#1) :
    0 ≤ w.toInt ∧ w.toInt < 8192 := by
  obtain ⟨h0, h1⟩ := h
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  exact ⟨h0, h1⟩

/-- The integer half of the precondition, at any float instance: every row and column number is in range. -/
theorem decode_range {F : FTy → Type} [FloatOps F] [Cert.Pre_finite_inputs.Facts]
    (x0 : FVec F ⟨2, ![8192, 512]⟩ .f32) (e : Cert.Spec.Edges) (x2 : FVec F ⟨2, ![512, 512]⟩ .f32)
    (x3 : FVec F ⟨1, ![512]⟩ .f32) (h : Cert.Pre_finite_inputs.fn (F := F) x0 e x2 x3 = fun _ => 1#1) :
    Cert.Spec.InRange e :=
  fun a k => range_of_cmp _ ((parts x0 e x2 x3 h).2.2.2 (ix2 a k))

/-- The precondition read on the extended reals: every float entry is a real number, and the edge list is in range. -/
theorem decode [Cert.Pre_finite_inputs.Facts] (x0 : FVec Ideal ⟨2, ![8192, 512]⟩ .f32) (e : Cert.Spec.Edges)
    (x2 : FVec Ideal ⟨2, ![512, 512]⟩ .f32) (x3 : FVec Ideal ⟨1, ![512]⟩ .f32)
    (h : Cert.Pre_finite_inputs.fn (F := Ideal) x0 e x2 x3 = fun _ => 1#1) :
    (∀ i, ∃ t : ℝ, x0 i = (t : EReal)) ∧ (∀ i, ∃ t : ℝ, x2 i = (t : EReal)) ∧
      (∀ i, ∃ t : ℝ, x3 i = (t : EReal)) ∧ Cert.Spec.InRange e := by
  obtain ⟨p0, p2, p3, -⟩ := parts x0 e x2 x3 h
  exact ⟨fun i => real_of_cmp _ (p0 i), fun i => real_of_cmp _ (p2 i), fun i => real_of_cmp _ (p3 i),
    decode_range x0 e x2 x3 h⟩

end Cert.PreDecode

end
-- ==== Proof.ValR0.lean ====
import proofs.«429857_j22385369547440_3_alg».proof.Proof.Reg0
import Idealize.ShloMosaic.Lib.Pipeline.Value
import Idealize.ShloMosaic.Lib.ValueIdx
import Idealize.ShloMosaic.Lib.ValueLayout
import Idealize.ShloMosaic.PureOps.Ideal.Laws

/-! The value of the first region over the extended reals: after the region, entry (r, j) of the first output array is
    the sum over q of x(r, q) · w(q, j), and entry (r, j) of the second is d(r, 0) times that sum. Each of the four grid
    points t handles rows 2048 t … 2048 t + 2047: its payloads are read entry by entry (a matrix product into a zero
    accumulator is the plain sum; changes of float format are the identity here), the blocks it reads are rows of the
    arrays the region finds, what it writes back is its block of one whole-array function, and the four blocks cover
    the 8192 rows. -/

noncomputable section

namespace Cert.KernelIdeal.ValR0

open Cert.KernelIdeal Cert.KernelIdeal.Gen Idealize.ShloMosaic Idealize.ShloMosaic.TcCoe Idealize.ShloMosaic.ValueIdx
open Idealize.ShloMosaic.Pipeline (Dat)

/-! ## The product of a row block with the weight, entry by entry -/

theorem lhs_ax0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_ax1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_ax0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_ax1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry (p, j) of the first payload: row p of the x block against column j of the weight. -/
theorem prod_at (x : Vec Ideal S2048x512 .f32) (w : Vec Ideal S512x512 .f32) (p : Fin 2048) (j : Fin 512) :
    k0_pay1 (F := Ideal) x w (ix2 p j) = ∑ q : Fin 512, x (ix2 p q) * w (ix2 q j) := by
  unfold k0_pay1
  refine (Ideal.matmul_constant_zero_apply dot_S2048x512_S512x512_S2048x512_1_0_0_1_n_n none _ _ (ix2 p j)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p j) ((contrEquiv1 dot_S2048x512_S512x512_S2048x512_1_0_0_1_n_n 512 rfl rfl).symm k) = ix2 p k := funext fun a => Fin.ext (by
    match a with
    | ⟨0, _⟩ => exact lhs_ax0 _ _
    | ⟨1, _⟩ => exact (lhs_ax1 _ _).trans hk)
  have er : dot_S2048x512_S512x512_S2048x512_1_0_0_1_n_n.rhsIdx (ix2 p j) ((contrEquiv1 dot_S2048x512_S512x512_S2048x512_1_0_0_1_n_n 512 rfl rfl).symm k) = ix2 k j := funext fun a => Fin.ext (by
    match a with
    | ⟨0, _⟩ => exact (rhs_ax0 _ _).trans hk
    | ⟨1, _⟩ => exact rhs_ax1 _ _)
  rw [el, er]
  rfl

/-- Entry (p, j) of the second payload: the column's entry of row p times the product's entry. -/
theorem scaled_at (x : Vec Ideal S2048x512 .f32) (w : Vec Ideal S512x512 .f32) (d : Vec Ideal S2048x1 .f32) (p : Fin 2048) (j : Fin 512) :
    k0_pay2 (F := Ideal) x w d (ix2 p j) = d (ix2 p 0) * ∑ q : Fin 512, x (ix2 p q) * w (ix2 q j) := by
  unfold k0_pay2
  refine (truncf_apply (ψ := .bf16) _ bitsLt_bf16_f32 (ix2 p j)).trans ?_
  refine (mulf_apply _ _ (ix2 p j)).trans ?_
  rw [prod_at]
  refine congrArg (· * _) ?_
  rw [shapeCast_self]
  refine broadcastTo_apply _ _ (ix2 p j) (ix2 p 0) fun a => ?_
  match a with
  | ⟨0, _⟩ => rfl
  | ⟨1, _⟩ => rfl

/-! ## The arrays the region finds, and each window's block at a grid point -/

section Arrays
variable (V : (c : Dev nD) → (b : Ref sig .tc) → Buf (Elt Ideal) ((c : Thread nD τ).loc b))

/-- x, all 8192 rows. -/
abbrev xarr (c : Dev nD) : Vec Ideal S8192x512 .f32 := V c main_arg0
/-- The weight. -/
abbrev warr (c : Dev nD) : Vec Ideal S512x512 .f32 := V c main_arg2
/-- The scaling column, one entry per row. -/
abbrev darr (c : Dev nD) : Vec Ideal S8192x1 .f32 := V c main_v45

/-- Rows 2048 t … 2048 t + 2047 of x. -/
abbrev xblk (c : Dev nD) (t : Fin cfg0.N) : Vec Ideal S2048x512 .f32 := iblk0 V c 0 t
/-- The weight, whole, at every point. -/
abbrev wblk (c : Dev nD) (t : Fin cfg0.N) : Vec Ideal S512x512 .f32 := iblk0 V c 1 t
/-- Rows 2048 t … 2048 t + 2047 of the column. -/
abbrev dblk (c : Dev nD) (t : Fin cfg0.N) : Vec Ideal S2048x1 .f32 := iblk0 V c 2 t

theorem hz : (![0, 0] : Fin 2 → Nat) = fun _ => 0 := funext fun a => by fin_cases a <;> rfl

/-- The index maps over the grid: the row-blocked windows sit at block (t, 0), the weight's at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry (p, q) of the x block at point t is entry (2048 t + p, q) of x. -/
theorem xblk_apply (c : Dev nD) (t : Fin cfg0.N) (p : Fin 2048) (q : Fin 512) (r : Fin 8192) (hr : r.val = 2048 * t.val + p.val) :
    xblk V c t (ix2 p q) = xarr V c (ix2 r q) := by
  obtain ⟨e0, e1, -⟩ := idx_facts t
  unfold xblk iblk0
  rw [View.read_apply]
  show V c main_arg0 _ = V c main_arg0 _
  refine congrArg (V c main_arg0) (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * q.val = q.val; rw [e1]; omega

/-- The weight's block is the weight. -/
theorem wblk_apply (c : Dev nD) (t : Fin cfg0.N) (q : Fin 512) (j : Fin 512) :
    wblk V c t (ix2 q j) = warr V c (ix2 q j) := by
  obtain ⟨-, -, e0, e1, -⟩ := idx_facts t
  unfold wblk iblk0
  rw [View.read_apply]
  show V c main_arg2 _ = V c main_arg2 _
  refine congrArg (V c main_arg2) (funext fun a => Fin.ext ?_)
  match a with
  | ⟨0, _⟩ => show win0_1.index t (0 : Fin 2) * 512 + 1 * q.val = q.val; rw [e0]; omega
  | ⟨1, _⟩ => show win0_1.index t (1 : Fin 2) * 512 + 1 * j.val = j.val; rw [e1]; omega

/-- Entry (p, 0) of the column's block at point t is entry (2048 t + p, 0) of the column. -/
theorem dblk_apply (c : Dev nD) (t : Fin cfg0.N) (p : Fin 2048) (r : Fin 8192) (hr : r.val = 2048 * t.val + p.val) :
    dblk V c t (ix2 p 0) = darr V c (ix2 r 0) := by
  obtain ⟨-, -, -, -, e0, e1, -⟩ := idx_facts t
  unfold dblk iblk0
  rw [View.read_apply]
  show V c main_v45 _ = V c main_v45 _
  refine congrArg (V c main_v45) (funext fun a => Fin.ext ?_)
  match a with
  | ⟨0, _⟩ => show win0_2.index t (0 : Fin 2) * 2048 + 1 * p.val = r.val; rw [e0, hr]; omega
  | ⟨1, _⟩ => show win0_2.index t (1 : Fin 2) * 1 + 1 * (0 : Fin 1).val = (0 : Fin 1).val; rw [e1]; rfl

end Arrays

/-! ## The two output arrays after the region -/

section Region
variable (V : (c : Dev nD) → (b : Ref sig .tc) → Buf (Elt Ideal) ((c : Thread nD τ).loc b))

/-- The product x · w, entry by entry. -/
def supp (c : Dev nD) : Vec Ideal S8192x512 .f32 := fun i =>
  ∑ q : Fin 512, xarr V c (ix2 ⟨(i 0).val, (i 0).isLt⟩ q) * warr V c (ix2 q ⟨(i 1).val, (i 1).isLt⟩)

/-- The product with row r scaled by the column's entry of row r. -/
def sscaled (c : Dev nD) : Vec Ideal S8192x512 .bf16 := fun i =>
  darr V c (ix2 ⟨(i 0).val, (i 0).isLt⟩ 0) * ∑ q : Fin 512, xarr V c (ix2 ⟨(i 0).val, (i 0).isLt⟩ q) * warr V c (ix2 q ⟨(i 1).val, (i 1).isLt⟩)

/-- At point t the first payload of the point's blocks, at entry y of the block, is the product's entry at the
    array index i that lies 2048 t rows below y. -/
theorem supp_point (c : Dev nD) (t : Fin cfg0.N) (y : S2048x512.Idx) (i : S8192x512.Idx)
    (h0 : (i 0).val = 2048 * t.val + (y 0).val) (h1 : (i 1).val = (y 1).val) :
    k0_pay1 (F := Ideal) (xblk V c t) (wblk V c t) y = supp V c i := by
  obtain ⟨p, j, rfl⟩ : ∃ (p : Fin 2048) (j : Fin 512), y = ix2 p j := ⟨y 0, y 1, eq_ix2 y⟩
  obtain ⟨r, j', rfl⟩ : ∃ (r : Fin 8192) (j' : Fin 512), i = ix2 r j' := ⟨i 0, i 1, eq_ix2 i⟩
  have hr : r.val = 2048 * t.val + p.val := h0
  obtain rfl : j' = j := Fin.ext h1
  refine (prod_at (xblk V c t) (wblk V c t) p j').trans ?_
  refine Finset.sum_congr rfl fun q _ => ?_
  rw [xblk_apply V c t p q r hr, wblk_apply V c t q j']

/-- The same for the second payload. -/
theorem sscaled_point (c : Dev nD) (t : Fin cfg0.N) (y : S2048x512.Idx) (i : S8192x512.Idx)
    (h0 : (i 0).val = 2048 * t.val + (y 0).val) (h1 : (i 1).val = (y 1).val) :
    k0_pay2 (F := Ideal) (xblk V c t) (wblk V c t) (dblk V c t) y = sscaled V c i := by
  obtain ⟨p, j, rfl⟩ : ∃ (p : Fin 2048) (j : Fin 512), y = ix2 p j := ⟨y 0, y 1, eq_ix2 y⟩
  obtain ⟨r, j', rfl⟩ : ∃ (r : Fin 8192) (j' : Fin 512), i = ix2 r j' := ⟨i 0, i 1, eq_ix2 i⟩
  have hr : r.val = 2048 * t.val + p.val := h0
  obtain rfl : j' = j := Fin.ext h1
  refine (scaled_at (xblk V c t) (wblk V c t) (dblk V c t) p j').trans ?_
  rw [dblk_apply V c t p r hr]
  refine congrArg (darr V c (ix2 r 0) * ·) ?_
  refine Finset.sum_congr rfl fun q _ => ?_
  rw [xblk_apply V c t p q r hr, wblk_apply V c t q j']

/-- What point t writes back into the product's array is block t of the product. -/
theorem flushed3_eq (c : Dev nD) (t : Fin cfg0.N) :
    (dat0 V c).flushed 3 t = ((cfg0.win 3).blk t).view.read (Elt Ideal) (supp V c) := by
  show (cfg0.win 3).cut (grid0.coords t) ((dat0 V c).after 3 t) = _
  rw [after0_3]
  unfold out0_3
  rw [View.canon_unit_zero hz]
  simp only [View.ld_unit_zero (S := S2048x512) hz, View.ld_unit_zero (S := S512x512) hz]
  obtain ⟨-, -, -, -, -, -, e0, e1, -⟩ := idx_facts t
  funext y
  refine supp_point V c t y (((cfg0.win 3).blk t).view.emb y) ?_ ?_
  · show win0_3.index t (0 : Fin 2) * 2048 + 1 * (y 0).val = 2048 * t.val + (y 0).val
    rw [e0]; omega
  · show win0_3.index t (1 : Fin 2) * 512 + 1 * (y 1).val = (y 1).val
    rw [e1]; omega

/-- What point t writes back into the scaled array is block t of the scaled product. -/
theorem flushed4_eq (c : Dev nD) (t : Fin cfg0.N) :
    (dat0 V c).flushed 4 t = ((cfg0.win 4).blk t).view.read (Elt Ideal) (sscaled V c) := by
  show (cfg0.win 4).cut (grid0.coords t) ((dat0 V c).after 4 t) = _
  rw [after0_4]
  unfold out0_4
  rw [View.canon_unit_zero hz]
  simp only [View.ld_unit_zero (S := S2048x512) hz, View.ld_unit_zero (S := S512x512) hz, View.ld_unit_zero (S := S2048x1) hz]
  obtain ⟨-, -, -, -, -, -, -, -, e0, e1⟩ := idx_facts t
  funext y
  refine sscaled_point V c t y (((cfg0.win 4).blk t).view.emb y) ?_ ?_
  · show win0_4.index t (0 : Fin 2) * 2048 + 1 * (y 0).val = 2048 * t.val + (y 0).val
    rw [e0]; omega
  · show win0_4.index t (1 : Fin 2) * 512 + 1 * (y 1).val = (y 1).val
    rw [e1]; omega

/-- An index of the product's array is in point t's block iff each coordinate is in the block's range. -/
theorem mem_blk3 (t : Fin cfg0.N) (i : S8192x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v46_0).slice (win0_3.rect t)).set ↔ _
  rw [View.set_slice_whole, Rect.mem_set_unit]
  exact Iff.rfl

theorem mem_blk4 (t : Fin cfg0.N) (i : S8192x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v46_1).slice (win0_4.rect t)).set ↔ _
  rw [View.set_slice_whole, Rect.mem_set_unit]
  exact Iff.rfl

/-- Row r lies in the block of point r / 2048. -/
theorem cover3 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  have hN : grid0.N = 4 := N_0
  obtain ⟨t, ht⟩ : ∃ t : Fin cfg0.N, t.val = (i 0).val / 2048 :=
    ⟨⟨(i 0).val / 2048, by show (i 0).val / 2048 < grid0.N; rw [hN]; omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 512 ≤ (i 1).val ∧ (i 1).val < win0_3.index t (1 : Fin 2) * 512 + 512; rw [e1]; omega

theorem cover4 (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  have hN : grid0.N = 4 := N_0
  obtain ⟨t, ht⟩ : ∃ t : Fin cfg0.N, t.val = (i 0).val / 2048 :=
    ⟨⟨(i 0).val / 2048, by show (i 0).val / 2048 < grid0.N; rw [hN]; omega⟩, rfl⟩
  obtain ⟨-, -, -, -, -, -, -, -, e0, e1⟩ := idx_facts t
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; rw [e0, ht]; omega
  | ⟨1, _⟩ => show win0_4.index t (1 : Fin 2) * 512 ≤ (i 1).val ∧ (i 1).val < win0_4.index t (1 : Fin 2) * 512 + 512; rw [e1]; omega

/-- The product's array after the region is the product. -/
theorem final3 (c : Dev nD) : (dat0 V c).arrAt 3 cfg0.N = supp V c :=
  (dat0 V c).arrAt_eq_of_cover 3 (supp V c) (fun t _ => flushed3_eq V c t) cover3

/-- The scaled array after the region is the scaled product. -/
theorem final4 (c : Dev nD) : (dat0 V c).arrAt 4 cfg0.N = sscaled V c :=
  (dat0 V c).arrAt_eq_of_cover 4 (sscaled V c) (fun t _ => flushed4_eq V c t) cover4

/-- The product's array after the region. -/
abbrev suppArr (c : Dev nD) : Vec Ideal S8192x512 .f32 := (dat0 (F := Ideal) V c).arrAt 3 cfg0.N
/-- The scaled array after the region. -/
abbrev sscaledArr (c : Dev nD) : Vec Ideal S8192x512 .bf16 := (dat0 (F := Ideal) V c).arrAt 4 cfg0.N

/-- Entry (r, j) of the product's array after the region: row r of x against column j of the weight. -/
theorem supp_val (c : Dev nD) (r : Fin 8192) (j : Fin 512) :
    suppArr V c (ix2 r j) = ∑ q : Fin 512, xarr V c (ix2 r q) * warr V c (ix2 q j) := by
  show (dat0 (F := Ideal) V c).arrAt 3 cfg0.N (ix2 r j) = _
  rw [final3]
  rfl

/-- Entry (r, j) of the scaled array after the region: the column's entry of row r times that sum. -/
theorem sscaled_val (c : Dev nD) (r : Fin 8192) (j : Fin 512) :
    sscaledArr V c (ix2 r j) = darr V c (ix2 r 0) * ∑ q : Fin 512, xarr V c (ix2 r q) * warr V c (ix2 q j) := by
  show (dat0 (F := Ideal) V c).arrAt 4 cfg0.N (ix2 r j) = _
  rw [final4]
  rfl

end Region

end Cert.KernelIdeal.ValR0

end
-- ==== Proof.ValR1.lean ====
import proofs.«429857_j22385369547440_3_alg».proof.Proof.Reg1
import proofs.«429857_j22385369547440_3_alg».proof.Proof.Algebra
import Idealize.ShloMosaic.Lib.Pipeline.Value
import Idealize.ShloMosaic.Lib.ValueIdx
import Idealize.ShloMosaic.Lib.ValueLayout
import Idealize.ShloMosaic.PureOps.Ideal.Laws

/-!
  The value of the second region at the ideal values.

  The region walks a grid of 4 row blocks by 16 reduction steps. At step 0 of a row block an accumulator is set to zero;
  at every step it receives the product of the step's [2048,512] adjacency block and [512,512] scaled-support block; at
  step 15 the result block is `d * acc + (d * d) * support + bias` and is written back to the result array. Here each of
  these is read entry by entry: the product of one step is a sum over the 512 contracted rows of the step, the
  accumulator after step `s` is the sum of the products of the steps `0, …, s`, every block is a rectangle of its array,
  and the sixteen steps together contract over all 8192 rows, block by block. The blocks written back at the last steps
  cover the result array, so every entry of it is known.
-/

set_option maxRecDepth 16384

noncomputable section

namespace Cert.KernelIdeal.ValR1

open Cert.KernelIdeal Cert.KernelIdeal.Gen Idealize.ShloMosaic Idealize.ShloMosaic.ValueIdx Idealize.ShloMosaic.TcCoe
open Idealize.ShloMosaic.Pipeline (Dat)

/-! ## The product of one step, entry by entry -/

/-- On the left operand's row axis the product's left index is the output's row. -/
theorem lhs_step_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl

/-- On the left operand's column axis it is the contracted coordinate. -/
theorem lhs_step_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q

/-- On the right operand's row axis the right index is the contracted coordinate. -/
theorem rhs_step_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q

/-- On the right operand's column axis it is the output's column. -/
theorem rhs_step_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The product of a [2048,512] block and a [512,512] block added into zero, at row `p` and column `j`: the sum over the
    512 contracted rows of the entries' products. -/
theorem step_apply (a : FVec Ideal S2048x512 .bf16) (b : FVec Ideal S512x512 .bf16) (p : Fin 2048) (j : Fin 512) :
    matmul dot_S2048x512_S512x512_S2048x512_1_0_0_1_n_n none a b (constant (F := Ideal) S2048x512 .f32 0x00000000#32) (ix2 p j)
      = ∑ l : Fin 512, a (ix2 p l) * b (ix2 l j) := by
  simp only [matmul]
  rw [Ideal.matmul_constant_zero_apply,
    ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p j)
      ((contrEquiv1 dot_S2048x512_S512x512_S2048x512_1_0_0_1_n_n 512 rfl rfl).symm k) = ix2 p k := funext fun ax => Fin.ext (by
    match ax with
    | ⟨0, _⟩ => exact lhs_step_0 _ _
    | ⟨1, _⟩ => exact (lhs_step_1 _ _).trans hk)
  have er : dot_S2048x512_S512x512_S2048x512_1_0_0_1_n_n.rhsIdx (ix2 p j)
      ((contrEquiv1 dot_S2048x512_S512x512_S2048x512_1_0_0_1_n_n 512 rfl rfl).symm k) = ix2 k j := funext fun ax => Fin.ext (by
    match ax with
    | ⟨0, _⟩ => exact (rhs_step_0 _ _).trans hk
    | ⟨1, _⟩ => exact rhs_step_1 _ _)
  rw [el, er]

/-! ## The payloads, entry by entry -/

/-- A column broadcast along the rows' entries: a `[a, 1]` array broadcast to `[a, b]` reads, at `(p, c)`, the
    operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accumulator's reset: the zero block reads zero everywhere. -/
theorem zero_apply (y : S2048x512.Idx) : k1_pay1 (F := Ideal) y = 0 := by
  unfold k1_pay1
  refine (congrFun (shapeCast_self _ _) y).trans ?_
  exact Ideal.ofBits_zero_f32

/-- One step of the accumulation, at row `p` and column `j`: what the accumulator held plus the step's product. -/
theorem acc_step_apply (acc : Vec Ideal S2048x512 .f32) (a : Vec Ideal S2048x512 .bf16) (b : Vec Ideal S512x512 .bf16)
    (p : Fin 2048) (j : Fin 512) :
    k1_pay2 acc a b (ix2 p j) = acc (ix2 p j) + ∑ l : Fin 512, a (ix2 p l) * b (ix2 l j) := by
  unfold k1_pay2
  simp only [shapeCast_self]
  refine (addf_apply _ _ _).trans ?_
  exact congrArg (acc (ix2 p j) + ·) (step_apply a b p j)

/-- The result block formed at the last step, at row `p` and column `j`. -/
theorem result_apply (d : Vec Ideal S2048x1 .f32) (acc s : Vec Ideal S2048x512 .f32) (bias : Vec Ideal S1x512 .f32)
    (p : Fin 2048) (j : Fin 512) :
    k1_pay3 d acc s bias (ix2 p j)
      = (d (ix2 p 0) * acc (ix2 p j) + (d (ix2 p 0) * d (ix2 p 0)) * s (ix2 p j)) + bias (ix2 0 j) := by
  unfold k1_pay3
  simp only [shapeCast_self]
  refine (addf_apply _ _ _).trans ?_
  refine congrArg₂ (· + ·) ?_ (broadcastTo_1b_ab_apply bias _ p j)
  refine (addf_apply _ _ _).trans ?_
  refine congrArg₂ (· + ·) ?_ ?_
  · refine (mulf_apply _ _ _).trans ?_
    exact congrArg (· * acc (ix2 p j)) (broadcastTo_a1_ab_apply d _ p j)
  · refine (mulf_apply _ _ _).trans ?_
    exact congrArg (· * s (ix2 p j)) (broadcastTo_a1_ab_apply (mulf (F := Ideal) (φ := .f32) d d) _ p j)

/-! ## The arrays the region finds, and the windows' blocks, at their literal types -/

variable (V : (c : Dev nD) → (b : Ref sig .tc) → Buf (Elt Ideal) ((c : Thread nD τ).loc b))

/-- The adjacency array. -/
abbrev adjArr (c : Dev nD) : Vec Ideal S8192x8192 .bf16 := V c main_v19
/-- The scaled-support array. -/
abbrev scaledArr (c : Dev nD) : Vec Ideal S8192x512 .bf16 := V c main_v46_1
/-- The support array. -/
abbrev suppArr (c : Dev nD) : Vec Ideal S8192x512 .f32 := V c main_v46_0
/-- The column `d`. -/
abbrev dArr (c : Dev nD) : Vec Ideal S8192x1 .f32 := V c main_v45
/-- The bias row. -/
abbrev biasArr (c : Dev nD) : Vec Ideal S1x512 .f32 := V c main_v47

/-- The adjacency block of point `t`. -/
abbrev adjBlk (c : Dev nD) (t : Fin cfg1.N) : Vec Ideal S2048x512 .bf16 := iblk1 V c 0 t
/-- The scaled-support block of point `t`. -/
abbrev scaledBlk (c : Dev nD) (t : Fin cfg1.N) : Vec Ideal S512x512 .bf16 := iblk1 V c 1 t
/-- The support block of point `t`. -/
abbrev suppBlk (c : Dev nD) (t : Fin cfg1.N) : Vec Ideal S2048x512 .f32 := iblk1 V c 2 t
/-- The block of the column `d` of point `t`. -/
abbrev dBlk (c : Dev nD) (t : Fin cfg1.N) : Vec Ideal S2048x1 .f32 := iblk1 V c 3 t
/-- The bias row as point `t` reads it. -/
abbrev biasBlk (c : Dev nD) (t : Fin cfg1.N) : Vec Ideal S1x512 .f32 := iblk1 V c 4 t

/-- The windows' block indices, decided over the grid: point `t` is row block `t / 16`, step `t % 16`. -/
theorem idx_facts : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0
    ∧ win1_4.index t (0 : Fin 2) = 0 ∧ win1_4.index t (1 : Fin 2) = 0
    ∧ win1_5.index t (0 : Fin 2) = t.val / 16 ∧ win1_5.index t (1 : Fin 2) = 0 :=
  (by decide +kernel : ∀ t : Fin grid1.N, _)

/-- The adjacency block of point `t` holds rows `2048 (t / 16) + p`, columns `512 (t % 16) + l` of the array. -/
theorem adjBlk_apply (c : Dev nD) (t : Fin cfg1.N) (p : Fin 2048) (l : Fin 512) (r q : Fin 8192)
    (hr : r.val = 2048 * (t.val / 16) + p.val) (hq : q.val = 512 * (t.val % 16) + l.val) :
    adjBlk V c t (ix2 p l) = adjArr V c (ix2 r q) := by
  obtain ⟨e0, e1, -⟩ := idx_facts t
  show V c main_v19 (((cfg1.win 0).blk t).view.emb (ix2 p l)) = V c main_v19 (ix2 r q)
  refine congrArg (V c main_v19) (funext fun a => Fin.ext ?_)
  match a with
  | ⟨0, _⟩ => show win1_0.index t (0 : Fin 2) * 2048 + 1 * p.val = r.val; omega
  | ⟨1, _⟩ => show win1_0.index t (1 : Fin 2) * 512 + 1 * l.val = q.val; omega

/-- The scaled-support block of point `t` holds rows `512 (t % 16) + l` of the array. -/
theorem scaledBlk_apply (c : Dev nD) (t : Fin cfg1.N) (l j : Fin 512) (q : Fin 8192)
    (hq : q.val = 512 * (t.val % 16) + l.val) :
    scaledBlk V c t (ix2 l j) = scaledArr V c (ix2 q j) := by
  obtain ⟨-, -, e0, e1, -⟩ := idx_facts t
  show V c main_v46_1 (((cfg1.win 1).blk t).view.emb (ix2 l j)) = V c main_v46_1 (ix2 q j)
  refine congrArg (V c main_v46_1) (funext fun a => Fin.ext ?_)
  match a with
  | ⟨0, _⟩ => show win1_1.index t (0 : Fin 2) * 512 + 1 * l.val = q.val; omega
  | ⟨1, _⟩ => show win1_1.index t (1 : Fin 2) * 512 + 1 * j.val = j.val; omega

/-- The support block of point `t` holds rows `2048 (t / 16) + p` of the array. -/
theorem suppBlk_apply (c : Dev nD) (t : Fin cfg1.N) (p : Fin 2048) (j : Fin 512) (r : Fin 8192)
    (hr : r.val = 2048 * (t.val / 16) + p.val) :
    suppBlk V c t (ix2 p j) = suppArr V c (ix2 r j) := by
  obtain ⟨-, -, -, -, e0, e1, -⟩ := idx_facts t
  show V c main_v46_0 (((cfg1.win 2).blk t).view.emb (ix2 p j)) = V c main_v46_0 (ix2 r j)
  refine congrArg (V c main_v46_0) (funext fun a => Fin.ext ?_)
  match a with
  | ⟨0, _⟩ => show win1_2.index t (0 : Fin 2) * 2048 + 1 * p.val = r.val; omega
  | ⟨1, _⟩ => show win1_2.index t (1 : Fin 2) * 512 + 1 * j.val = j.val; omega

/-- The block of the column `d` of point `t` holds rows `2048 (t / 16) + p` of the column. -/
theorem dBlk_apply (c : Dev nD) (t : Fin cfg1.N) (p : Fin 2048) (r : Fin 8192)
    (hr : r.val = 2048 * (t.val / 16) + p.val) :
    dBlk V c t (ix2 p 0) = dArr V c (ix2 r 0) := by
  obtain ⟨-, -, -, -, -, -, e0, e1, -⟩ := idx_facts t
  show V c main_v45 (((cfg1.win 3).blk t).view.emb (ix2 p (0 : Fin 1))) = V c main_v45 (ix2 r (0 : Fin 1))
  refine congrArg (V c main_v45) (funext fun a => Fin.ext ?_)
  match a with
  | ⟨0, _⟩ => show win1_3.index t (0 : Fin 2) * 2048 + 1 * p.val = r.val; omega
  | ⟨1, _⟩ => show win1_3.index t (1 : Fin 2) * 1 + 1 * 0 = 0; omega

/-- Every point reads the whole bias row. -/
theorem biasBlk_apply (c : Dev nD) (t : Fin cfg1.N) (j : Fin 512) :
    biasBlk V c t (ix2 0 j) = biasArr V c (ix2 0 j) := by
  obtain ⟨-, -, -, -, -, -, -, -, e0, e1, -⟩ := idx_facts t
  show V c main_v47 (((cfg1.win 4).blk t).view.emb (ix2 (0 : Fin 1) j)) = V c main_v47 (ix2 (0 : Fin 1) j)
  refine congrArg (V c main_v47) (funext fun a => Fin.ext ?_)
  match a with
  | ⟨0, _⟩ => show win1_4.index t (0 : Fin 2) * 1 + 1 * 0 = 0; omega
  | ⟨1, _⟩ => show win1_4.index t (1 : Fin 2) * 512 + 1 * j.val = j.val; omega

/-! ## The accumulator after each point -/

/-- The product of step `k` for row `r` of the array and column `j`: the adjacency row's entries in block `k` of the
    contracted rows against the scaled-support rows of that block (zero past the sixteen steps, where nothing reads it). -/
def stepTerm (c : Dev nD) (r : Fin 8192) (j : Fin 512) (k : ℕ) : EReal :=
  if h : k < 16 then
    ∑ l : Fin 512, adjArr V c (ix2 r (Cert.Algebra.blk ⟨k, h⟩ l)) * scaledArr V c (ix2 (Cert.Algebra.blk ⟨k, h⟩ l) j)
  else 0

/-- The product of the two blocks of point `n`, at row `p` and column `j`, is the step term of step `n % 16` for the
    array's row `2048 (n / 16) + p`. -/
theorem step_read (c : Dev nD) (n : ℕ) (hn : n < cfg1.N) (p : Fin 2048) (j : Fin 512) (r : Fin 8192)
    (hr : r.val = 2048 * (n / 16) + p.val) :
    ∑ l : Fin 512, adjBlk V c ⟨n, hn⟩ (ix2 p l) * scaledBlk V c ⟨n, hn⟩ (ix2 l j) = stepTerm V c r j (n % 16) := by
  unfold stepTerm
  rw [dif_pos (Nat.mod_lt n (by decide))]
  refine Finset.sum_congr rfl fun l _ => ?_
  rw [adjBlk_apply V c ⟨n, hn⟩ p l r (Cert.Algebra.blk ⟨n % 16, Nat.mod_lt n (by decide)⟩ l) hr rfl,
    scaledBlk_apply V c ⟨n, hn⟩ l j (Cert.Algebra.blk ⟨n % 16, Nat.mod_lt n (by decide)⟩ l) rfl]

/-- After point `n` (row block `n / 16`, step `n % 16`) the accumulator holds, at row `p` and column `j`, the sum of the
    step terms of the steps `0, …, n % 16` for the array's row `2048 (n / 16) + p`. -/
theorem acc_inv (c : Dev nD) : ∀ (n : ℕ) (hn : n < cfg1.N) (p : Fin 2048) (j : Fin 512) (r : Fin 8192),
    r.val = 2048 * (n / 16) + p.val →
    (outsAt1 V c n hn).2 (ix2 p j) = ∑ k ∈ Finset.range (n % 16 + 1), stepTerm V c r j k := by
  intro n
  induction n using Nat.strong_induction_on with
  | _ n ih =>
    intro hn p j r hr
    by_cases h : n % 16 = 0
    · refine (congrFun (scAt1_A V c ⟨n, hn⟩ h) (ix2 p j)).trans ?_
      refine (acc_step_apply (k1_pay1 (F := Ideal)) (adjBlk V c ⟨n, hn⟩) (scaledBlk V c ⟨n, hn⟩) p j).trans ?_
      rw [zero_apply, zero_add, step_read V c n hn p j r hr, h, Finset.sum_range_one]
    · refine (congrFun (scAt1_BC V c ⟨n, hn⟩ h) (ix2 p j)).trans ?_
      refine (acc_step_apply (outsAt1 V c (n - 1) (by omega)).2 (adjBlk V c ⟨n, hn⟩) (scaledBlk V c ⟨n, hn⟩) p j).trans ?_
      rw [ih (n - 1) (by omega) (by omega) p j r (by omega), step_read V c n hn p j r hr,
        show (n - 1) % 16 + 1 = n % 16 by omega, Finset.sum_range_succ]

/-! ## The result array after the region -/

/-- What the result array holds after the region, entry by entry. -/
def outFn (c : Dev nD) : Vec Ideal S8192x512 .f32 := fun i =>
  (dArr V c (ix2 (i 0) 0)
        * (∑ k : Fin 16, ∑ l : Fin 512,
            adjArr V c (ix2 (i 0) (Cert.Algebra.blk k l)) * scaledArr V c (ix2 (Cert.Algebra.blk k l) (i 1)))
      + (dArr V c (ix2 (i 0) 0) * dArr V c (ix2 (i 0) 0)) * suppArr V c (ix2 (i 0) (i 1)))
    + biasArr V c (ix2 0 (i 1))

/-- The sixteen step terms of a row add up to the contraction over all sixteen blocks. -/
theorem sum_stepTerm (c : Dev nD) (r : Fin 8192) (j : Fin 512) :
    ∑ k ∈ Finset.range 16, stepTerm V c r j k
      = ∑ k : Fin 16, ∑ l : Fin 512,
          adjArr V c (ix2 r (Cert.Algebra.blk k l)) * scaledArr V c (ix2 (Cert.Algebra.blk k l) j) := by
  rw [Finset.sum_range]
  refine Finset.sum_congr rfl fun k _ => ?_
  unfold stepTerm
  rw [dif_pos k.isLt]

/-- What a point at the last step writes back is its block of `outFn`. -/
theorem flushed_eq (c : Dev nD) (t : Fin cfg1.N) (hf : (cfg1.win 5).flush t = true) :
    (dat1 (F := Ideal) V c).flushed 5 t = ((cfg1.win 5).blk t).view.read (Elt Ideal) (outFn V c) := by
  have h15 : t.val % 16 = 15 := (flush1_5 t).mp hf
  obtain ⟨-, -, -, -, -, -, -, -, -, -, e0, e1⟩ := idx_facts t
  show (cfg1.win 5).cut (grid1.coords t) ((dat1 (F := Ideal) V c).after 5 t) = _
  rw [after1_5, outAt1_C V c t h15]
  funext y
  obtain ⟨p, j, rfl⟩ : ∃ (p : Fin 2048) (j : Fin 512), y = ix2 p j := ⟨y 0, y 1, eq_ix2 y⟩
  have hp : p.val < 2048 := p.isLt
  have hN : cfg1.N = 64 := N_1
  have ht : t.val < 64 := hN ▸ t.isLt
  show k1_pay3 (dBlk V c t) (outsAt1 V c t.val t.isLt).2 (suppBlk V c t) (biasBlk V c t) (ix2 p j)
    = outFn V c (((cfg1.win 5).blk t).view.emb (ix2 p j))
  have hemb : ((cfg1.win 5).blk t).view.emb (ix2 p j)
      = (ix2 (⟨2048 * (t.val / 16) + p.val, by omega⟩ : Fin 8192) j : S8192x512.Idx) := by
    funext a; apply Fin.ext
    match a with
    | ⟨0, _⟩ => show win1_5.index t (0 : Fin 2) * 2048 + 1 * p.val = 2048 * (t.val / 16) + p.val; omega
    | ⟨1, _⟩ => show win1_5.index t (1 : Fin 2) * 512 + 1 * j.val = j.val; omega
  rw [hemb]
  refine (result_apply (dBlk V c t) (outsAt1 V c t.val t.isLt).2 (suppBlk V c t) (biasBlk V c t) p j).trans ?_
  rw [dBlk_apply V c t p ⟨2048 * (t.val / 16) + p.val, by omega⟩ rfl,
    suppBlk_apply V c t p j ⟨2048 * (t.val / 16) + p.val, by omega⟩ rfl,
    biasBlk_apply V c t j,
    acc_inv V c t.val t.isLt p j ⟨2048 * (t.val / 16) + p.val, by omega⟩ rfl,
    h15, sum_stepTerm]
  rfl

/-- An index of the array is in point `t`'s block iff each coordinate is in the block's range on its axis. -/
theorem mem_blk (t : Fin cfg1.N) (i : S8192x512.Idx) :
    i ∈ ((cfg1.win 5).blk t).view.set
      ↔ ∀ a : Fin 2, win1_5.index t a * S2048x512.size a ≤ (i a).val ∧ (i a).val < win1_5.index t a * S2048x512.size a + S2048x512.size a := by
  show i ∈ ((View.whole main_v48).slice (win1_5.rect t)).set ↔ _
  rw [View.set_slice_whole, Rect.mem_set_unit]
  exact Iff.rfl

/-- Every row of the array is in the block of the last step of its row block. -/
theorem cover (i : S8192x512.Idx) :
    ∃ t : Fin cfg1.N, (cfg1.win 5).flush t = true ∧ i ∈ ((cfg1.win 5).blk t).view.set := by
  have hi0 : (i 0).val < 8192 := (i 0).isLt
  have hi1 : (i 1).val < 512 := (i 1).isLt
  have hN : cfg1.N = 64 := N_1
  refine ⟨⟨16 * ((i 0).val / 2048) + 15, by rw [hN]; omega⟩, (flush1_5 _).mpr (by show (16 * ((i 0).val / 2048) + 15) % 16 = 15; omega), ?_⟩
  rw [mem_blk]
  obtain ⟨-, -, -, -, -, -, -, -, -, -, e0, e1⟩ := idx_facts ⟨16 * ((i 0).val / 2048) + 15, by rw [hN]; omega⟩
  intro a
  match a with
  | ⟨0, _⟩ =>
    show win1_5.index ⟨16 * ((i 0).val / 2048) + 15, _⟩ (0 : Fin 2) * 2048 ≤ (i 0).val
      ∧ (i 0).val < win1_5.index ⟨16 * ((i 0).val / 2048) + 15, _⟩ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win1_5.index ⟨16 * ((i 0).val / 2048) + 15, _⟩ (1 : Fin 2) * 512 ≤ (i 1).val
      ∧ (i 1).val < win1_5.index ⟨16 * ((i 0).val / 2048) + 15, _⟩ (1 : Fin 2) * 512 + 512
    rw [e1]
    omega

/-- The result array after the region is `outFn`. -/
theorem final (c : Dev nD) : (dat1 (F := Ideal) V c).arrAt 5 cfg1.N = outFn V c :=
  (dat1 (F := Ideal) V c).arrAt_eq_of_cover 5 (outFn V c) (flushed_eq V c) cover

/-- The result array after the region. -/
abbrev outArr (c : Dev nD) : Vec Ideal S8192x512 .f32 := (dat1 (F := Ideal) V c).arrAt 5 cfg1.N

/-- THE VALUE OF THE REGION: every entry of the result array, from the arrays the region finds. -/
theorem out_val (c : Dev nD) (i : Fin 8192) (j : Fin 512) :
    outArr V c (ix2 i j)
      = (dArr V c (ix2 i 0)
            * (∑ k : Fin 16, ∑ l : Fin 512,
                adjArr V c (ix2 i (Cert.Algebra.blk k l)) * scaledArr V c (ix2 (Cert.Algebra.blk k l) j))
          + (dArr V c (ix2 i 0) * dArr V c (ix2 i 0)) * suppArr V c (ix2 i j))
        + biasArr V c (ix2 0 j) :=
  congrFun (final V c) (ix2 i j)

end Cert.KernelIdeal.ValR1

end
-- ==== Proof.HostK.lean ====
import proofs.«429857_j22385369547440_3_alg».proof.Proof.Gen.KernelIdeal.Regions
import Idealize.ShloMosaic.Lib.StableHlo.Run
import proofs.«429857_j22385369547440_3_alg».proof.Proof.Spec
import Idealize.ShloMosaic.Lib.ValueIdx

/-! What the host computes from the edge list before the first kernel region, as named functions of the list: the row
    and column words, the 0/1 adjacency (ones written at the listed pairs into zeros), the sort key row * 8192 + column,
    the sorted keys, the flags of first occurrences among the sorted keys, the rows of the sorted keys (the key divided by
    8192, rounded down), the degree column (the flags summed per row, plus one) and the normalising column
    (the reciprocal square root of the degree where it is positive, zero elsewhere); and that the two buffers the region
    reads of these, the adjacency and the normalising column, hold them at the region's entry. -/

set_option maxRecDepth 16384

noncomputable section

namespace Cert.KernelIdeal.HostK

open Idealize.ShloMosaic Idealize.ShloMosaic.TcCoe Idealize.ShloMosaic.ValueIdx
open Idealize.SL.Sem
open Cert.KernelIdeal Cert.KernelIdeal.Gen

/-! ## The stages, as functions -/

/-- Every entry zero, and every entry 8192, over the length of the edge list. -/
def zerosW : IVec S262144 32 := (broadcastInDim S262144 ![] bcast_S_S262144 : IVec S_ 32 → IVec S262144 32) (constantI S_ 32 0#32)
def modW : IVec S262144 32 := (broadcastInDim S262144 ![] bcast_S_S262144 : IVec S_ 32 → IVec S262144 32) (constantI S_ 32 8192#32)

/-- A negative word counts from the end: 8192 is added to it; any other word is kept. -/
def normW (w : IVec S262144 32) : IVec S262144 32 := select (cmpi .slt w zerosW) (addi w modW) w

/-- The row words: row 0 of the edge list. -/
def rowW (e : Cert.Spec.Edges) : IVec S262144 32 :=
  shapeCast S262144 (extractStridedSlice S1x262144 ![0, 0] e slices_S2x262144_S1x262144_0_0) shapeCasts_S1x262144_S262144

/-- The column words: row 1 of the edge list. -/
def colW (e : Cert.Spec.Edges) : IVec S262144 32 :=
  shapeCast S262144 (extractStridedSlice S1x262144 ![1, 0] e slices_S2x262144_S1x262144_1_0) shapeCasts_S1x262144_S262144

/-- The index pairs: the normalised row word beside the normalised column word. -/
def pairW (e : Cert.Spec.Edges) : IVec S262144x2 32 :=
  concatenate S262144x2 1
    [⟨S262144x1, (broadcastInDim S262144x1 ![0] bcast_S262144_S262144x1_0 : IVec S262144 32 → IVec S262144x1 32) (normW (rowW e))⟩,
     ⟨S262144x1, (broadcastInDim S262144x1 ![0] bcast_S262144_S262144x1_0 : IVec S262144 32 → IVec S262144x1 32) (normW (colW e))⟩]
    concatenates_S262144x1_S262144x1_S262144x2_d1

/-- The adjacency: ones written at the index pairs into zeros. -/
def adjK (e : Cert.Spec.Edges) : FVec Ideal S8192x8192 .bf16 :=
  Host.scatter scatter_S8192x8192_S262144x2_S262144_n_01_01_1 (fun _ b => b)
    ((broadcastInDim S8192x8192 ![] bcast_S_S8192x8192 : FVec Ideal S_ .bf16 → FVec Ideal S8192x8192 .bf16) (constant (F := Ideal) S_ .bf16 0x0000#16))
    (pairW e)
    ((broadcastInDim S262144 ![] bcast_S_S262144 : FVec Ideal S_ .bf16 → FVec Ideal S262144 .bf16) (constant (F := Ideal) S_ .bf16 0x3F80#16))

/-- The sort key: row * 8192 + column. -/
def keyW (e : Cert.Spec.Edges) : IVec S262144 32 := addi (muli (rowW e) modW) (colW e)

/-- The keys in ascending order. -/
def sortedW (e : Cert.Spec.Edges) : IVec S262144 32 := Host.sort S262144 0 comparator_i32_d0 (keyW e)

/-- The flags of first occurrences in a sequence: true at the first place, and wherever an entry differs from the one
    before it. -/
def firstOf (s : IVec S262144 32) : IVec S262144 1 :=
  concatenate S262144 0
    [⟨S1, (broadcastInDim S1 ![] bcast_S_S1 : IVec S_ 1 → IVec S1 1) (constantI S_ 1 1#1)⟩,
     ⟨S262143, cmpi .ne (extractStridedSlice S262143 ![1] s slices_S262144_S262143_1) (extractStridedSlice S262143 ![0] s slices_S262144_S262143_0)⟩]
    concatenates_S1_S262143_S262144_d0

/-- Each entry divided by 8192, rounded down: the truncated quotient, less one where the signs of the entry and of 8192
    differ and the remainder is not zero. -/
def rowSOf (s : IVec S262144 32) : IVec S262144 32 :=
  let q : IVec S262144 32 := Host.divsi s modW
  select
    (andi (cmpi .ne (signi s) ((broadcastInDim S262144 ![] bcast_S_S262144 : IVec S_ 32 → IVec S262144 32) (signi (constantI S_ 32 8192#32))))
          (cmpi .ne (Host.remsi s modW) zerosW))
    (subi q ((broadcastInDim S262144 ![] bcast_S_S262144 : IVec S_ 32 → IVec S262144 32) (constantI S_ 32 1#32)))
    q

/-- The degree column: the flags, as numbers, summed into zeros at the (normalised) rows, plus one, as a column. -/
def degOf (f : IVec S262144 1) (r : IVec S262144 32) : FVec Ideal S8192x1 .f32 :=
  shapeCast S8192x1
    (addf
      (Host.scatterAdd scatter_S8192_S262144x1_S262144_n_0_0_1
        ((broadcastInDim S8192 ![] bcast_S_S8192 : FVec Ideal S_ .f32 → FVec Ideal S8192 .f32) (constant (F := Ideal) S_ .f32 0x00000000#32))
        ((broadcastInDim S262144x1 ![0] bcast_S262144_S262144x1_0 : IVec S262144 32 → IVec S262144x1 32) (normW r))
        (uitofp (F := Ideal) .f32 f))
      ((broadcastInDim S8192 ![] bcast_S_S8192 : FVec Ideal S_ .f32 → FVec Ideal S8192 .f32) (constant (F := Ideal) S_ .f32 0x3F800000#32)))
    shapeCasts_S8192_S8192x1

/-- The normalising column: the reciprocal square root of the degree where the degree is positive, zero elsewhere. -/
def dinvOf (d : FVec Ideal S8192x1 .f32) : FVec Ideal S8192x1 .f32 :=
  select
    (cmpf .ogt d ((broadcastInDim S8192x1 ![] bcast_S_S8192x1 : FVec Ideal S_ .f32 → FVec Ideal S8192x1 .f32) (constant (F := Ideal) S_ .f32 0x00000000#32)))
    (Host.rsqrt d)
    ((broadcastInDim S8192x1 ![] bcast_S_S8192x1 : FVec Ideal S_ .f32 → FVec Ideal S8192x1 .f32) (constant (F := Ideal) S_ .f32 0x00000000#32))

def firstW (e : Cert.Spec.Edges) : IVec S262144 1 := firstOf (sortedW e)
def rowSW (e : Cert.Spec.Edges) : IVec S262144 32 := rowSOf (sortedW e)
def degK (e : Cert.Spec.Edges) : FVec Ideal S8192x1 .f32 := degOf (firstW e) (rowSW e)
def dinvK (e : Cert.Spec.Edges) : FVec Ideal S8192x1 .f32 := dinvOf (degK e)

/-! ## The six stretches of host operations, each read at the buffers later stretches (or the region) read, from any
    contents W of the buffers before it -/

section Stretches
variable (W : Valuation τ sig (Elt Ideal))

set_option maxHeartbeats 1000000 in
theorem after0_v1 :
    StableHlo.after (hostOps0 (F := Ideal)) W (Proc.devRef .tc main_v1) = rowW (W (Proc.devRef .tc main_arg1)) := by
  dsimp only [hostOps0]
  after_results
  rfl

set_option maxHeartbeats 1000000 in
theorem after0_v3 :
    StableHlo.after (hostOps0 (F := Ideal)) W (Proc.devRef .tc main_v3) = colW (W (Proc.devRef .tc main_arg1)) := by
  dsimp only [hostOps0]
  after_results
  rfl

set_option maxHeartbeats 4000000 in
theorem after0_v19 :
    StableHlo.after (hostOps0 (F := Ideal)) W (Proc.devRef .tc main_v19) = adjK (W (Proc.devRef .tc main_arg1)) := by
  dsimp only [hostOps0]
  after_results
  rfl

set_option maxHeartbeats 4000000 in
theorem after0_v22 :
    StableHlo.after (hostOps0 (F := Ideal)) W (Proc.devRef .tc main_v22) = keyW (W (Proc.devRef .tc main_arg1)) := by
  dsimp only [hostOps0]
  after_results
  rfl

theorem after1_v23 :
    StableHlo.after (hostOps0_1 (F := Ideal)) W (Proc.devRef .tc main_v23)
      = Host.sort S262144 0 comparator_i32_d0 (W (Proc.devRef .tc main_v22)) := by
  dsimp only [hostOps0_1]
  after_results
  rfl

set_option maxHeartbeats 1000000 in
theorem after2_v28 :
    StableHlo.after (hostOps0_2 (F := Ideal)) W (Proc.devRef .tc main_v28) = firstOf (W (Proc.devRef .tc main_v23)) := by
  dsimp only [hostOps0_2]
  after_results
  rfl

set_option maxHeartbeats 1000000 in
theorem after2_c_6 :
    StableHlo.after (hostOps0_2 (F := Ideal)) W (Proc.devRef .tc main_c_6) = constantI S_ 32 8192#32 := by
  dsimp only [hostOps0_2]
  after_results

end Stretches

section Stretches2
variable (W : Valuation τ sig (Elt Ideal))

/-- The zero column the last two stretches compare against and fall back to. -/
def zeroCol : FVec Ideal S8192x1 .f32 :=
  (broadcastInDim S8192x1 ![] bcast_S_S8192x1 : FVec Ideal S_ .f32 → FVec Ideal S8192x1 .f32) (constant (F := Ideal) S_ .f32 0x00000000#32)

set_option maxHeartbeats 4000000 in
theorem after3_v29 (hc : W (Proc.devRef .tc main_c_6) = constantI S_ 32 8192#32) :
    StableHlo.after (hostOps0_3 (F := Ideal)) W (Proc.devRef .tc main_v29) = rowSOf (W (Proc.devRef .tc main_v23)) := by
  dsimp only [hostOps0_3]
  after_results
  rw [hc]
  rfl

set_option maxHeartbeats 4000000 in
theorem after4_v41 :
    StableHlo.after (hostOps0_4 (F := Ideal)) W (Proc.devRef .tc main_v41)
      = degOf (W (Proc.devRef .tc main_v28)) (W (Proc.devRef .tc main_v29)) := by
  dsimp only [hostOps0_4]
  after_results
  rfl

set_option maxHeartbeats 4000000 in
theorem after4_v43 :
    StableHlo.after (hostOps0_4 (F := Ideal)) W (Proc.devRef .tc main_v43)
      = cmpf .ogt (degOf (W (Proc.devRef .tc main_v28)) (W (Proc.devRef .tc main_v29))) zeroCol := by
  dsimp only [hostOps0_4]
  after_results
  rfl

set_option maxHeartbeats 4000000 in
theorem after4_v44 :
    StableHlo.after (hostOps0_4 (F := Ideal)) W (Proc.devRef .tc main_v44)
      = Host.rsqrt (degOf (W (Proc.devRef .tc main_v28)) (W (Proc.devRef .tc main_v29))) := by
  dsimp only [hostOps0_4]
  after_results
  rfl

set_option maxHeartbeats 1000000 in
theorem after4_cst_12 :
    StableHlo.after (hostOps0_4 (F := Ideal)) W (Proc.devRef .tc main_cst_12) = constant (F := Ideal) S_ .f32 0x00000000#32 := by
  dsimp only [hostOps0_4]
  after_results

set_option maxHeartbeats 1000000 in
theorem after5_v45 :
    StableHlo.after (hostOps0_5 (F := Ideal)) W (Proc.devRef .tc main_v45)
      = select (W (Proc.devRef .tc main_v43)) (W (Proc.devRef .tc main_v44))
          ((broadcastInDim S8192x1 ![] bcast_S_S8192x1 : FVec Ideal S_ .f32 → FVec Ideal S8192x1 .f32) (W (Proc.devRef .tc main_cst_12))) := by
  dsimp only [hostOps0_5]
  after_results
  rfl

end Stretches2

/-! ## The buffers the first region reads, at its entry -/

section Assembly
variable (m : (ℓ : Loc nD τ sig) → Buf (Elt Ideal) ℓ) (c : Dev nD)

/-- The edge list as launched. -/
abbrev edges : Cert.Spec.Edges := m ((c : Thread nD τ).loc main_arg1)

theorem V1_v22 : V1 (F := Ideal) m c main_v22 = keyW (edges m c) := after0_v22 (V0 m c)

theorem V2_v23 : V2 (F := Ideal) m c main_v23 = sortedW (edges m c) :=
  (after1_v23 (V1 m c)).trans (congrArg (Host.sort S262144 0 comparator_i32_d0) (V1_v22 m c))

theorem V3_v23 : V3 (F := Ideal) m c main_v23 = sortedW (edges m c) :=
  (V3_of m c main_v23 (by decide)).trans (V2_v23 m c)

theorem V3_v28 : V3 (F := Ideal) m c main_v28 = firstW (edges m c) :=
  (after2_v28 (V2 m c)).trans (congrArg firstOf (V2_v23 m c))

theorem V3_c_6 : V3 (F := Ideal) m c main_c_6 = constantI S_ 32 8192#32 := after2_c_6 (V2 m c)

theorem V4_v28 : V4 (F := Ideal) m c main_v28 = firstW (edges m c) :=
  (V4_of m c main_v28 (by decide)).trans (V3_v28 m c)

theorem V4_v29 : V4 (F := Ideal) m c main_v29 = rowSW (edges m c) :=
  (after3_v29 (V3 m c) (V3_c_6 m c)).trans (congrArg rowSOf (V3_v23 m c))

theorem V4_deg : degOf (V4 (F := Ideal) m c main_v28) (V4 (F := Ideal) m c main_v29) = degK (edges m c) :=
  congrArg₂ degOf (V4_v28 m c) (V4_v29 m c)

theorem V5_v43 : V5 (F := Ideal) m c main_v43 = cmpf .ogt (degK (edges m c)) zeroCol :=
  (after4_v43 (V4 m c)).trans (congrArg (fun d => cmpf .ogt d zeroCol) (V4_deg m c))

theorem V5_v44 : V5 (F := Ideal) m c main_v44 = Host.rsqrt (degK (edges m c)) :=
  (after4_v44 (V4 m c)).trans (congrArg Host.rsqrt (V4_deg m c))

theorem V5_cst_12 : V5 (F := Ideal) m c main_cst_12 = constant (F := Ideal) S_ .f32 0x00000000#32 := after4_cst_12 (V4 m c)

theorem V6_main_v19 : V6 (F := Ideal) m c main_v19 = adjK (m ((c : Thread nD τ).loc main_arg1)) :=
  (V6_of m c main_v19 (by decide)).trans <| (V5_of m c main_v19 (by decide)).trans <| (V4_of m c main_v19 (by decide)).trans <|
    (V3_of m c main_v19 (by decide)).trans <| (V2_of m c main_v19 (by decide)).trans <| after0_v19 (V0 m c)

theorem V6_main_v45 : V6 (F := Ideal) m c main_v45 = dinvK (m ((c : Thread nD τ).loc main_arg1)) := by
  refine (after5_v45 (V5 m c)).trans ?_
  rw [V5_v43 m c, V5_v44 m c, V5_cst_12 m c]
  rfl

end Assembly

end Cert.KernelIdeal.HostK

end
-- ==== Proof.AdjK.lean ====
import proofs.«429857_j22385369547440_3_alg».proof.Proof.HostK
import proofs.«429857_j22385369547440_3_alg».proof.Proof.Spec
import proofs.«429857_j22385369547440_3_alg».proof.Proof.Scatter
import Idealize.ShloMosaic.Lib.ValueIdx
import Idealize.ShloMosaic.Lib.StableHlo.Predicate
import Idealize.ShloMosaic.Lib.ValueLayout
import Idealize.ShloMosaic.Lib.Pipeline.Value
import Idealize.ShloMosaic.PureOps.Ideal.Laws

/-! The adjacency the host builds from the edge list, read at an entry, and the normalising column read at a row.

    The host writes ones into an 8192 × 8192 block of zeros at the listed (row, column) pairs; a word of the list that is
    negative would count from the end, but under the range hypothesis every word is a row or column number as it stands, so
    the entry at (i, r) is one exactly when some listed pair is (i, r). The normalising column is the reciprocal square
    root of the degree where the degree is positive, which it always is. -/

set_option maxRecDepth 16384

noncomputable section

namespace Cert.KernelIdeal.HostK

open Idealize.ShloMosaic Idealize.ShloMosaic.TcCoe Idealize.ShloMosaic.ValueIdx
open Cert.KernelIdeal Cert.KernelIdeal.Gen

/-! ## The words of the list -/

/-- The row words are row 0 of the list. -/
theorem rowW_apply (e : Cert.Spec.Edges) (k : Fin 262144) : rowW e (ix1 k) = e (ix2 0 k) := by
  unfold rowW
  refine (shapeCast_1a_a_apply _ _ k).trans ?_
  exact extractStridedSlice_apply _ _ _ _ (ix2 (0 : Fin 2) k) (fun a => by
    fin_cases a
    · rfl
    · exact (Nat.zero_add _).symm)

/-- The column words are row 1 of the list. -/
theorem colW_apply (e : Cert.Spec.Edges) (k : Fin 262144) : colW e (ix1 k) = e (ix2 1 k) := by
  unfold colW
  refine (shapeCast_1a_a_apply _ _ k).trans ?_
  exact extractStridedSlice_apply _ _ _ _ (ix2 (1 : Fin 2) k) (fun a => by
    fin_cases a
    · rfl
    · exact (Nat.zero_add _).symm)

theorem zerosW_apply (j : S262144.Idx) : zerosW j = 0#32 := by
  unfold zerosW
  exact broadcastInDim_apply _ _ _ j ix0 (fun a => a.elim0)

/-- A word that is not negative is kept as it stands. -/
theorem normW_apply_of_nonneg (w : IVec S262144 32) (j : S262144.Idx) (h : 0 ≤ (w j).toInt) : normW w j = w j := by
  unfold normW
  rw [select_apply]
  have hc : cmpi .slt w zerosW j = 0#1 := by
    show IntOp.cmpi .slt (w j) (zerosW j) = 0#1
    rw [zerosW_apply]
    show BitVec.ofBool (decide ((w j).toInt < (0#32 : BitVec 32).toInt)) = 0#1
    have h0 : (0#32 : BitVec 32).toInt = 0 := by decide
    rw [h0, decide_eq_false (not_lt.mpr h)]
    rfl
  rw [hc, select_zero]

/-- The index pair of list position `k`: its normalised row word, -/
theorem pairW_apply_0 (e : Cert.Spec.Edges) (k : Fin 262144) : pairW e (ix2 k 0) = normW (rowW e) (ix1 k) := by
  unfold pairW
  refine (concatenate_pair_apply_left (t := S262144x2) (s₁ := S262144x1) (s₂ := S262144x1) (1 : Fin 2) _ _ _ (ix2 k (0 : Fin 2)) rfl (ix2 k (0 : Fin 1)) (fun b => by fin_cases b <;> rfl)).trans ?_
  exact broadcastInDim_apply _ _ _ (ix2 k (0 : Fin 1)) (ix1 k) (fun a => by fin_cases a; exact (if_neg (by decide)).symm)

/-- and its normalised column word. -/
theorem pairW_apply_1 (e : Cert.Spec.Edges) (k : Fin 262144) : pairW e (ix2 k 1) = normW (colW e) (ix1 k) := by
  unfold pairW
  refine (concatenate_pair_apply_right (t := S262144x2) (s₁ := S262144x1) (s₂ := S262144x1) (1 : Fin 2) _ _ _ (ix2 k (1 : Fin 2)) rfl rfl (ix2 k (0 : Fin 1)) (fun b hb => ?_) rfl).trans ?_
  · fin_cases b
    · rfl
    · exact absurd rfl hb
  exact broadcastInDim_apply _ _ _ (ix2 k (0 : Fin 1)) (ix1 k) (fun a => by fin_cases a; exact (if_neg (by decide)).symm)

/-! ## The adjacency at an entry -/

theorem bf16_zero : Ideal.ofBits .bf16 0x0000#16 = 0 := by simp [Ideal.ofBits, Ideal.ieee]
theorem bf16_one : Ideal.ofBits .bf16 0x3F80#16 = 1 := by simp [Ideal.ofBits, Ideal.ieee, -EReal.coe_mul]; norm_num

/-- The entry at (i, r) is one exactly when some listed pair is (i, r). -/
theorem adjK_apply (e : Cert.Spec.Edges) (h : Cert.Spec.InRange e) (i r : Fin 8192) : adjK e (ix2 i r) = Cert.Spec.adj e i r := by
  have hz : ((broadcastInDim S8192x8192 ![] bcast_S_S8192x8192 : FVec Ideal S_ .bf16 → FVec Ideal S8192x8192 .bf16) (constant (F := Ideal) S_ .bf16 0x0000#16))
      = fun _ => (0 : Ideal .bf16) :=
    funext fun j => (broadcastInDim_apply _ _ _ j ix0 (fun a => a.elim0)).trans bf16_zero
  have ho : ((broadcastInDim S262144 ![] bcast_S_S262144 : FVec Ideal S_ .bf16 → FVec Ideal S262144 .bf16) (constant (F := Ideal) S_ .bf16 0x3F80#16))
      = fun _ => (1 : Ideal .bf16) :=
    funext fun j => (broadcastInDim_apply _ _ _ j ix0 (fun a => a.elim0)).trans bf16_one
  have hp0 : ∀ k : Fin 262144, pairW e (ix2 k 0) = e (ix2 0 k) := fun k => by
    rw [pairW_apply_0, normW_apply_of_nonneg _ _ (by rw [rowW_apply]; exact (h 0 k).1), rowW_apply]
  have hp1 : ∀ k : Fin 262144, pairW e (ix2 k 1) = e (ix2 1 k) := fun k => by
    rw [pairW_apply_1, normW_apply_of_nonneg _ _ (by rw [colW_apply]; exact (h 1 k).1), colW_apply]
  unfold adjK
  rw [hz, ho]
  refine (Cert.Scatter.scatter_pair_const _ rfl rfl rfl rfl (0 : Ideal .bf16) 1 (pairW e) i r).trans ?_
  simp only [hp0, hp1]
  unfold Cert.Spec.adj Cert.Spec.IsEdge
  by_cases hE : ∃ k : Fin 262144, (e (ix2 0 k)).toInt = (i.val : ℤ) ∧ (e (ix2 1 k)).toInt = (r.val : ℤ)
  · rw [if_pos hE, if_pos hE]
  · rw [if_neg hE, if_neg hE]

/-! ## The normalising column at a row -/

/-- Where a degree is positive the comparison with zero holds and the selection takes the reciprocal square root. -/
theorem dinvOf_apply_of_pos (d : FVec Ideal S8192x1 .f32) (j : S8192x1.Idx) (h : (0 : EReal) < d j) :
    dinvOf d j = Ideal.rsqrt (d j) := by
  have hZ : ((broadcastInDim S8192x1 ![] bcast_S_S8192x1 : FVec Ideal S_ .f32 → FVec Ideal S8192x1 .f32) (constant (F := Ideal) S_ .f32 0x00000000#32)) j
      = (0 : EReal) :=
    (broadcastInDim_apply _ _ _ j ix0 (fun a => a.elim0)).trans Ideal.ofBits_zero_f32
  unfold dinvOf
  rw [select_apply, cmpf_apply, hZ]
  have hc : FloatOps.cmpf (F := Ideal) (φ := .f32) .ogt (d j) (0 : EReal) = 1#1 := by
    show BitVec.ofBool (decide ((0 : EReal) < d j)) = 1#1
    rw [decide_eq_true h]
    rfl
  rw [hc, select_one]
  rfl

/-- Where the degree column holds the degree, the normalising column holds its reciprocal square root: the degree is
    positive. -/
theorem dinvK_of_deg (e : Cert.Spec.Edges) (i : Fin 8192) (hd : degK e (ix2 i 0) = Cert.Spec.deg e i) :
    dinvK e (ix2 i 0) = Cert.Spec.dinv e i := by
  unfold dinvK
  rw [dinvOf_apply_of_pos _ _ (by rw [hd]; exact Cert.Spec.deg_pos e i), hd]
  rfl

end Cert.KernelIdeal.HostK

end
-- ==== Proof.DegK.lean ====
/-
  The kernel program's degree column. The program sorts the keys row * 8192 + column of the listed pairs, flags
  the first occurrence of every key among the sorted keys, recovers each sorted key's row as the key divided by 8192,
  and adds the flags up per row into zeros, plus one. Sorting reads the keys through a bijection of the positions and
  leaves them ascending; in an ascending list the first occurrences with quotient i are as many as the distinct
  columns listed with row i; so the degree column at row i is the number of distinct neighbours of i, plus one.
-/
import proofs.«429857_j22385369547440_3_alg».proof.Proof.HostK
import proofs.«429857_j22385369547440_3_alg».proof.Proof.Spec
import proofs.«429857_j22385369547440_3_alg».proof.Proof.Count
import proofs.«429857_j22385369547440_3_alg».proof.Proof.Scatter
import Idealize.ShloMosaic.Lib.SortFacts
import Idealize.ShloMosaic.Lib.ValueIdx
import Idealize.ShloMosaic.Lib.StableHlo.Predicate
import Idealize.ShloMosaic.Lib.Affine
import Idealize.ShloMosaic.Lib.Pipeline.Value
import Idealize.ShloMosaic.PureOps.Ideal.Laws

set_option maxRecDepth 16384

noncomputable section

namespace Cert.KernelIdeal.DegK

open Idealize.ShloMosaic Idealize.ShloMosaic.ValueIdx
open Cert.KernelIdeal Cert.KernelIdeal.Gen Cert.KernelIdeal.HostK

/-! ## Words -/

/-- A word in [0, 8192) read signed is below 8192 read unsigned, and the two readings agree. -/
theorem small_of_range (w : BitVec 32) (h : 0 ≤ w.toInt ∧ w.toInt < 8192) :
    w.toNat < 8192 ∧ w.toInt = (w.toNat : ℤ) := by
  have hc := BitVec.toInt_eq_toNat_cond w
  have hl := w.isLt
  by_cases h2 : 2 * w.toNat < 2 ^ 32
  · rw [if_pos h2] at hc; omega
  · rw [if_neg h2] at hc; omega

/-- The key word row * 8192 + column of two words below 8192 does not wrap. -/
theorem key_toNat (a b : BitVec 32) (ha : a.toNat < 8192) (hb : b.toNat < 8192) :
    (IntOp.addi (IntOp.muli a 8192#32) b).toNat = a.toNat * 8192 + b.toNat := by
  unfold IntOp.addi IntOp.muli
  rw [BitVec.toNat_add, BitVec.toNat_mul]
  have e : (8192#32 : BitVec 32).toNat = 8192 := rfl
  rw [e]; omega

/-- A word below 2³¹ divided by 8192, signed, on the host: the quotient of the values. -/
theorem divsi_8192 (w : BitVec 32) (hw : w.toNat < 2 ^ 31) : (IntOp.divsi .host w 8192#32).toNat = w.toNat / 8192 := by
  have hcorner : ¬ IntOp.SDivCorner w 8192#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (8192#32 : BitVec 32).msb = false from by decide,
    BitVec.udiv_eq, BitVec.toNat_udiv, BitVec.toNat_ofNat]

/-- The sign word: 0 at zero, -1 below, 1 above. -/
def sgn (w : BitVec 32) : BitVec 32 := if w = 0 then 0 else if w.msb then -1 else 1

/-- The rounding-down correction does not fire on a word below 2³¹ divided by 8192: either the word is zero and so
    is its remainder, or its sign is that of 8192. -/
theorem floor_fix (w : BitVec 32) (hw : w.toNat < 2 ^ 31) (a b : BitVec 32) :
    Scalar.select (IntOp.andi (IntOp.cmpi .ne (sgn w) (sgn 8192#32)) (IntOp.cmpi .ne (IntOp.remsi .host w 8192#32) 0#32)) a b = b := by
  have hm : w.msb = false := BitVec.msb_eq_false_iff_two_mul_lt.mpr (by omega)
  have hc : IntOp.andi (IntOp.cmpi .ne (sgn w) (sgn 8192#32)) (IntOp.cmpi .ne (IntOp.remsi .host w 8192#32) 0#32) ≠ 1#1 := by
    rw [Ne, IntOp.andi_eq_one, IntOp.cmpi_ne, IntOp.cmpi_ne]
    rintro ⟨h1, h2⟩
    by_cases h0 : w = 0
    · subst h0
      exact h2 (by decide)
    · apply h1
      have e8 : sgn 8192#32 = 1 := by decide
      rw [e8]
      unfold sgn
      rw [if_neg h0, hm]
      rfl
  unfold Scalar.select
  exact if_neg hc

/-- A word below 2³¹ is not negative: counting from the end leaves it alone. -/
theorem norm_word (w : BitVec 32) (hw : w.toNat < 2 ^ 31) (a : BitVec 32) :
    Scalar.select (IntOp.cmpi .slt w 0#32) a w = w := by
  have hc : IntOp.cmpi .slt w 0#32 ≠ 1#1 := by
    rw [Ne, IntOp.cmpi_slt, StableHlo.Predicate.toInt_eq_toNat_of_lt hw]
    have e0 : (0#32 : BitVec 32).toInt = 0 := by decide
    rw [e0]; omega
  unfold Scalar.select
  exact if_neg hc

/-- A one-bit flag as a number: one where it is set, zero elsewhere. -/
theorem uitofp_bit (b : BitVec 1) (p : Prop) [Decidable p] (h : b = 1#1 ↔ p) :
    (FloatOps.uitofp .f32 b : Ideal .f32) = if p then (1 : EReal) else 0 := by
  show ((b.toNat : ℝ) : EReal) = _
  by_cases hp : p
  · rw [if_pos hp, h.2 hp]; simp
  · rw [if_neg hp]
    have hb : b = 0#1 := eq_zero_of_ne_one (fun hb => hp (h.1 hb))
    rw [hb]; simp

/-! ## The sort -/

/-- The rank-1 index at a coordinate, in its two spellings. -/
theorem ofFin_eq_ix1 {n : ℕ} (k : Fin n) : Shape.Idx.ofFin k = ix1 k := by
  funext d; match d with | ⟨0, _⟩ => rfl

/-- Sorting a vector of words below 2³¹ by the signed "less than" reads it through a bijection of the positions, and the
    values read are in ascending order. -/
theorem sort_perm {n : ℕ} (x : IVec ⟨1, ![n]⟩ 32) (cmp : BitVec 32 → BitVec 32 → BitVec 1)
    (hcmp : ∀ l r, cmp l r = IntOp.cmpi .slt l r) (hx : ∀ k : Fin n, (x (ix1 k)).toNat < 2 ^ 31) :
    ∃ σ : Fin n → Fin n, Function.Bijective σ ∧ (∀ k, Host.sort ⟨1, ![n]⟩ 0 cmp x (ix1 k) = x (ix1 (σ k))) ∧
      ∀ i j : Fin n, i < j → (x (ix1 (σ i))).toNat ≤ (x (ix1 (σ j))).toNat := by
  have hB : ∀ a b : Fin n, (cmp (x (Shape.Idx.ofFin a)) (x (Shape.Idx.ofFin b)) == 1#1) = true ↔
      (x (ix1 a)).toNat < (x (ix1 b)).toNat := by
    intro a b
    rw [beq_iff_eq, hcmp, IntOp.cmpi_slt, ofFin_eq_ix1, ofFin_eq_ix1,
      StableHlo.Predicate.toInt_eq_toNat_of_lt (hx a), StableHlo.Predicate.toInt_eq_toNat_of_lt (hx b)]
    omega
  have hBf : ∀ a b : Fin n, (cmp (x (Shape.Idx.ofFin a)) (x (Shape.Idx.ofFin b)) == 1#1) = false ↔
      (x (ix1 b)).toNat ≤ (x (ix1 a)).toNat := by
    intro a b
    rw [← Bool.not_eq_true, hB]; omega
  refine ⟨sortedFrom (fun k k' => cmp (x (Shape.Idx.ofFin k)) (x (Shape.Idx.ofFin k')) == 1#1),
    ⟨sortedFrom_injective _, sortedFrom_surjective _⟩, fun k => ?_, fun i j hij => ?_⟩
  · rw [Host.sort_rank1, ofFin_eq_ix1]
    rfl
  · have h := sortedFrom_noInversion (fun k k' => cmp (x (Shape.Idx.ofFin k)) (x (Shape.Idx.ofFin k')) == 1#1)
      (fun k k' => cmp (x (Shape.Idx.ofFin k)) (x (Shape.Idx.ofFin k')) == 1#1)
      (fun a b hab => by rw [hBf]; rw [hB] at hab; omega)
      (fun a b hab => hab)
      (fun a b c hab hbc => by rw [hBf] at *; omega) i j hij
    exact (hBf _ _).1 h

/-! ## Shape operations read at an index -/

section Reads
variable {α : Type}

/-- Row a of a [2, n] array taken out as a vector reads, at k, the array at (a, k). -/
theorem row_apply {n : ℕ} (a : Fin 2) (off : Fin 2 → ℕ) (h0 : off 0 = a.val) (h1 : off 1 = 0)
    (e : (⟨2, ![2, n]⟩ : Shape).Idx → α)
    (hs : (⟨2, ![2, n]⟩ : Shape).Slices off ⟨2, ![1, n]⟩) (hc : (⟨2, ![1, n]⟩ : Shape).ShapeCasts ⟨1, ![n]⟩) (k : Fin n) :
    shapeCast ⟨1, ![n]⟩ (extractStridedSlice ⟨2, ![1, n]⟩ off e hs) hc (ix1 k) = e (ix2 a k) := by
  refine (shapeCast_apply _ hc (ix1 k) (ix2 (0 : Fin 1) k) ?_).trans ?_
  · rw [Shape.rowMajor_val_two, Shape.rowMajor_val_one]
    show (0 : ℕ) * n + k.val = k.val
    omega
  · refine extractStridedSlice_apply off e hs (ix2 (0 : Fin 1) k) (ix2 a k) ?_
    intro b
    match b with
    | ⟨0, _⟩ => show a.val = off 0 + 0; omega
    | ⟨1, _⟩ => show k.val = off 1 + k.val; omega

/-- A vector kept as an [n, 1] column reads, at (k, 0), the vector at k. -/
theorem col_apply {n : ℕ} (h : (⟨1, ![n]⟩ : Shape).BroadcastsInDim ⟨2, ![n, 1]⟩ ![0])
    (x : (⟨1, ![n]⟩ : Shape).Idx → α) (k : Fin n) :
    broadcastInDim ⟨2, ![n, 1]⟩ ![0] h x (ix2 k 0) = x (ix1 k) := by
  refine broadcastInDim_apply ![0] h x (ix2 k 0) (ix1 k) ?_
  intro a
  match a with
  | ⟨0, _⟩ =>
    show k.val = if n = 1 then 0 else k.val
    have := k.isLt
    split <;> omega

/-- A vector reshaped to an [n, 1] column reads, at (i, 0), the vector at i. -/
theorem cast_col_apply {n : ℕ} (h : (⟨1, ![n]⟩ : Shape).ShapeCasts ⟨2, ![n, 1]⟩)
    (x : (⟨1, ![n]⟩ : Shape).Idx → α) (i : Fin n) :
    shapeCast ⟨2, ![n, 1]⟩ x h (ix2 i 0) = x (ix1 i) := by
  refine shapeCast_apply x h (ix2 i 0) (ix1 i) ?_
  rw [Shape.rowMajor_val_two, Shape.rowMajor_val_one]
  show i.val = i.val * 1 + 0
  omega

end Reads

/-- The flags of first occurrences read at k: set at the first place, and elsewhere exactly where the entry differs
    from the one before it. -/
theorem firstFlag_apply {m n : ℕ} (hn : n = m + 1) (s : IVec ⟨1, ![n]⟩ 32)
    (hb : (⟨0, ![]⟩ : Shape).BroadcastsInDim ⟨1, ![1]⟩ ![])
    (h1 : (⟨1, ![n]⟩ : Shape).Slices ![1] ⟨1, ![m]⟩) (h0 : (⟨1, ![n]⟩ : Shape).Slices ![0] ⟨1, ![m]⟩)
    (hc : Shape.Concatenates [⟨1, ![1]⟩, ⟨1, ![m]⟩] ⟨1, ![n]⟩ 0) (k : Fin n) :
    concatenate ⟨1, ![n]⟩ 0
        [⟨⟨1, ![1]⟩, (broadcastInDim ⟨1, ![1]⟩ ![] hb : IVec ⟨0, ![]⟩ 1 → IVec ⟨1, ![1]⟩ 1) (constantI ⟨0, ![]⟩ 1 1#1)⟩,
         ⟨⟨1, ![m]⟩, cmpi .ne (extractStridedSlice ⟨1, ![m]⟩ ![1] s h1) (extractStridedSlice ⟨1, ![m]⟩ ![0] s h0)⟩] hc (ix1 k)
      = if h : k.val = 0 then 1#1 else IntOp.cmpi .ne (s (ix1 k)) (s (ix1 ⟨k.val - 1, by omega⟩)) := by
  by_cases hk : k.val = 0
  · rw [dif_pos hk]
    refine (concatenate_pair_apply_left (t := ⟨1, ![n]⟩) (s₁ := ⟨1, ![1]⟩) (s₂ := ⟨1, ![m]⟩) (0 : Fin 1) _ _ hc (ix1 k) rfl (ix1 (0 : Fin 1)) ?_).trans rfl
    intro b
    match b with
    | ⟨0, _⟩ => show (0 : ℕ) = k.val; omega
  · rw [dif_neg hk]
    have hk1 : k.val - 1 < m := by have := k.isLt; omega
    refine (concatenate_pair_apply_right (t := ⟨1, ![n]⟩) (s₁ := ⟨1, ![1]⟩) (s₂ := ⟨1, ![m]⟩) (0 : Fin 1) _ _ hc (ix1 k) rfl rfl (ix1 (⟨k.val - 1, hk1⟩ : Fin m)) ?_ ?_).trans ?_
    · intro b hb'
      match b with
      | ⟨0, _⟩ => exact absurd rfl hb'
    · show (k.val - 1) + 1 = k.val
      omega
    · show IntOp.cmpi .ne (extractStridedSlice ⟨1, ![m]⟩ ![1] s h1 (ix1 ⟨k.val - 1, hk1⟩))
          (extractStridedSlice ⟨1, ![m]⟩ ![0] s h0 (ix1 ⟨k.val - 1, hk1⟩)) = _
      rw [extractStridedSlice_apply ![1] s h1 (ix1 ⟨k.val - 1, hk1⟩) (ix1 k) (by
            intro a
            match a with
            | ⟨0, _⟩ => show k.val = 1 + (k.val - 1); omega),
          extractStridedSlice_apply ![0] s h0 (ix1 ⟨k.val - 1, hk1⟩) (ix1 ⟨k.val - 1, by omega⟩) (by
            intro a
            match a with
            | ⟨0, _⟩ => show k.val - 1 = 0 + (k.val - 1); omega)]

/-! ## The stages of the program read at an index -/

/-- The pattern of 1.0 is one, and the pattern of +0.0 is zero. -/
theorem one_pattern : (Ideal.ofBits .f32 0x3F800000#32 : EReal) = 1 := by
  simp [Ideal.ofBits, Ideal.ieee]
  rw [← EReal.coe_mul]
  norm_num
theorem zero_pattern : (Ideal.ofBits .f32 0x00000000#32 : EReal) = 0 := by
  simp [Ideal.ofBits, Ideal.ieee]

/-- The row and the column of the k-th listed pair, as numbers. -/
def rowN (e : Cert.Spec.Edges) (k : Fin 262144) : ℕ := (e (ix2 0 k)).toNat
def colN (e : Cert.Spec.Edges) (k : Fin 262144) : ℕ := (e (ix2 1 k)).toNat

theorem rowN_lt (e : Cert.Spec.Edges) (h : Cert.Spec.InRange e) (k : Fin 262144) : rowN e k < 8192 :=
  (small_of_range _ (h 0 k)).1
theorem colN_lt (e : Cert.Spec.Edges) (h : Cert.Spec.InRange e) (k : Fin 262144) : colN e k < 8192 :=
  (small_of_range _ (h 1 k)).1

theorem rowW_apply (e : Cert.Spec.Edges) (k : Fin 262144) : rowW e (ix1 k) = e (ix2 0 k) :=
  row_apply 0 ![0, 0] rfl rfl e _ _ k
theorem colW_apply (e : Cert.Spec.Edges) (k : Fin 262144) : colW e (ix1 k) = e (ix2 1 k) :=
  row_apply 1 ![1, 0] rfl rfl e _ _ k

/-- The key word of the k-th pair is row * 8192 + column. -/
theorem keyW_toNat (e : Cert.Spec.Edges) (h : Cert.Spec.InRange e) (k : Fin 262144) :
    (keyW e (ix1 k)).toNat = rowN e k * 8192 + colN e k := by
  show (IntOp.addi (IntOp.muli (rowW e (ix1 k)) 8192#32) (colW e (ix1 k))).toNat = _
  rw [rowW_apply, colW_apply]
  exact key_toNat _ _ (rowN_lt e h k) (colN_lt e h k)

theorem keyW_lt (e : Cert.Spec.Edges) (h : Cert.Spec.InRange e) (k : Fin 262144) : (keyW e (ix1 k)).toNat < 2 ^ 31 := by
  rw [keyW_toNat e h k]
  have := rowN_lt e h k
  have := colN_lt e h k
  omega

/-- The row word of a sorted key, as the scatter reads it: the key divided by 8192. -/
theorem idx_toInt (S : IVec S262144 32) (hS : ∀ k : Fin 262144, (S (ix1 k)).toNat < 2 ^ 31) (k : Fin 262144) :
    ((broadcastInDim S262144x1 ![0] bcast_S262144_S262144x1_0 : IVec S262144 32 → IVec S262144x1 32) (normW (rowSOf S)) (ix2 k 0)).toInt
      = (((S (ix1 k)).toNat / 8192 : ℕ) : ℤ) := by
  rw [col_apply]
  have hq : rowSOf S (ix1 k) = IntOp.divsi .host (S (ix1 k)) 8192#32 := floor_fix (S (ix1 k)) (hS k) _ _
  have hqn := divsi_8192 (S (ix1 k)) (hS k)
  have hlt : (rowSOf S (ix1 k)).toNat < 2 ^ 31 := by
    rw [hq, hqn]
    have := hS k
    omega
  have hn : normW (rowSOf S) (ix1 k) = rowSOf S (ix1 k) := norm_word _ hlt _
  rw [hn, StableHlo.Predicate.toInt_eq_toNat_of_lt hlt, hq, hqn]

/-- The flag of a sorted key, as a number: one at a first occurrence, zero elsewhere. -/
theorem flag_apply (S : IVec S262144 32) (k : Fin 262144) :
    uitofp (F := Ideal) .f32 (firstOf S) (ix1 k)
      = if Cert.Count.isFirst (fun k : Fin 262144 => (S (ix1 k)).toNat) k then (1 : EReal) else 0 := by
  show (FloatOps.uitofp .f32 (firstOf S (ix1 k)) : Ideal .f32) = _
  refine uitofp_bit _ _ ?_
  have hf : firstOf S (ix1 k) = if h : k.val = 0 then 1#1 else IntOp.cmpi .ne (S (ix1 k)) (S (ix1 ⟨k.val - 1, by omega⟩)) :=
    firstFlag_apply (m := 262143) (n := 262144) rfl S _ _ _ _ k
  rw [hf]
  by_cases hk : k.val = 0
  · rw [dif_pos hk]
    exact ⟨fun _ => Or.inl hk, fun _ => rfl⟩
  · rw [dif_neg hk, IntOp.cmpi_ne]
    constructor
    · intro hne
      exact Or.inr ⟨Nat.pos_of_ne_zero hk, fun heq => hne (BitVec.eq_of_toNat_eq heq)⟩
    · rintro (h0 | ⟨_, hne⟩)
      · exact absurd h0 hk
      · exact fun hab => hne (congrArg BitVec.toNat hab)

/-- The degree column over any sequence of words below 2³¹, at row i: the flags of first occurrences summed over the
    places whose word divided by 8192 is i, plus one. -/
theorem degOf_apply (S : IVec S262144 32) (hS : ∀ k : Fin 262144, (S (ix1 k)).toNat < 2 ^ 31) (i : Fin 8192) :
    degOf (firstOf S) (rowSOf S) (ix2 i 0)
      = ((0 : EReal) + ∑ k ∈ Finset.univ.filter (fun k : Fin 262144 => (S (ix1 k)).toNat / 8192 = i.val),
          (if Cert.Count.isFirst (fun k : Fin 262144 => (S (ix1 k)).toNat) k then (1 : EReal) else 0)) + 1 := by
  unfold degOf
  refine (cast_col_apply _ _ i).trans ?_
  rw [addf_apply, Cert.Scatter.scatterAdd_single _ rfl rfl rfl rfl]
  have e1 : ((broadcastInDim S8192 ![] bcast_S_S8192 : FVec Ideal S_ .f32 → FVec Ideal S8192 .f32)
      (constant (F := Ideal) S_ .f32 0x3F800000#32)) (ix1 i) = 1 := one_pattern
  have e0 : ((broadcastInDim S8192 ![] bcast_S_S8192 : FVec Ideal S_ .f32 → FVec Ideal S8192 .f32)
      (constant (F := Ideal) S_ .f32 0x00000000#32)) (ix1 i) = 0 := zero_pattern
  rw [e1, e0]
  refine congrArg (fun t : EReal => (0 + t) + 1) ?_
  refine Finset.sum_congr (Finset.filter_congr fun k _ => ?_) fun k _ => flag_apply S k
  rw [idx_toInt S hS k]
  exact Int.natCast_inj

/-! ## The degree -/

/-- Under the range precondition a pair is listed exactly when its row and column numbers are. -/
theorem isEdge_iff (e : Cert.Spec.Edges) (h : Cert.Spec.InRange e) (i r : Fin 8192) :
    Cert.Spec.IsEdge e i r ↔ ∃ k, rowN e k = i.val ∧ colN e k = r.val := by
  unfold Cert.Spec.IsEdge rowN colN
  refine exists_congr fun k => ?_
  rw [(small_of_range _ (h 0 k)).2, (small_of_range _ (h 1 k)).2, Int.natCast_inj, Int.natCast_inj]

/-- THE KERNEL PROGRAM'S DEGREE at row i is the number of distinct neighbours of i, plus one. -/
theorem degK_apply (e : Cert.Spec.Edges) (h : Cert.Spec.InRange e) (i : Fin 8192) :
    Cert.KernelIdeal.HostK.degK e (ix2 i 0) = Cert.Spec.deg e i := by
  obtain ⟨σ, hσ, hsort, hmono⟩ := sort_perm (keyW e) comparator_i32_d0 (fun _ _ => rfl) (keyW_lt e h)
  have hs : ∀ k : Fin 262144, (sortedW e (ix1 k)).toNat = rowN e (σ k) * 8192 + colN e (σ k) := fun k => by
    show (Host.sort S262144 0 comparator_i32_d0 (keyW e) (ix1 k)).toNat = _
    rw [hsort k, keyW_toNat e h]
  have hS : ∀ k : Fin 262144, (sortedW e (ix1 k)).toNat < 2 ^ 31 := fun k => by
    rw [hs k]
    have := rowN_lt e h (σ k)
    have := colN_lt e h (σ k)
    omega
  have hm : ∀ a b : Fin 262144, a < b → (sortedW e (ix1 a)).toNat ≤ (sortedW e (ix1 b)).toNat := fun a b hab => by
    show (Host.sort S262144 0 comparator_i32_d0 (keyW e) (ix1 a)).toNat ≤ (Host.sort S262144 0 comparator_i32_d0 (keyW e) (ix1 b)).toNat
    rw [hsort a, hsort b]
    exact hmono a b hab
  show degOf (firstOf (sortedW e)) (rowSOf (sortedW e)) (ix2 i 0) = _
  rw [degOf_apply (sortedW e) hS i,
    Cert.Count.firsts_plus_one (N := 8192) (by omega) (rowN e) (colN e) (rowN_lt e h) (colN_lt e h)
      (fun k : Fin 262144 => (sortedW e (ix1 k)).toNat) σ hσ hs hm i]
  unfold Cert.Spec.deg Cert.Spec.cnt
  refine congrArg (fun t : Finset (Fin 8192) => ((t.card + 1 : ℕ) : EReal)) ?_
  ext r
  simp only [Finset.mem_filter, Finset.mem_univ, true_and]
  exact (isEdge_iff e h i r).symm

end Cert.KernelIdeal.DegK

end
-- ==== Proof.Bridge.lean ====
/-
  The kernel program's result, entry by entry, over the extended reals. Under the precondition's range fact (every edge
  number is a row or column number of the adjacency) the result array the second region leaves holds at (i, j)

      (d_i · Σ_k Σ_l A_i,(k,l) · (d_(k,l) · S_(k,l),j) + (d_i · d_i) · S_i,j) + b_j,

  where S = x·w is the support, A the 0/1 adjacency of the edge list, d the factor 1/√(neighbours + 1) and the row index
  8192 is cut into 16 blocks of 512: the second region's write-backs are read in terms of the arrays it finds, and each of
  those is what the first region wrote (the support and its row-scaled copy), what a host stage computed (the adjacency,
  the factor column) or an argument (the bias, reshaped to a row).
-/
import proofs.«429857_j22385369547440_3_alg».proof.Proof.Run
import proofs.«429857_j22385369547440_3_alg».proof.Proof.ValR0
import proofs.«429857_j22385369547440_3_alg».proof.Proof.ValR1
import proofs.«429857_j22385369547440_3_alg».proof.Proof.HostK
import proofs.«429857_j22385369547440_3_alg».proof.Proof.AdjK
import proofs.«429857_j22385369547440_3_alg».proof.Proof.DegK
import proofs.«429857_j22385369547440_3_alg».proof.Proof.Algebra
import proofs.«429857_j22385369547440_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.Bridge

open Cert.KernelIdeal Cert.KernelIdeal.Gen Idealize.ShloMosaic Idealize.ShloMosaic.ValueIdx Idealize.ShloMosaic.TcCoe Idealize.SL.Sem
open Cert.Spec Cert.Algebra Cert.KernelIdeal.ValR1

/-- The support S = x·w at (r, j). -/
def supp (x : FVec Ideal ⟨2, ![8192, 512]⟩ .f32) (w : FVec Ideal ⟨2, ![512, 512]⟩ .f32) (r : Fin 8192) (j : Fin 512) : EReal :=
  ∑ q : Fin 512, x (ix2 r q) * w (ix2 q j)

/-- A support entry of real inputs is real: a finite sum of products of reals. -/
theorem supp_real (x : FVec Ideal ⟨2, ![8192, 512]⟩ .f32) (w : FVec Ideal ⟨2, ![512, 512]⟩ .f32)
    (hx : ∀ i, ∃ t : ℝ, x i = (t : EReal)) (hw : ∀ i, ∃ t : ℝ, w i = (t : EReal)) (r : Fin 8192) (j : Fin 512) :
    ∃ t : ℝ, supp x w r j = (t : EReal) := by
  choose xr hxr using hx
  choose wr hwr using hw
  refine ⟨∑ q : Fin 512, xr (ix2 r q) * wr (ix2 q j), ?_⟩
  unfold supp
  rw [Cert.Algebra.coe_sum]
  refine Finset.sum_congr rfl fun q _ => ?_
  rw [hxr, hwr, EReal.coe_mul]

variable (m : (ℓ : Loc nD τ sig) → Buf (Elt Ideal) ℓ)

/-- The arguments as the launch memory holds them on core `c`. -/
abbrev eK (c : Dev nD) : Cert.Spec.Edges := m ((c : Thread nD τ).loc main_arg1)
abbrev xK (c : Dev nD) : FVec Ideal ⟨2, ![8192, 512]⟩ .f32 := m ((c : Thread nD τ).loc main_arg0)
abbrev wK (c : Dev nD) : FVec Ideal ⟨2, ![512, 512]⟩ .f32 := m ((c : Thread nD τ).loc main_arg2)
abbrev bK (c : Dev nD) : FVec Ideal ⟨1, ![512]⟩ .f32 := m ((c : Thread nD τ).loc main_arg3)

/-- The factor column the first region finds is 1/√(neighbours + 1). -/
theorem d_entry6 (c : Dev nD) (h : InRange (eK m c)) (r : Fin 8192) :
    Cert.KernelIdeal.ValR0.darr (E6 m) c (ix2 r 0) = dinv (eK m c) r := by
  show (V6 m c main_v45 : Vec Ideal S8192x1 .f32) (ix2 r 0) = _
  rw [Cert.KernelIdeal.HostK.V6_main_v45]
  exact Cert.KernelIdeal.HostK.dinvK_of_deg _ r (Cert.KernelIdeal.DegK.degK_apply _ h r)

/-- The second region finds the same column: nothing in between writes it. -/
theorem d_entry (c : Dev nD) (h : InRange (eK m c)) (r : Fin 8192) : dArr (E8 m) c (ix2 r 0) = dinv (eK m c) r := by
  show (E8 m c main_v45 : Vec Ideal S8192x1 .f32) (ix2 r 0) = _
  rw [E8_main_v45]
  exact d_entry6 m c h r

/-- The support array the second region finds is what the first region wrote: x·w. -/
theorem supp_entry (c : Dev nD) (r : Fin 8192) (j : Fin 512) : suppArr (E8 m) c (ix2 r j) = supp (xK m c) (wK m c) r j := by
  show (E8 m c main_v46_0 : Vec Ideal S8192x512 .f32) (ix2 r j) = _
  rw [E8_main_v46_0]
  refine (Cert.KernelIdeal.ValR0.supp_val (E6 m) c r j).trans ?_
  have hx : Cert.KernelIdeal.ValR0.xarr (E6 m) c = xK m c := V6_main_arg0 m c
  have hw : Cert.KernelIdeal.ValR0.warr (E6 m) c = wK m c := V6_main_arg2 m c
  rw [hx, hw]
  rfl

/-- The scaled support array is the first region's second output: d ⊙ (x·w). -/
theorem scaled_entry (c : Dev nD) (h : InRange (eK m c)) (r : Fin 8192) (j : Fin 512) :
    scaledArr (E8 m) c (ix2 r j) = dinv (eK m c) r * supp (xK m c) (wK m c) r j := by
  show (E8 m c main_v46_1 : Vec Ideal S8192x512 .bf16) (ix2 r j) = _
  rw [E8_main_v46_1]
  refine (Cert.KernelIdeal.ValR0.sscaled_val (E6 m) c r j).trans ?_
  rw [d_entry6 m c h r]
  have hx : Cert.KernelIdeal.ValR0.xarr (E6 m) c = xK m c := V6_main_arg0 m c
  have hw : Cert.KernelIdeal.ValR0.warr (E6 m) c = wK m c := V6_main_arg2 m c
  rw [hx, hw]
  rfl

/-- The adjacency the second region finds is the host's scatter of ones: one at an edge, zero elsewhere. -/
theorem adj_entry (c : Dev nD) (h : InRange (eK m c)) (i r : Fin 8192) : adjArr (E8 m) c (ix2 i r) = adj (eK m c) i r := by
  show (E8 m c main_v19 : Vec Ideal S8192x8192 .bf16) (ix2 i r) = _
  rw [E8_main_v19, Cert.KernelIdeal.HostK.V6_main_v19]
  exact Cert.KernelIdeal.HostK.adjK_apply _ h i r

/-- The one host operation between the regions reshapes the bias to a row. -/
theorem E8_main_v47_eq (c : Dev nD) :
    E8 m c main_v47 = shapeCast S1x512 (W7 m c main_arg3) shapeCasts_S512_S1x512 := by
  show StableHlo.after hostOps1 (W7 m c) (Proc.devRef .tc main_v47) = _
  after_results
  rfl

theorem bias_entry (c : Dev nD) (j : Fin 512) : biasArr (E8 m) c (ix2 0 j) = bK m c (ix1 j) := by
  show (E8 m c main_v47 : Vec Ideal S1x512 .f32) (ix2 0 j) = _
  rw [E8_main_v47_eq, W7_main_arg3]
  exact shapeCast_a_1a_apply _ _ 0 j

/-- THE KERNEL PROGRAM'S RESULT at (i, j). -/
theorem kernel_out (c : Dev nD) (h : InRange (eK m c)) (i : Fin 8192) (j : Fin 512) :
    outArr (E8 m) c (ix2 i j)
      = (dinv (eK m c) i
            * (∑ k : Fin 16, ∑ l : Fin 512, adj (eK m c) i (blk k l)
                * (dinv (eK m c) (blk k l) * supp (xK m c) (wK m c) (blk k l) j))
          + (dinv (eK m c) i * dinv (eK m c) i) * supp (xK m c) (wK m c) i j)
        + bK m c (ix1 j) := by
  have hsum : (∑ k : Fin 16, ∑ l : Fin 512, adjArr (E8 m) c (ix2 i (blk k l)) * scaledArr (E8 m) c (ix2 (blk k l) j))
      = ∑ k : Fin 16, ∑ l : Fin 512, adj (eK m c) i (blk k l) * (dinv (eK m c) (blk k l) * supp (xK m c) (wK m c) (blk k l) j) :=
    Finset.sum_congr rfl fun k _ => Finset.sum_congr rfl fun l _ => by
      rw [adj_entry m c h i (blk k l), scaled_entry m c h (blk k l) j]
  rw [out_val (E8 m) c i j, d_entry m c h i, supp_entry m c i j, bias_entry m c j, hsum]

end Cert.Bridge

end
-- ==== Proof.lean ====
/-
  The certificate: a graph-convolution layer  out = D^(-1/2) (A + I) D^(-1/2) (x w) + b  over an edge list, as a Pallas program
  of two kernel regions against the plain array program.

  The kernel program builds the 0/1 adjacency A by a scatter of ones, finds the degrees from the edge list alone (sort the
  keys row·8192 + column, flag first occurrences, add the flags up per row, plus one for the self-loop), computes the support
  S = x w and its row-scaled copy d ⊙ S in a first kernel region, and in a second one accumulates A (d ⊙ S) over 16 blocks of
  512 rows into a scratch and finishes each row block as  d_i · acc + d_i² · S_i + b.  The reference adds the identity to
  the scattered adjacency, sums its rows for the degrees, scales rows and columns by d and multiplies by S.

  Frames: each program runs to the end, faults nowhere and leaves its arguments unchanged — the kernel programs by the run of
  their nine items over the two regions' proof data (the second region's invariant carries the scratch accumulator from grid
  point to grid point), the reference by its run with the result dropped.  The idealization rewrote nothing.  Equal results
  over the extended reals: the kernel's result array read off the run, the reference's read operation by operation, and the
  convolution law; the precondition (finite float inputs, edge numbers in range) makes every quantity but the bias a real
  number and makes the key row·8192 + column determine the edge.
-/
import proofs.«429857_j22385369547440_3_alg».proof.Defs
import proofs.«429857_j22385369547440_3_alg».proof.Proof.Gen.Kernel
import proofs.«429857_j22385369547440_3_alg».proof.Proof.Gen.KernelIdeal
import proofs.«429857_j22385369547440_3_alg».proof.Proof.Gen.ReferenceIdeal
import proofs.«429857_j22385369547440_3_alg».proof.Proof.Gen.Pre_finite_inputs
import proofs.«429857_j22385369547440_3_alg».proof.Proof.KRun
import proofs.«429857_j22385369547440_3_alg».proof.Proof.Run
import proofs.«429857_j22385369547440_3_alg».proof.Proof.RefRun
import proofs.«429857_j22385369547440_3_alg».proof.Proof.RefRead
import proofs.«429857_j22385369547440_3_alg».proof.Proof.RefVal
import proofs.«429857_j22385369547440_3_alg».proof.Proof.PreDecode
import proofs.«429857_j22385369547440_3_alg».proof.Proof.Bridge
import Idealize.ShloMosaic.Adequacy
import Idealize.ShloMosaic.Init

noncomputable section

namespace Cert.Proof

open Idealize.ShloMosaic Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at one array: the kernel's, read off its run, is the reference's term of arguments that agree. -/
theorem algebraic : Cert.algebraic_KernelIdeal_ReferenceIdeal := by
  intro m ρ m' ρ' hpre hagree
  refine ⟨fun c => (Cert.KernelIdeal.Gen.dat1 (F := Ideal) (Cert.KernelIdeal.Gen.E8 m) c).arrAt 5 Cert.KernelIdeal.cfg1.N,
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, _, hr⟩ := Cert.PreDecode.decode _ _ _ _ (hpre c)
  rw [Cert.ReferenceIdeal.Read.val_main_v42_eq, (hagree c).1, (hagree c).2.1, (hagree c).2.2.1, (hagree c).2.2.2]
  funext idx
  obtain ⟨i, j, rfl⟩ : ∃ (i : Fin 8192) (j : Fin 512), idx = ix2 i j := ⟨idx 0, idx 1, eq_ix2 idx⟩
  rw [Cert.RefVal.ref_out _ _ _ _ hr i j]
  refine Eq.trans ?_ (Cert.Bridge.kernel_out m c hr i j).symm
  exact (Cert.Algebra.conv_eq (Cert.Bridge.supp (Cert.Bridge.xK m c) (Cert.Bridge.wK m c)) (Cert.Bridge.supp_real _ _ hx hw)
    (Cert.Spec.adj (Cert.Bridge.eK m c)) (Cert.Spec.adj_zero_or_one _) (Cert.Spec.dinv (Cert.Bridge.eK m c)) (Cert.Spec.dinv_real _)
    (fun j => Cert.Bridge.bK m c (ix1 j)) i j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
